-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v110)) (v1 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_v112) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_v140) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x640000 : Shape := ⟨2, ![2, 640000]⟩
abbrev S640000 : Shape := ⟨1, ![640000]⟩
abbrev S50x256 : Shape := ⟨2, ![50, 256]⟩
abbrev S256x256 : Shape := ⟨2, ![256, 256]⟩
abbrev S1x256 : Shape := ⟨2, ![1, 256]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S50x256 : S_.BroadcastsInDim S50x256 (![] : Fin 0 → Fin S50x256.rank)
  reducesTo_S50x256_S_d0_1 : S50x256.ReducesTo [0, 1] S_
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_
  bcast_S_S256 : S_.BroadcastsInDim S256 (![] : Fin 0 → Fin S256.rank)
  reducesTo_S256_S_d0 : S256.ReducesTo [0] S_
  bcast_S_S640000 : S_.BroadcastsInDim S640000 (![] : Fin 0 → Fin S640000.rank)
  reducesTo_S640000_S_d0 : S640000.ReducesTo [0] S_

variable [Facts]

def fn_part2 {F : FTy → Type} [FloatOps F] (main_arg2 : IVec S640000 32) (main_arg9 : FVec F S256 .f32) (main_arg10 : FVec F S256 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_c_16 : IVec S_ 32 := constantI S_ 32 0#32
  let main_v44 : IVec S640000 32 := broadcastInDim S640000 ![] bcast_S_S640000 main_c_16
  let main_v45 : IVec S640000 1 := cmpi .sge main_arg2 main_v44
  let main_c_17 : IVec S_ 32 := constantI S_ 32 51#32
  let main_v46 : IVec S640000 32 := broadcastInDim S640000 ![] bcast_S_S640000 main_c_17
  let main_v47 : IVec S640000 1 := cmpi .slt main_arg2 main_v46
  let main_v48 : IVec S640000 1 := andi main_v45 main_v47
  let main_c_18 : IVec S_ 1 := constantI S_ 1 1#1
  let main_v49 : IVec S_ 1 := (fun x v => Host.reduce IntOp.andi x v reducesTo_S640000_S_d0 h_S_) main_v48 main_c_18
  let main_v50 : IVec S_ 1 := andi main_v43 main_v49
  main_v50

def fn_part1 {F : FTy → Type} [FloatOps F] (main_arg2 : IVec S640000 32) (main_arg6 : FVec F S256x256 .f32) (main_arg7 : FVec F S256x256 .f32) (main_arg8 : FVec F S1x256 .f32) (main_arg9 : FVec F S256 .f32) (main_arg10 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S1x256 .f32 := Host.absf main_arg8
  let main_cst_10 : FVec F S_ .f32 := constant S_ .f32 0x7F800000#32
  let main_v30 : FVec F S1x256 .f32 := broadcastInDim S1x256 ![] bcast_S_S1x256 main_cst_10
  let main_v31 : IVec S1x256 1 := cmpf .olt main_v29 main_v30
  let main_c_11 : IVec S_ 1 := constantI S_ 1 1#1
  let main_v32 : IVec S_ 1 := (fun x v => Host.reduce IntOp.andi x v reducesTo_S1x256_S_d0_1 h_S_) main_v31 main_c_11
  let main_v33 : IVec S_ 1 := andi main_v28 main_v32
  fn_part2 (F := F) main_arg2 main_arg9 main_arg10 main_v33

def fn {F : FTy → Type} [FloatOps F] (main_arg0 : FVec F S100000x256 .f32) (main_arg1 : IVec S2x640000 32) (main_arg2 : IVec S640000 32) (main_arg3 : FVec F S50x256 .f32) (main_arg4 : FVec F S256x256 .f32) (main_arg5 : FVec F S256x256 .f32) (main_arg6 : FVec F S256x256 .f32) (main_arg7 : FVec F S256x256 .f32) (main_arg8 : FVec F S1x256 .f32) (main_arg9 : FVec F S256 .f32) (main_arg10 : FVec F S256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S50x256 .f32 := Host.absf main_arg3
  let main_cst_0 : FVec F S_ .f32 := constant S_ .f32 0x7F800000#32
  let main_v5 : FVec F S50x256 .f32 := broadcastInDim S50x256 ![] bcast_S_S50x256 main_cst_0
  let main_v6 : IVec S50x256 1 := cmpf .olt main_v4 main_v5
  let main_c_1 : IVec S_ 1 := constantI S_ 1 1#1
  let main_v7 : IVec S_ 1 := (fun x v => Host.reduce IntOp.andi x v reducesTo_S50x256_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg2 main_arg6 main_arg7 main_arg8 main_arg9 main_arg10 main_v13 main_v16
-- ==== Kernel.lean ====
abbrev S100000x256 : Shape := ⟨2, ![100000, 256]⟩
abbrev S2x640000 : Shape := ⟨2, ![2, 640000]⟩
abbrev S640000 : Shape := ⟨1, ![640000]⟩
abbrev S50x256 : Shape := ⟨2, ![50, 256]⟩
abbrev S256x256 : Shape := ⟨2, ![256, 256]⟩
abbrev S1x256 : Shape := ⟨2, ![1, 256]⟩
abbrev S256 : Shape := ⟨1, ![256]⟩
abbrev S51x256 : Shape := ⟨2, ![51, 256]⟩
abbrev S2x320000 : Shape := ⟨2, ![2, 320000]⟩
abbrev S320000 : Shape := ⟨1, ![320000]⟩
abbrev S1x320000 : Shape := ⟨2, ![1, 320000]⟩
abbrev S_ : Shape := ⟨0, ![]⟩
abbrev S100000 : Shape := ⟨1, ![100000]⟩
abbrev S320000x1 : Shape := ⟨2, ![320000, 1]⟩
abbrev S320000x256 : Shape := ⟨2, ![320000, 256]⟩
abbrev S4000x256 : Shape := ⟨2, ![4000, 256]⟩
abbrev S4000x1 : Shape := ⟨2, ![4000, 1]⟩
abbrev S1x51 : Shape := ⟨2, ![1, 51]⟩
abbrev S4000x51 : Shape := ⟨2, ![4000, 51]⟩
abbrev S100000x1 : Shape := ⟨2, ![100000, 1]⟩
abbrev S640000x256 : Shape := ⟨2, ![640000, 256]⟩
abbrev S640000x1 : Shape := ⟨2, ![640000, 1]⟩

abbrev nBuf : Space → Nat
  | .hbm => 156
  | .vmem => 46
  | .smem => 0
  | _ => 0

abbrev hbmTy0_0 (i : Nat) : BufTy := match i % 128 with
  | 0 => ⟨S100000x256, .f32⟩
  | 1 => ⟨S2x640000, .i32⟩
  | 2 => ⟨S640000, .i32⟩
  | 3 => ⟨S50x256, .f32⟩
  | 4 => ⟨S256x256, .f32⟩
  | 5 => ⟨S256x256, .f32⟩
  | 6 => ⟨S256x256, .f32⟩
  | 7 => ⟨S256x256, .f32⟩
  | 8 => ⟨S1x256, .f32⟩
  | 9 => ⟨S256, .f32⟩
  | 10 => ⟨S256, .f32⟩
  | 11 => ⟨S51x256, .f32⟩
  | 12 => ⟨S2x320000, .i32⟩
  | 13 => ⟨S2x320000, .i32⟩
  | 14 => ⟨S320000, .i32⟩
  | 15 => ⟨S320000, .i32⟩
  | 16 => ⟨S1x320000, .i32⟩
  | 17 => ⟨S320000, .i32⟩
  | 18 => ⟨S1x320000, .i32⟩
  | 19 => ⟨S320000, .i32⟩
  | 20 => ⟨S_, .f32⟩
  | 21 => ⟨S320000, .f32⟩
  | 22 => ⟨S_, .f32⟩
  | 23 => ⟨S100000, .f32⟩
  | 24 => ⟨S320000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S320000, .i32⟩
  | 38 => ⟨S320000, .i1⟩
  | 39 => ⟨S_, .i32⟩
  | 40 => ⟨S320000, .i32⟩
  | 41 => ⟨S320000, .i32⟩
  | 42 => ⟨S320000, .i32⟩
  | 43 => ⟨S320000x1, .i32⟩
  | 44 => ⟨S320000, .f32⟩
  | 45 => ⟨S_, .i32⟩
  | 46 => ⟨S320000, .i32⟩
  | 47 => ⟨S320000, .i1⟩
  | 48 => ⟨S_, .i32⟩
  | 49 => ⟨S320000, .i32⟩
  | 50 => ⟨S320000, .i32⟩
  | 51 => ⟨S320000, .i32⟩
  | 52 => ⟨S320000x1, .i32⟩
  | 53 => ⟨S320000, .f32⟩
  | 54 => ⟨S320000, .f32⟩
  | 55 => ⟨S1x320000, .i32⟩
  | 56 => ⟨S320000, .i32⟩
  | 57 => ⟨S1x320000, .i32⟩
  | 58 => ⟨S320000, .i32⟩
  | 59 => ⟨S_, .f32⟩
  | 60 => ⟨S320000, .f32⟩
  | 61 => ⟨S_, .f32⟩
  | 62 => ⟨S100000, .f32⟩
  | 63 => ⟨S320000x1, .i32⟩
  | 64 => ⟨S100000, .f32⟩
  | 65 => ⟨S_, .f32⟩
  | 66 => ⟨S100000, .f32⟩
  | 67 => ⟨S100000, .i1⟩
  | 68 => ⟨S_, .f32⟩
  | 69 => ⟨S100000, .f32⟩
  | 70 => ⟨S100000, .f32⟩
  | 71 => ⟨S_, .f32⟩
  | 72 => ⟨S_, .f32⟩
  | 73 => ⟨S100000, .f32⟩
  | 74 => ⟨S100000, .f32⟩
  | 75 => ⟨S_, .i32⟩
  | 76 => ⟨S320000, .i32⟩
  | 77 => ⟨S320000, .i1⟩
  | 78 => ⟨S_, .i32⟩
  | 79 => ⟨S320000, .i32⟩
  | 80 => ⟨S320000, .i32⟩
  | 81 => ⟨S320000, .i32⟩
  | 82 => ⟨S320000x1, .i32⟩
  | 83 => ⟨S320000, .f32⟩
  | 84 => ⟨S_, .i32⟩
  | 85 => ⟨S320000, .i32⟩
  | 86 => ⟨S320000, .i1⟩
  | 87 => ⟨S_, .i32⟩
  | 88 => ⟨S320000, .i32⟩
  | 89 => ⟨S320000, .i32⟩
  | 90 => ⟨S320000, .i32⟩
  | 91 => ⟨S320000x1, .i32⟩
  | 92 => ⟨S320000, .f32⟩
  | 93 => ⟨S320000, .f32⟩
  | 94 => ⟨S1x320000, .i32⟩
  | 95 => ⟨S320000, .i32⟩
  | 96 => ⟨S1x320000, .i32⟩
  | 97 => ⟨S320000, .i32⟩
  | 98 => ⟨S1x320000, .i32⟩
  | 99 => ⟨S320000, .i32⟩
  | 100 => ⟨S1x320000, .i32⟩
  | 101 => ⟨S320000, .i32⟩
  | 102 => ⟨S_, .i32⟩
  | 103 => ⟨S320000, .i32⟩
  | 104 => ⟨S320000, .i1⟩
  | 105 => ⟨S_, .i32⟩
  | 106 => ⟨S320000, .i32⟩
  | 107 => ⟨S320000, .i32⟩
  | 108 => ⟨S320000, .i32⟩
  | 109 => ⟨S320000x1, .i32⟩
  | 110 => ⟨S320000x256, .f32⟩
  | 111 => ⟨S_, .i32⟩
  | 112 => ⟨S320000, .i32⟩
  | 113 => ⟨S320000, .i1⟩
  | 114 => ⟨S_, .i32⟩
  | 115 => ⟨S320000, .i32⟩
  | 116 => ⟨S320000, .i32⟩
  | 117 => ⟨S320000, .i32⟩
  | 118 => ⟨S320000x1, .i32⟩
  | 119 => ⟨S320000x256, .f32⟩
  | 120 => ⟨S320000x1, .i32⟩
  | 121 => ⟨S320000x1, .i32⟩
  | 122 => ⟨S320000x1, .f32⟩
  | 123 => ⟨S320000x1, .f32⟩
  | 124 => ⟨S320000x256, .f32⟩
  | 125 => ⟨S320000x256, .f32⟩
  | 126 => ⟨S_, .i32⟩
  | 127 => ⟨S100000x1, .i32⟩
  | _ => ⟨S100000x256, .f32⟩

abbrev hbmTy0_1 (i : Nat) : BufTy := match i % 128 with
  | 0 => ⟨S_, .f32⟩
  | 1 => ⟨S100000x1, .f32⟩
  | 2 => ⟨S100000x256, .f32⟩
  | 3 => ⟨S640000x256, .f32⟩
  | 4 => ⟨S640000, .i32⟩
  | 5 => ⟨S_, .f32⟩
  | 6 => ⟨S100000x256, .f32⟩
  | 7 => ⟨S640000x1, .i32⟩
  | 8 => ⟨S100000x256, .f32⟩
  | 9 => ⟨S1x256, .f32⟩
  | 10 => ⟨S1x256, .f32⟩
  | 11 => ⟨S256, .f32⟩
  | 12 => ⟨S_, .f32⟩
  | 13 => ⟨S256, .f32⟩
  | 14 => ⟨S256, .f32⟩
  | 15 => ⟨S256, .f32⟩
  | 16 => ⟨S_, .f32⟩
  | 17 => ⟨S256, .f32⟩
  | 18 => ⟨S256, .f32⟩
  | 19 => ⟨S256, .f32⟩
  | 20 => ⟨S256, .f32⟩
  | 21 => ⟨S1x256, .f32⟩
  | 22 => ⟨S1x256, .f32⟩
  | 23 => ⟨S1x256, .f32⟩
  | 24 => ⟨S1x256, .f32⟩
  | 25 => ⟨S100000x256, .f32⟩
  | 26 => ⟨S51x256, .f32⟩
  | 27 => ⟨S50x256, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S4000x256, .f32⟩
  | .local _ .vmem, ⟨1, _⟩ => ⟨S4000x256, .f32⟩
  | .local _ .vmem, ⟨2, _⟩ => ⟨S4000x1, .i32⟩
  | .local _ .vmem, ⟨3, _⟩ => ⟨S4000x1, .i32⟩
  | .local _ .vmem, ⟨4, _⟩ => ⟨S51x256, .f32⟩
  | .local _ .vmem, ⟨5, _⟩ => ⟨S256x256, .f32⟩
  | .local _ .vmem, ⟨6, _⟩ => ⟨S4000x1, .f32⟩
  | .local _ .vmem, ⟨7, _⟩ => ⟨S4000x1, .f32⟩
  | .local _ .vmem, ⟨8, _⟩ => ⟨S4000x256, .f32⟩
  | .local _ .vmem, ⟨9, _⟩ => ⟨S4000x256, .f32⟩
  | .local _ .vmem, ⟨10, _⟩ => ⟨S4000x256, .f32⟩
  | .local _ .vmem, ⟨11, _⟩ => ⟨S4000x256, .f32⟩
  | .local _ .vmem, ⟨12, _⟩ => ⟨S4000x1, .i32⟩
  | .local _ .vmem, ⟨13, _⟩ => ⟨S4000x1, .i32⟩
  | .local _ .vmem, ⟨14, _⟩ => ⟨S51x256, .f32⟩
  | .local _ .vmem, ⟨15, _⟩ => ⟨S256x256, .f32⟩
  | .local _ .vmem, ⟨16, _⟩ => ⟨S4000x1, .f32⟩
  | .local _ .vmem, ⟨17, _⟩ => ⟨S4000x1, .f32⟩
  | .local _ .vmem, ⟨18, _⟩ => ⟨S4000x256, .f32⟩
  | .local _ .vmem, ⟨19, _⟩ => ⟨S4000x256, .f32⟩
  | .local _ .vmem, ⟨20, _⟩ => ⟨S4000x256, .f32⟩
  | .local _ .vmem, ⟨21, _⟩ => ⟨S4000x256, .f32⟩
  | .local _ .vmem, ⟨22, _⟩ => ⟨S4000x1, .i32⟩
  | .local _ .vmem, ⟨23, _⟩ => ⟨S4000x1, .i32⟩
  | .local _ .vmem, ⟨24, _⟩ => ⟨S51x256, .f32⟩
  | .local _ .vmem, ⟨25, _⟩ => ⟨S256x256, .f32⟩
  | .local _ .vmem, ⟨26, _⟩ => ⟨S4000x1, .f32⟩
  | .local _ .vmem, ⟨27, _⟩ => ⟨S4000x1, .f32⟩
  | .local _ .vmem, ⟨28, _⟩ => ⟨S4000x256, .f32⟩
  | .local _ .vmem, ⟨29, _⟩ => ⟨S4000x256, .f32⟩
  | .local _ .vmem, ⟨30, _⟩ => ⟨S4000x256, .f32⟩
  | .local _ .vmem, ⟨31, _⟩ => ⟨S4000x256, .f32⟩
  | .local _ .vmem, ⟨32, _⟩ => ⟨S4000x256, .f32⟩
  | .local _ .vmem, ⟨33, _⟩ => ⟨S4000x256, .f32⟩
  | .local _ .vmem, ⟨34, _⟩ => ⟨S1x256, .f32⟩
  | .local _ .vmem, ⟨35, _⟩ => ⟨S1x256, .f32⟩
  | .local _ .vmem, ⟨36, _⟩ => ⟨S4000x256, .f32⟩
  | .local _ .vmem, ⟨37, _⟩ => ⟨S4000x256, .f32⟩
  | .local _ .vmem, ⟨38, _⟩ => ⟨S4000x256, .f32⟩
  | .local _ .vmem, ⟨39, _⟩ => ⟨S4000x256, .f32⟩
  | .local _ .vmem, ⟨40, _⟩ => ⟨S1x256, .f32⟩
  | .local _ .vmem, ⟨41, _⟩ => ⟨S1x256, .f32⟩
  | .local _ .vmem, ⟨42, _⟩ => ⟨S1x256, .f32⟩
  | .local _ .vmem, ⟨43, _⟩ => ⟨S1x256, .f32⟩
  | .local _ .vmem, ⟨44, _⟩ => ⟨S4000x256, .f32⟩
  | .local _ .vmem, ⟨45, _⟩ => ⟨S4000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_cst_10 : Ref sig .tc := ⟨.hbm, 68, rfl⟩
abbrev main_v43 : Ref sig .tc := ⟨.hbm, 69, rfl⟩
abbrev main_v44 : Ref sig .tc := ⟨.hbm, 70, rfl⟩
abbrev main_cst_11 : Ref sig .tc := ⟨.hbm, 71, rfl⟩
abbrev main_call1_v0 : Ref sig .tc := ⟨.hbm, 72, rfl⟩
abbrev main_call1_v1 : Ref sig .tc := ⟨.hbm, 73, rfl⟩
abbrev main_v45 : Ref sig .tc := ⟨.hbm, 74, rfl⟩
abbrev main_c_12 : Ref sig .tc := ⟨.hbm, 75, rfl⟩
abbrev main_v46 : Ref sig .tc := ⟨.hbm, 76, rfl⟩
abbrev main_v47 : Ref sig .tc := ⟨.hbm, 77, rfl⟩
abbrev main_c_13 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_c_14 : Ref sig .tc := ⟨.hbm, 84, rfl⟩
abbrev main_v53 : Ref sig .tc := ⟨.hbm, 85, rfl⟩
abbrev main_v54 : Ref sig .tc := ⟨.hbm, 86, rfl⟩
abbrev main_c_15 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_c_16 : Ref sig .tc := ⟨.hbm, 102, rfl⟩
abbrev main_v69 : Ref sig .tc := ⟨.hbm, 103, rfl⟩
abbrev main_v70 : Ref sig .tc := ⟨.hbm, 104, rfl⟩
abbrev main_c_17 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_c_18 : Ref sig .tc := ⟨.hbm, 111, rfl⟩
abbrev main_v76 : Ref sig .tc := ⟨.hbm, 112, rfl⟩
abbrev main_v77 : Ref sig .tc := ⟨.hbm, 113, rfl⟩
abbrev main_c_19 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_c_20 : Ref sig .tc := ⟨.hbm, 126, rfl⟩
abbrev main_v89 : Ref sig .tc := ⟨.hbm, 127, rfl⟩
abbrev main_cst_21 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_22 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97_0 : Ref sig .tc := ⟨.hbm, 137, rfl⟩
abbrev main_v97_1 : Ref sig .tc := ⟨.hbm, 138, rfl⟩
abbrev main_v98 : Ref sig .tc := ⟨.hbm, 139, rfl⟩
abbrev main_cst_23 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_24 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg6_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem6_1 : DmaSem sig := 45

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S51x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S51x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S51x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S4000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S4000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S4000x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  concatenates_S50x256_S1x256_S51x256_d0 : Shape.Concatenates [S50x256, S1x256] S51x256 0
  slices_S2x640000_S2x320000_0_0 : S2x640000.Slices ![0, 0] S2x320000
  slices_S2x640000_S2x320000_0_320000 : S2x640000.Slices ![0, 320000] S2x320000
  slices_S640000_S320000_0 : S640000.Slices ![0] S320000
  slices_S640000_S320000_320000 : S640000.Slices ![320000] S320000
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S100000 : S_.BroadcastsInDim S100000 (![] : Fin 0 → Fin S100000.rank)
  bcast_S320000_S320000x1_0 : S320000.BroadcastsInDim S320000x1 (![0] : Fin 1 → Fin S320000x1.rank)
  shapeCasts_S320000_S320000x1 : S320000.ShapeCasts S320000x1
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S1x51_d1_w32 : S1x51.Iotas .tc 32 [1]
  broadcasts_S4000x1_S4000x51 : S4000x1.Broadcasts S4000x51
  broadcasts_S1x51_S4000x51 : S1x51.Broadcasts S4000x51
  natLt_1_32 : 1 < 32
  inb_S51x256_S51x256_0_0 : ∀ a, (![0, 0] : Fin 2 → Nat) a + S51x256.size a ≤ S51x256.size a
  h_S51x256 : 0 < S51x256.numel
  shapeCasts_S51x256_S51x256 : S51x256.ShapeCasts S51x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  broadcasts_S4000x1_S4000x256 : S4000x1.Broadcasts S4000x256
  bcast_S_S100000x1 : S_.BroadcastsInDim S100000x1 (![] : Fin 0 → Fin S100000x1.rank)
  concatenates_S320000x256_S320000x256_S640000x256_d0 : Shape.Concatenates [S320000x256, S320000x256] S640000x256 0
  concatenates_S320000_S320000_S640000_d0 : Shape.Concatenates [S320000, S320000] S640000 0
  bcast_S_S100000x256 : S_.BroadcastsInDim S100000x256 (![] : Fin 0 → Fin S100000x256.rank)
  bcast_S640000_S640000x1_0 : S640000.BroadcastsInDim S640000x1 (![0] : Fin 1 → Fin S640000x1.rank)
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S4000x256_S256 : S4000x256.Reduces [0] S256
  shapeCasts_S256_S1x256 : S256.ShapeCasts S1x256
  shapeCasts_S1x256_S256 : S1x256.ShapeCasts S256
  bcast_S_S256 : S_.BroadcastsInDim S256 (![] : Fin 0 → Fin S256.rank)
  broadcasts_S1x256_S4000x256 : S1x256.Broadcasts S4000x256
  slices_S51x256_S50x256_0_0 : S51x256.Slices ![0, 0] S50x256
  scatter_S100000_S320000x1_S320000_n_0_0_1_wf : ScatterDims.WF S100000 S320000x1 S320000 [] [0] [0] 1
  gather_S100000_S320000x1_S320000_n_0_n_n_0_1_1_wf : GatherDims.WF S100000 S320000x1 S320000 [] [0] [] [0] [] 1 ![1]
  gather_S100000x256_S320000x1_S320000x256_1_0_n_n_0_1_1256_wf : GatherDims.WF S100000x256 S320000x1 S320000x256 [1] [0] [] [0] [] 1 ![1, 256]
  dot_S4000x51_S51x256_S4000x256_1_0_0_1_n_n_wf : DotDims.WF S4000x51 S51x256 S4000x256 [1] [0] [0] [1] [] []
  dot_S4000x256_S256x256_S4000x256_1_0_0_1_n_n_wf : DotDims.WF S4000x256 S256x256 S4000x256 [1] [0] [0] [1] [] []
  scatter_S100000x256_S640000x1_S640000x256_1_0_0_1_wf : ScatterDims.WF S100000x256 S640000x1 S640000x256 [1] [0] [0] 1
  dot_S51x256_S256x256_S51x256_1_0_0_1_n_n_wf : DotDims.WF S51x256 S256x256 S51x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S320000x256.size a
  hwx0_0 : ∀ i : grid0.Coords, EltTy.bits .f32 = 32 ∨ (Rect.block (s := S320000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S320000x1.size a
  hwx0_1 : ∀ i : grid0.Coords, EltTy.bits .i32 = 32 ∨ (Rect.block (s := S320000x1) S4000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S51x256.size a ≤ S51x256.size a
  hwx0_2 : ∀ i : grid0.Coords, EltTy.bits .f32 = 32 ∨ (Rect.block (s := S51x256) S51x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x1.size a ≤ S320000x1.size a
  hwx0_4 : ∀ i : grid0.Coords, EltTy.bits .f32 = 32 ∨ (Rect.block (s := S320000x1) S4000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x256.size a ≤ S320000x256.size a
  hwx0_5 : ∀ i : grid0.Coords, EltTy.bits .f32 = 32 ∨ (Rect.block (s := S320000x256) S4000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S320000x256.size a
  hwx1_0 : ∀ i : grid1.Coords, EltTy.bits .f32 = 32 ∨ (Rect.block (s := S320000x256) S4000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S320000x1.size a
  hwx1_1 : ∀ i : grid1.Coords, EltTy.bits .i32 = 32 ∨ (Rect.block (s := S320000x1) S4000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S51x256.size a ≤ S51x256.size a
  hwx1_2 : ∀ i : grid1.Coords, EltTy.bits .f32 = 32 ∨ (Rect.block (s := S51x256) S51x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x1.size a ≤ S320000x1.size a
  hwx1_4 : ∀ i : grid1.Coords, EltTy.bits .f32 = 32 ∨ (Rect.block (s := S320000x1) S4000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x256.size a ≤ S320000x256.size a
  hwx1_5 : ∀ i : grid1.Coords, EltTy.bits .f32 = 32 ∨ (Rect.block (s := S320000x256) S4000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S100000x256.size a
  hwx2_0 : ∀ i : grid2.Coords, EltTy.bits .f32 = 32 ∨ (Rect.block (s := S100000x256) S4000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .i32 = 32 ∨ (Rect.block (s := S100000x1) S4000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S51x256.size a ≤ S51x256.size a
  hwx2_2 : ∀ i : grid2.Coords, EltTy.bits .f32 = 32 ∨ (Rect.block (s := S51x256) S51x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x1.size a ≤ S100000x1.size a
  hwx2_4 : ∀ i : grid2.Coords, EltTy.bits .f32 = 32 ∨ (Rect.block (s := S100000x1) S4000x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x256.size a ≤ S100000x256.size a
  hwx2_5 : ∀ i : grid2.Coords, EltTy.bits .f32 = 32 ∨ (Rect.block (s := S100000x256) S4000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x256.size a ≤ S100000x256.size a
  hwx3_0 : ∀ i : grid3.Coords, EltTy.bits .f32 = 32 ∨ (Rect.block (s := S100000x256) S4000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x256.size a ≤ S100000x256.size a
  hwx3_1 : ∀ i : grid3.Coords, EltTy.bits .f32 = 32 ∨ (Rect.block (s := S100000x256) S4000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x256.size a ≤ S100000x256.size a
  hwx4_0 : ∀ i : grid4.Coords, EltTy.bits .f32 = 32 ∨ (Rect.block (s := S100000x256) S4000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x256.size a ≤ S100000x256.size a
  hwx4_1 : ∀ i : grid4.Coords, EltTy.bits .f32 = 32 ∨ (Rect.block (s := S100000x256) S4000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S4000x256.size a ≤ S100000x256.size a
  hwx4_6 : ∀ i : grid4.Coords, EltTy.bits .f32 = 32 ∨ (Rect.block (s := S100000x256) S4000x256.size (cc4_transform_6 i) (hinb4_6 i)).WholeWords (EltTy.packing .f32)

variable [Facts₀]

def scatter_S100000_S320000x1_S320000_n_0_0_1 : ScatterDims S100000 S320000x1 S320000 where
  updateWindowDims := []
  insertedWindowDims := [0]
  scatterDimsToOperandDims := [0]
  indexVectorDim := 1
  wf := scatter_S100000_S320000x1_S320000_n_0_0_1_wf
def gather_S100000_S320000x1_S320000_n_0_n_n_0_1_1 : GatherDims S100000 S320000x1 S320000 where
  offsetDims := []
  collapsedSliceDims := [0]
  operandBatchingDims := []
  startIndicesBatchingDims := []
  startIndexMap := [0]
  indexVectorDim := 1
  sliceSizes := ![1]
  wf := gather_S100000_S320000x1_S320000_n_0_n_n_0_1_1_wf
def gather_S100000x256_S320000x1_S320000x256_1_0_n_n_0_1_1256 : GatherDims S100000x256 S320000x1 S320000x256 where
  offsetDims := [1]
  collapsedSliceDims := [0]
  operandBatchingDims := []
  startIndicesBatchingDims := []
  startIndexMap := [0]
  indexVectorDim := 1
  sliceSizes := ![1, 256]
  wf := gather_S100000x256_S320000x1_S320000x256_1_0_n_n_0_1_1256_wf
def dot_S4000x51_S51x256_S4000x256_1_0_0_1_n_n : DotDims S4000x51 S51x256 S4000x256 where
  lhsContracting := [1]
  rhsContracting := [0]
  lhsNonContracting := [0]
  rhsNonContracting := [1]
  lhsBatch := []
  rhsBatch := []
  wf := dot_S4000x51_S51x256_S4000x256_1_0_0_1_n_n_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def scatter_S100000x256_S640000x1_S640000x256_1_0_0_1 : ScatterDims S100000x256 S640000x1 S640000x256 where
  updateWindowDims := [1]
  insertedWindowDims := [0]
  scatterDimsToOperandDims := [0]
  indexVectorDim := 1
  wf := scatter_S100000x256_S640000x1_S640000x256_1_0_0_1_wf
def dot_S51x256_S256x256_S51x256_1_0_0_1_n_n : DotDims S51x256 S256x256 S51x256 where
  lhsContracting := [1]
  rhsContracting := [0]
  lhsNonContracting := [0]
  rhsNonContracting := [1]
  lhsBatch := []
  rhsBatch := []
  wf := dot_S51x256_S256x256_S51x256_1_0_0_1_n_n_wf

abbrev win0_0 : Pipeline.Window sig grid0 :=
  Pipeline.Window.ofSpec (Memref.whole main_v75) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v83) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S51x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v85) S4000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v87) S4000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v82) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v84) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S51x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v86) S4000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v88) S4000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg0) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v89) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0) S51x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v90) S4000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v91) S4000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v96) S4000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v91) S4000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v97_0) S1x256.size cc3_transform_2 reads3_2 true true 1 stage3_2 sem3_2
    hrank3 hreads3_2 hinb3_2 nbuf3_2 (Memref.isWhole_whole _) hwx3_2 hstage3_2

abbrev win3_3 : Pipeline.Window sig grid3 :=
  Pipeline.Window.ofSpec (Memref.whole main_v97_1) S1x256.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v96) S4000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v91) S4000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v106) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v107) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v108) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v109) S1x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v110) S4000x256.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S100000x256 : Shape := ⟨2, ![100000, 256]⟩
abbrev S2x640000 : Shape := ⟨2, ![2, 640000]⟩
abbrev S640000 : Shape := ⟨1, ![640000]⟩
abbrev S50x256 : Shape := ⟨2, ![50, 256]⟩
abbrev S256x256 : Shape := ⟨2, ![256, 256]⟩
abbrev S1x256 : Shape := ⟨2, ![1, 256]⟩
abbrev S256 : Shape := ⟨1, ![256]⟩
abbrev S51x256 : Shape := ⟨2, ![51, 256]⟩
abbrev S2x320000 : Shape := ⟨2, ![2, 320000]⟩
abbrev S320000 : Shape := ⟨1, ![320000]⟩
abbrev S1x320000 : Shape := ⟨2, ![1, 320000]⟩
abbrev S_ : Shape := ⟨0, ![]⟩
abbrev S100000 : Shape := ⟨1, ![100000]⟩
abbrev S320000x1 : Shape := ⟨2, ![320000, 1]⟩
abbrev S320000x256 : Shape := ⟨2, ![320000, 256]⟩

abbrev nBuf : Space → Nat
  | .hbm => 210
  | .vmem => 0
  | .smem => 0
  | _ => 0

abbrev hbmTy0_0 (i : Nat) : BufTy := match i % 128 with
  | 0 => ⟨S100000x256, .f32⟩
  | 1 => ⟨S2x640000, .i32⟩
  | 2 => ⟨S640000, .i32⟩
  | 3 => ⟨S50x256, .f32⟩
  | 4 => ⟨S256x256, .f32⟩
  | 5 => ⟨S256x256, .f32⟩
  | 6 => ⟨S256x256, .f32⟩
  | 7 => ⟨S256x256, .f32⟩
  | 8 => ⟨S1x256, .f32⟩
  | 9 => ⟨S256, .f32⟩
  | 10 => ⟨S256, .f32⟩
  | 11 => ⟨S51x256, .f32⟩
  | 12 => ⟨S2x320000, .i32⟩
  | 13 => ⟨S2x320000, .i32⟩
  | 14 => ⟨S320000, .i32⟩
  | 15 => ⟨S320000, .i32⟩
  | 16 => ⟨S1x320000, .i32⟩
  | 17 => ⟨S320000, .i32⟩
  | 18 => ⟨S1x320000, .i32⟩
  | 19 => ⟨S320000, .i32⟩
  | 20 => ⟨S_, .f32⟩
  | 21 => ⟨S320000, .f32⟩
  | 22 => ⟨S_, .f32⟩
  | 23 => ⟨S100000, .f32⟩
  | 24 => ⟨S320000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S320000, .i32⟩
  | 38 => ⟨S320000, .i1⟩
  | 39 => ⟨S_, .i32⟩
  | 40 => ⟨S320000, .i32⟩
  | 41 => ⟨S320000, .i32⟩
  | 42 => ⟨S320000, .i32⟩
  | 43 => ⟨S320000x1, .i32⟩
  | 44 => ⟨S320000, .f32⟩
  | 45 => ⟨S_, .i32⟩
  | 46 => ⟨S320000, .i32⟩
  | 47 => ⟨S320000, .i1⟩
  | 48 => ⟨S_, .i32⟩
  | 49 => ⟨S320000, .i32⟩
  | 50 => ⟨S320000, .i32⟩
  | 51 => ⟨S320000, .i32⟩
  | 52 => ⟨S320000x1, .i32⟩
  | 53 => ⟨S320000, .f32⟩
  | 54 => ⟨S320000, .f32⟩
  | 55 => ⟨S1x320000, .i32⟩
  | 56 => ⟨S320000, .i32⟩
  | 57 => ⟨S1x320000, .i32⟩
  | 58 => ⟨S320000, .i32⟩
  | 59 => ⟨S_, .f32⟩
  | 60 => ⟨S320000, .f32⟩
  | 61 => ⟨S_, .f32⟩
  | 62 => ⟨S100000, .f32⟩
  | 63 => ⟨S320000x1, .i32⟩
  | 64 => ⟨S100000, .f32⟩
  | 65 => ⟨S_, .f32⟩
  | 66 => ⟨S100000, .f32⟩
  | 67 => ⟨S100000, .i1⟩
  | 68 => ⟨S_, .f32⟩
  | 69 => ⟨S100000, .f32⟩
  | 70 => ⟨S100000, .f32⟩
  | 71 => ⟨S_, .f32⟩
  | 72 => ⟨S_, .f32⟩
  | 73 => ⟨S100000, .f32⟩
  | 74 => ⟨S100000, .f32⟩
  | 75 => ⟨S_, .i32⟩
  | 76 => ⟨S320000, .i32⟩
  | 77 => ⟨S320000, .i1⟩
  | 78 => ⟨S_, .i32⟩
  | 79 => ⟨S320000, .i32⟩
  | 80 => ⟨S320000, .i32⟩
  | 81 => ⟨S320000, .i32⟩
  | 82 => ⟨S320000x1, .i32⟩
  | 83 => ⟨S320000, .f32⟩
  | 84 => ⟨S_, .i32⟩
  | 85 => ⟨S320000, .i32⟩
  | 86 => ⟨S320000, .i1⟩
  | 87 => ⟨S_, .i32⟩
  | 88 => ⟨S320000, .i32⟩
  | 89 => ⟨S320000, .i32⟩
  | 90 => ⟨S320000, .i32⟩
  | 91 => ⟨S320000x1, .i32⟩
  | 92 => ⟨S320000, .f32⟩
  | 93 => ⟨S320000, .f32⟩
  | 94 => ⟨S1x320000, .i32⟩
  | 95 => ⟨S320000, .i32⟩
  | 96 => ⟨S_, .i32⟩
  | 97 => ⟨S320000, .i32⟩
  | 98 => ⟨S320000, .i1⟩
  | 99 => ⟨S_, .i32⟩
  | 100 => ⟨S320000, .i32⟩
  | 101 => ⟨S320000, .i32⟩
  | 102 => ⟨S320000, .i32⟩
  | 103 => ⟨S320000x1, .i32⟩
  | 104 => ⟨S320000x256, .f32⟩
  | 105 => ⟨S_, .i32⟩
  | 106 => ⟨S320000, .i32⟩
  | 107 => ⟨S320000, .i1⟩
  | 108 => ⟨S_, .i32⟩
  | 109 => ⟨S320000, .i32⟩
  | 110 => ⟨S320000, .i32⟩
  | 111 => ⟨S320000, .i32⟩
  | 112 => ⟨S320000x1, .i32⟩
  | 113 => ⟨S320000x256, .f32⟩
  | 114 => ⟨S320000x256, .f32⟩
  | 115 => ⟨S320000x256, .f32⟩
  | 116 => ⟨S320000x1, .f32⟩
  | 117 => ⟨S320000x256, .f32⟩
  | 118 => ⟨S320000x256, .f32⟩
  | 119 => ⟨S1x320000, .i32⟩
  | 120 => ⟨S320000, .i32⟩
  | 121 => ⟨S_, .f32⟩
  | 122 => ⟨S100000x256, .f32⟩
  | 123 => ⟨S320000x1, .i32⟩
  | 124 => ⟨S100000x256, .f32⟩
  | 125 => ⟨S1x320000, .i32⟩
  | 126 => ⟨S320000, .i32⟩
  | 127 => ⟨S_, .i32⟩
  | _ => ⟨S100000x256, .f32⟩

abbrev hbmTy0_1 (i : Nat) : BufTy := match i % 128 with
  | 0 => ⟨S320000, .i32⟩
  | 1 => ⟨S320000, .i1⟩
  | 2 => ⟨S_, .i32⟩
  | 3 => ⟨S320000, .i32⟩
  | 4 => ⟨S320000, .i32⟩
  | 5 => ⟨S320000, .i32⟩
  | 6 => ⟨S320000x1, .i32⟩
  | 7 => ⟨S320000x256, .f32⟩
  | 8 => ⟨S_, .i32⟩
  | 9 => ⟨S320000, .i32⟩
  | 10 => ⟨S320000, .i1⟩
  | 11 => ⟨S_, .i32⟩
  | 12 => ⟨S320000, .i32⟩
  | 13 => ⟨S320000, .i32⟩
  | 14 => ⟨S320000, .i32⟩
  | 15 => ⟨S320000x1, .i32⟩
  | 16 => ⟨S320000x256, .f32⟩
  | 17 => ⟨S320000x256, .f32⟩
  | 18 => ⟨S320000x256, .f32⟩
  | 19 => ⟨S320000x1, .f32⟩
  | 20 => ⟨S320000x256, .f32⟩
  | 21 => ⟨S320000x256, .f32⟩
  | 22 => ⟨S1x320000, .i32⟩
  | 23 => ⟨S320000, .i32⟩
  | 24 => ⟨S_, .f32⟩
  | 25 => ⟨S100000x256, .f32⟩
  | 26 => ⟨S320000x1, .i32⟩
  | 27 => ⟨S100000x256, .f32⟩
  | 28 => ⟨S100000x256, .f32⟩
  | 29 => ⟨S100000x256, .f32⟩
  | 30 => ⟨S100000x256, .f32⟩
  | 31 => ⟨S100000x256, .f32⟩
  | 32 => ⟨S100000x256, .f32⟩
  | 33 => ⟨S_, .f32⟩
  | 34 => ⟨S100000x256, .f32⟩
  | 35 => ⟨S100000x256, .f32⟩
  | 36 => ⟨S_, .f32⟩
  | 37 => ⟨S256, .f32⟩
  | 38 => ⟨S_, .f32⟩
  | 39 => ⟨S256, .f32⟩
  | 40 => ⟨S256, .f32⟩
  | 41 => ⟨S_, .i32⟩
  | 42 => ⟨S_, .f32⟩
  | 43 => ⟨S256, .f32⟩
  | 44 => ⟨S1x256, .f32⟩
  | 45 => ⟨S_, .f32⟩
  | 46 => ⟨S1x256, .f32⟩
  | 47 => ⟨S1x256, .f32⟩
  | 48 => ⟨S100000x256, .f32⟩
  | 49 => ⟨S100000x256, .f32⟩
  | 50 => ⟨S100000x256, .f32⟩
  | 51 => ⟨S_, .f32⟩
  | 52 => ⟨S_, .f32⟩
  | 53 => ⟨S_, .f32⟩
  | 54 => ⟨S_, .f32⟩
  | 55 => ⟨S256, .f32⟩
  | 56 => ⟨S256, .f32⟩
  | 57 => ⟨S256, .f32⟩
  | 58 => ⟨S_, .f32⟩
  | 59 => ⟨S_, .i1⟩
  | 60 => ⟨S_, .f32⟩
  | 61 => ⟨S_, .f32⟩
  | 62 => ⟨S256, .f32⟩
  | 63 => ⟨S256, .f32⟩
  | 64 => ⟨S1x256, .f32⟩
  | 65 => ⟨S100000x256, .f32⟩
  | 66 => ⟨S100000x256, .f32⟩
  | 67 => ⟨S_, .f32⟩
  | 68 => ⟨S256, .f32⟩
  | 69 => ⟨S256, .f32⟩
  | 70 => ⟨S256, .f32⟩
  | 71 => ⟨S1x256, .f32⟩
  | 72 => ⟨S100000x256, .f32⟩
  | 73 => ⟨S100000x256, .f32⟩
  | 74 => ⟨S1x256, .f32⟩
  | 75 => ⟨S100000x256, .f32⟩
  | 76 => ⟨S100000x256, .f32⟩
  | 77 => ⟨S1x256, .f32⟩
  | 78 => ⟨S100000x256, .f32⟩
  | 79 => ⟨S100000x256, .f32⟩
  | 80 => ⟨S51x256, .f32⟩
  | 81 => ⟨S50x256, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_cst_10 : Ref sig .tc := ⟨.hbm, 68, rfl⟩
abbrev main_v43 : Ref sig .tc := ⟨.hbm, 69, rfl⟩
abbrev main_v44 : Ref sig .tc := ⟨.hbm, 70, rfl⟩
abbrev main_cst_11 : Ref sig .tc := ⟨.hbm, 71, rfl⟩
abbrev main_call1_v0 : Ref sig .tc := ⟨.hbm, 72, rfl⟩
abbrev main_call1_v1 : Ref sig .tc := ⟨.hbm, 73, rfl⟩
abbrev main_v45 : Ref sig .tc := ⟨.hbm, 74, rfl⟩
abbrev main_c_12 : Ref sig .tc := ⟨.hbm, 75, rfl⟩
abbrev main_v46 : Ref sig .tc := ⟨.hbm, 76, rfl⟩
abbrev main_v47 : Ref sig .tc := ⟨.hbm, 77, rfl⟩
abbrev main_c_13 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_c_14 : Ref sig .tc := ⟨.hbm, 84, rfl⟩
abbrev main_v53 : Ref sig .tc := ⟨.hbm, 85, rfl⟩
abbrev main_v54 : Ref sig .tc := ⟨.hbm, 86, rfl⟩
abbrev main_c_15 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_c_16 : Ref sig .tc := ⟨.hbm, 96, rfl⟩
abbrev main_v63 : Ref sig .tc := ⟨.hbm, 97, rfl⟩
abbrev main_v64 : Ref sig .tc := ⟨.hbm, 98, rfl⟩
abbrev main_c_17 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_c_18 : Ref sig .tc := ⟨.hbm, 105, rfl⟩
abbrev main_v70 : Ref sig .tc := ⟨.hbm, 106, rfl⟩
abbrev main_v71 : Ref sig .tc := ⟨.hbm, 107, rfl⟩
abbrev main_c_19 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_20 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_c_21 : Ref sig .tc := ⟨.hbm, 127, rfl⟩
abbrev main_v89 : Ref sig .tc := ⟨.hbm, 128, rfl⟩
abbrev main_v90 : Ref sig .tc := ⟨.hbm, 129, rfl⟩
abbrev main_c_22 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_c_23 : Ref sig .tc := ⟨.hbm, 136, rfl⟩
abbrev main_v96 : Ref sig .tc := ⟨.hbm, 137, rfl⟩
abbrev main_v97 : Ref sig .tc := ⟨.hbm, 138, rfl⟩
abbrev main_c_24 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_cst_25 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_cst_26 : Ref sig .tc := ⟨.hbm, 161, rfl⟩
abbrev main_v118 : Ref sig .tc := ⟨.hbm, 162, rfl⟩
abbrev main_v119 : Ref sig .tc := ⟨.hbm, 163, rfl⟩
abbrev main_cst_27 : Ref sig .tc := ⟨.hbm, 164, rfl⟩
abbrev main_v120 : Ref sig .tc := ⟨.hbm, 165, rfl⟩
abbrev main_cst_28 : Ref sig .tc := ⟨.hbm, 166, rfl⟩
abbrev main_v121 : Ref sig .tc := ⟨.hbm, 167, rfl⟩
abbrev main_v122 : Ref sig .tc := ⟨.hbm, 168, rfl⟩
abbrev main_c_29 : Ref sig .tc := ⟨.hbm, 169, rfl⟩
abbrev main_call2_cst : Ref sig .tc := ⟨.hbm, 170, rfl⟩
abbrev main_call2_v0 : Ref sig .tc := ⟨.hbm, 171, rfl⟩
abbrev main_call2_v1 : Ref sig .tc := ⟨.hbm, 172, rfl⟩
abbrev main_call2_cst_0 : Ref sig .tc := ⟨.hbm, 173, rfl⟩
abbrev main_call2_v2 : Ref sig .tc := ⟨.hbm, 174, rfl⟩
abbrev main_call2_v3 : Ref sig .tc := ⟨.hbm, 175, rfl⟩
abbrev main_call2_v4 : Ref sig .tc := ⟨.hbm, 176, rfl⟩
abbrev main_call2_v5 : Ref sig .tc := ⟨.hbm, 177, rfl⟩
abbrev main_call2_v6 : Ref sig .tc := ⟨.hbm, 178, rfl⟩
abbrev main_call2_v7 : Ref sig .tc := ⟨.hbm, 179, rfl⟩
abbrev main_call2_cst_1 : Ref sig .tc := ⟨.hbm, 180, rfl⟩
abbrev main_call2_v8 : Ref sig .tc := ⟨.hbm, 181, rfl⟩
abbrev main_call2_cst_2 : Ref sig .tc := ⟨.hbm, 182, rfl⟩
abbrev main_call2_v9 : Ref sig .tc := ⟨.hbm, 183, rfl⟩
abbrev main_call2_v10 : Ref sig .tc := ⟨.hbm, 184, rfl⟩
abbrev main_call2_v11 : Ref sig .tc := ⟨.hbm, 185, rfl⟩
abbrev main_call2_cst_3 : Ref sig .tc := ⟨.hbm, 186, rfl⟩
abbrev main_call2_v12 : Ref sig .tc := ⟨.hbm, 187, rfl⟩
abbrev main_call2_cst_4 : Ref sig .tc := ⟨.hbm, 188, rfl⟩
abbrev main_call2_call0_v0 : Ref sig .tc := ⟨.hbm, 189, rfl⟩
abbrev main_call2_call0_v1 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_cst_30 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩

abbrev nD : Nat := 1
abbrev τ : Topo := Topo.v7x

variable {F : FTy → Type} [FloatOps F]

class Facts₀ : Prop where
  concatenates_S50x256_S1x256_S51x256_d0 : Shape.Concatenates [S50x256, S1x256] S51x256 0
  slices_S2x640000_S2x320000_0_0 : S2x640000.Slices ![0, 0] S2x320000
  slices_S2x640000_S2x320000_0_320000 : S2x640000.Slices ![0, 320000] S2x320000
  slices_S640000_S320000_0 : S640000.Slices ![0] S320000
  slices_S640000_S320000_320000 : S640000.Slices ![320000] S320000
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S100000 : S_.BroadcastsInDim S100000 (![] : Fin 0 → Fin S100000.rank)
  bcast_S320000_S320000x1_0 : S320000.BroadcastsInDim S320000x1 (![0] : Fin 1 → Fin S320000x1.rank)
  bcast_S320000x1_S320000x256_0_1 : S320000x1.BroadcastsInDim S320000x256 (![0, 1] : Fin 2 → Fin S320000x256.rank)
  bcast_S_S100000x256 : S_.BroadcastsInDim S100000x256 (![] : Fin 0 → Fin S100000x256.rank)
  bcast_S1x256_S100000x256_0_1 : S1x256.BroadcastsInDim S100000x256 (![0, 1] : Fin 2 → Fin S100000x256.rank)
  reducesTo_S100000x256_S256_d0 : S100000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  slices_S51x256_S50x256_0_0 : S51x256.Slices ![0, 0] S50x256
  scatter_S100000_S320000x1_S320000_n_0_0_1_wf : ScatterDims.WF S100000 S320000x1 S320000 [] [0] [0] 1
  gather_S100000_S320000x1_S320000_n_0_n_n_0_1_1_wf : GatherDims.WF S100000 S320000x1 S320000 [] [0] [] [0] [] 1 ![1]
  gather_S100000x256_S320000x1_S320000x256_1_0_n_n_0_1_1256_wf : GatherDims.WF S100000x256 S320000x1 S320000x256 [1] [0] [] [0] [] 1 ![1, 256]
  gather_S51x256_S320000x1_S320000x256_1_0_n_n_0_1_1256_wf : GatherDims.WF S51x256 S320000x1 S320000x256 [1] [0] [] [0] [] 1 ![1, 256]
  dot_S320000x256_S256x256_S320000x256_1_0_0_1_n_n_wf : DotDims.WF S320000x256 S256x256 S320000x256 [1] [0] [0] [1] [] []
  scatter_S100000x256_S320000x1_S320000x256_1_0_0_1_wf : ScatterDims.WF S100000x256 S320000x1 S320000x256 [1] [0] [0] 1
  dot_S100000x256_S256x256_S100000x256_1_0_0_1_n_n_wf : DotDims.WF S100000x256 S256x256 S100000x256 [1] [0] [0] [1] [] []
  dot_S51x256_S256x256_S51x256_1_0_0_1_n_n_wf : DotDims.WF S51x256 S256x256 S51x256 [1] [0] [0] [1] [] []

variable [Facts₀]

def scatter_S100000_S320000x1_S320000_n_0_0_1 : ScatterDims S100000 S320000x1 S320000 where
  updateWindowDims := []
  insertedWindowDims := [0]
  scatterDimsToOperandDims := [0]
  indexVectorDim := 1
  wf := scatter_S100000_S320000x1_S320000_n_0_0_1_wf
def gather_S100000_S320000x1_S320000_n_0_n_n_0_1_1 : GatherDims S100000 S320000x1 S320000 where
  offsetDims := []
  collapsedSliceDims := [0]
  operandBatchingDims := []
  startIndicesBatchingDims := []
  startIndexMap := [0]
  indexVectorDim := 1
  sliceSizes := ![1]
  wf := gather_S100000_S320000x1_S320000_n_0_n_n_0_1_1_wf
def gather_S100000x256_S320000x1_S320000x256_1_0_n_n_0_1_1256 : GatherDims S100000x256 S320000x1 S320000x256 where
  offsetDims := [1]
  collapsedSliceDims := [0]
  operandBatchingDims := []
  startIndicesBatchingDims := []
  startIndexMap := [0]
  indexVectorDim := 1
  sliceSizes := ![1, 256]
  wf := gather_S100000x256_S320000x1_S320000x256_1_0_n_n_0_1_1256_wf
def gather_S51x256_S320000x1_S320000x256_1_0_n_n_0_1_1256 : GatherDims S51x256 S320000x1 S320000x256 where
  offsetDims := [1]
  collapsedSliceDims := [0]
  operandBatchingDims := []
  startIndicesBatchingDims := []
  startIndexMap := [0]
  indexVectorDim := 1
  sliceSizes := ![1, 256]
  wf := gather_S51x256_S320000x1_S320000x256_1_0_n_n_0_1_1256_wf
def dot_S320000x256_S256x256_S320000x256_1_0_0_1_n_n : DotDims S320000x256 S256x256 S320000x256 where
  lhsContracting := [1]
  rhsContracting := [0]
  lhsNonContracting := [0]
  rhsNonContracting := [1]
  lhsBatch := []
  rhsBatch := []
  wf := dot_S320000x256_S256x256_S320000x256_1_0_0_1_n_n_wf
def scatter_S100000x256_S320000x1_S320000x256_1_0_0_1 : ScatterDims S100000x256 S320000x1 S320000x256 where
  updateWindowDims := [1]
  insertedWindowDims := [0]
  scatterDimsToOperandDims := [0]
  indexVectorDim := 1
  wf := scatter_S100000x256_S320000x1_S320000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S51x256_S256x256_S51x256_1_0_0_1_n_n : DotDims S51x256 S256x256 S51x256 where
  lhsContracting := [1]
  rhsContracting := [0]
  lhsNonContracting := [0]
  rhsNonContracting := [1]
  lhsBatch := []
  rhsBatch := []
  wf := dot_S51x256_S256x256_S51x256_1_0_0_1_n_n_wf

class Facts : Prop extends Facts₀ where

variable [Facts]
-- ==== Proof.Spec.lean ====
import proofs.«407851_j24489903522003_2_alg».proof.ReferenceIdeal
import proofs.«407851_j24489903522003_2_alg».proof.Proof.Gen.ReferenceIdeal
import Idealize.ShloMosaic.Lib.ValueIdx

/-!
The reference's value, stage by stage, as pure functions of the argument arrays at the ideal instance
(extended reals): the concatenated relation table, the two halves of the edge list and of the edge types, the
symmetric degree normalisation of a half, the gathered source rows, a direction's messages and their scatter-add
onto the target nodes, the self-loop term, their average, its batch statistics and the normalised result.
Each stage is the composition of the printed operations that compute it, so that the reference's run reads off
as these terms with no further work; what the kernel computes is compared with them stage by stage.
-/

noncomputable section

namespace Cert.Hand

open Idealize.ShloMosaic Idealize.ShloMosaic.ValueIdx
open Cert.ReferenceIdeal Cert.ReferenceIdeal.Facts₀

/-- The relation table with the self-loop relation appended as row 50. -/
def relAll (rel : FVec Ideal S50x256 .f32) (lr : FVec Ideal S1x256 .f32) : FVec Ideal S51x256 .f32 :=
  concatenate S51x256 0 [⟨S50x256, rel⟩, ⟨S1x256, lr⟩] concatenates_S50x256_S1x256_S51x256_d0

/-- The first (incoming) half of the edge list. -/
def eiIn (ei : IVec S2x640000 32) : IVec S2x320000 32 := extractStridedSlice S2x320000 ![0, 0] ei slices_S2x640000_S2x320000_0_0
/-- The second (outgoing) half of the edge list. -/
def eiOut (ei : IVec S2x640000 32) : IVec S2x320000 32 := extractStridedSlice S2x320000 ![0, 320000] ei slices_S2x640000_S2x320000_0_320000
/-- The edge types of the first half. -/
def etIn (et : IVec S640000 32) : IVec S320000 32 := extractStridedSlice S320000 ![0] et slices_S640000_S320000_0
/-- The edge types of the second half. -/
def etOut (et : IVec S640000 32) : IVec S320000 32 := extractStridedSlice S320000 ![320000] et slices_S640000_S320000_320000

/-- Row 0 of a half: the target node of each edge. -/
def rowOf (e : IVec S2x320000 32) : IVec S320000 32 :=
  shapeCast S320000 (extractStridedSlice S1x320000 ![0, 0] e slices_S2x320000_S1x320000_0_0) shapeCasts_S1x320000_S320000
/-- Row 1 of a half: the source node of each edge. -/
def colOf (e : IVec S2x320000 32) : IVec S320000 32 :=
  shapeCast S320000 (extractStridedSlice S1x320000 ![1, 0] e slices_S2x320000_S1x320000_1_0) shapeCasts_S1x320000_S320000

/-- An index vector made ready for a gather along an axis of extent `n`: a negative index has `n` added, and the
    vector becomes a column of one-component index vectors. -/
def wrapIdx (n : BitVec 32) (s : IVec S320000 32) : IVec S320000x1 32 :=
  broadcastInDim S320000x1 ![0] bcast_S320000_S320000x1_0
    (select (cmpi .slt s (broadcastInDim S320000 ![] bcast_S_S320000 (constantI S_ 32 0#32)))
      (addi s (broadcastInDim S320000 ![] bcast_S_S320000 (constantI S_ 32 n))) s)

/-- The degree of each node counted over the target row of a half. -/
def degOf (row : IVec S320000 32) : FVec Ideal S100000 .f32 :=
  Host.scatterAdd scatter_S100000_S320000x1_S320000_n_0_0_1
    (broadcastInDim S100000 ![] bcast_S_S100000 (constant S_ .f32 0x00000000#32))
    (broadcastInDim S320000x1 ![0] bcast_S320000_S320000x1_0 row)
    (broadcastInDim S320000 ![] bcast_S_S320000 (constant S_ .f32 0x3F800000#32))

/-- `deg ^ (-1/2)` where the degree is positive, `0` elsewhere. -/
def degInv (row : IVec S320000 32) : FVec Ideal S100000 .f32 :=
  select (cmpf .ogt (degOf row) (broadcastInDim S100000 ![] bcast_S_S100000 (constant S_ .f32 0x00000000#32)))
    (Host.powf (degOf row) (broadcastInDim S100000 ![] bcast_S_S100000 (constant S_ .f32 0xBF000000#32)))
    (broadcastInDim S100000 ![] bcast_S_S100000 (id (constant S_ .f32 0x00000000#32)))

/-- The symmetric normalisation of each edge of a half: `degInv[target] * degInv[source]`. -/
def normOf (e : IVec S2x320000 32) : FVec Ideal S320000 .f32 :=
  mulf (Host.gather gather_S100000_S320000x1_S320000_n_0_n_n_0_1_1 (degInv (rowOf e)) (wrapIdx 100000#32 (rowOf e)))
    (Host.gather gather_S100000_S320000x1_S320000_n_0_n_n_0_1_1 (degInv (rowOf e)) (wrapIdx 100000#32 (colOf e)))

/-- The source node's feature row of each edge of a half. -/
def xgOf (x : FVec Ideal S100000x256 .f32) (e : IVec S2x320000 32) : FVec Ideal S320000x256 .f32 :=
  Host.gather gather_S100000x256_S320000x1_S320000x256_1_0_n_n_0_1_1256 x (wrapIdx 100000#32 (colOf e))

/-- The relation row of each edge. -/
def relOf (ra : FVec Ideal S51x256 .f32) (t : IVec S320000 32) : FVec Ideal S320000x256 .f32 :=
  Host.gather gather_S51x256_S320000x1_S320000x256_1_0_n_n_0_1_1256 ra (wrapIdx 51#32 t)

/-- A direction's messages: `((x[src] * rel[type]) @ W) * norm`. -/
def msgR (x : FVec Ideal S100000x256 .f32) (e : IVec S2x320000 32) (t : IVec S320000 32) (ra : FVec Ideal S51x256 .f32)
    (w : FVec Ideal S256x256 .f32) : FVec Ideal S320000x256 .f32 :=
  mulf (Host.dotGeneral dot_S320000x256_S256x256_S320000x256_1_0_0_1_n_n none (mulf (xgOf x e) (relOf ra t)) w)
    (broadcastInDim S320000x256 ![0, 1] bcast_S320000x1_S320000x256_0_1
      (broadcastInDim S320000x1 ![0] bcast_S320000_S320000x1_0 (normOf e)))

/-- Per-edge rows summed onto the nodes a target list names (a target outside the node range contributes nothing). -/
def scat1 (tgt : IVec S320000 32) (u : FVec Ideal S320000x256 .f32) : FVec Ideal S100000x256 .f32 :=
  Host.scatterAdd scatter_S100000x256_S320000x1_S320000x256_1_0_0_1
    (broadcastInDim S100000x256 ![] bcast_S_S100000x256 (constant S_ .f32 0x00000000#32))
    (broadcastInDim S320000x1 ![0] bcast_S320000_S320000x1_0 tgt) u

/-- A direction's messages summed onto their target nodes. -/
def resR (x : FVec Ideal S100000x256 .f32) (e : IVec S2x320000 32) (t : IVec S320000 32) (ra : FVec Ideal S51x256 .f32)
    (w : FVec Ideal S256x256 .f32) : FVec Ideal S100000x256 .f32 :=
  scat1 (rowOf e) (msgR x e t ra w)

/-- The self-loop term `(x * loop_rel) @ W_loop`. -/
def loopR (x : FVec Ideal S100000x256 .f32) (lr : FVec Ideal S1x256 .f32) (wl : FVec Ideal S256x256 .f32) : FVec Ideal S100000x256 .f32 :=
  Host.dotGeneral dot_S100000x256_S256x256_S100000x256_1_0_0_1_n_n none
    (mulf x (broadcastInDim S100000x256 ![0, 1] bcast_S1x256_S100000x256_0_1 lr)) wl

/-- The average of the three terms (times the single-precision third). -/
def avgR (a b l : FVec Ideal S100000x256 .f32) : FVec Ideal S100000x256 .f32 :=
  mulf (addf (addf a b) l) (broadcastInDim S100000x256 ![] bcast_S_S100000x256 (constant S_ .f32 0x3EAAAAAB#32))

/-- The column means. -/
def meanR (o : FVec Ideal S100000x256 .f32) : FVec Ideal S256 .f32 :=
  Host.divf (Host.reduceAdd o (constant S_ .f32 0x00000000#32) reducesTo_S100000x256_S256_d0 h_S_)
    (broadcastInDim S256 ![] bcast_S_S256 (constant S_ .f32 0x47C35000#32))

/-- The column variances, as the mean of the squared deviations from the column mean (guarded by the count being positive). -/
def varR (o : FVec Ideal S100000x256 .f32) : FVec Ideal S256 .f32 :=
  (fun p a b => select (broadcastInDim S256 ![] bcast_S_S256 p) a b)
    (cmpf .ogt (subf (constant (F := Ideal) S_ .f32 0x47C35000#32) (sitofp .f32 (constantI S_ 32 0#32))) (constant (F := Ideal) S_ .f32 0x00000000#32))
    (Host.divf
      (Host.reduceAdd
        ((fun v => mulf v v)
          (subf o (broadcastInDim S100000x256 ![0, 1] bcast_S1x256_S100000x256_0_1
            (Host.divf (broadcastInDim S1x256 ![1] bcast_S256_S1x256_1
                (Host.reduceAdd o (constant S_ .f32 0x00000000#32) reducesTo_S100000x256_S256_d0 h_S_))
              (broadcastInDim S1x256 ![] bcast_S_S1x256 (constant S_ .f32 0x47C35000#32))))))
        (constant S_ .f32 0x00000000#32) reducesTo_S100000x256_S256_d0 h_S_)
      (broadcastInDim S256 ![] bcast_S_S256 (subf (constant S_ .f32 0x47C35000#32) (sitofp .f32 (constantI S_ 32 0#32)))))
    (broadcastInDim S256 ![] bcast_S_S256 (id (constant S_ .f32 0x7FC00000#32)))

/-- A vector of 256 column values laid out over all rows. -/
def overRows (v : FVec Ideal S256 .f32) : FVec Ideal S100000x256 .f32 :=
  broadcastInDim S100000x256 ![0, 1] bcast_S1x256_S100000x256_0_1 (broadcastInDim S1x256 ![1] bcast_S256_S1x256_1 v)

/-- Batch normalisation with the batch's own statistics. -/
def bnR (o : FVec Ideal S100000x256 .f32) (bw bb : FVec Ideal S256 .f32) : FVec Ideal S100000x256 .f32 :=
  addf (mulf (mulf (subf o (overRows (meanR o)))
      (overRows (Host.rsqrt (addf (varR o) (broadcastInDim S256 ![] bcast_S_S256 (constant S_ .f32 0x3727C5AC#32))))))
    (overRows bw)) (overRows bb)

/-- The pre-normalisation output of the reference. -/
def oR (x : FVec Ideal S100000x256 .f32) (ei : IVec S2x640000 32) (et : IVec S640000 32) (rel : FVec Ideal S50x256 .f32)
    (wl wi wo : FVec Ideal S256x256 .f32) (lr : FVec Ideal S1x256 .f32) : FVec Ideal S100000x256 .f32 :=
  avgR (resR x (eiIn ei) (etIn et) (relAll rel lr) wi) (resR x (eiOut ei) (etOut et) (relAll rel lr) wo) (loopR x lr wl)

/-- The reference's first result. -/
def out0 (x : FVec Ideal S100000x256 .f32) (ei : IVec S2x640000 32) (et : IVec S640000 32) (rel : FVec Ideal S50x256 .f32)
    (wl wi wo : FVec Ideal S256x256 .f32) (lr : FVec Ideal S1x256 .f32) (bw bb : FVec Ideal S256 .f32) : FVec Ideal S100000x256 .f32 :=
  bnR (oR x ei et rel wl wi wo lr) bw bb

/-- The reference's second result: the transformed relation table without the self-loop row. -/
def out1 (rel : FVec Ideal S50x256 .f32) (lr : FVec Ideal S1x256 .f32) (wr : FVec Ideal S256x256 .f32) : FVec Ideal S50x256 .f32 :=
  extractStridedSlice S50x256 ![0, 0] (Host.dotGeneral dot_S51x256_S256x256_S51x256_1_0_0_1_n_n none (relAll rel lr) wr) slices_S51x256_S50x256_0_0

end Cert.Hand

end
-- ==== Proof.KSpec.lean ====
import proofs.«407851_j24489903522003_2_alg».proof.KernelIdeal
import proofs.«407851_j24489903522003_2_alg».proof.Proof.Gen.KernelIdeal
import proofs.«407851_j24489903522003_2_alg».proof.Proof.Spec

/-!
What the kernel's program computes, stage by stage, at the ideal instance. A direction's messages are written
entry by entry: the relation row is picked by a one-hot row (a sum over the 51 relations of an indicator times
the table's entry), the composed row is contracted with the weight matrix and scaled by the edge's
normalisation. Both directions' messages are scattered at once over the concatenated target list. The column
statistics are the plain column sums of the averaged output and of its square, the variance the mean of the
squares minus the squared mean.
-/

noncomputable section

namespace Cert.Hand

open Idealize.ShloMosaic Idealize.ShloMosaic.ValueIdx
open Cert.ReferenceIdeal Cert.ReferenceIdeal.Facts₀

/-- The indicator that the 32-bit word `t` is the relation number `r`. -/
def oh (t : BitVec 32) (r : Fin 51) : EReal := if t = BitVec.ofNat 32 r.val then 1 else 0

/-- Messages entry by entry: `(∑ₖ (xg[e,k] · ∑ᵣ [t[e] = r] · rel[r,k]) · W[k,d]) · norm[e]`. -/
def composeK {n : Nat} (xg : (⟨2, ![n, 256]⟩ : Shape).Idx → EReal) (t : (⟨2, ![n, 1]⟩ : Shape).Idx → BitVec 32)
    (ra : (⟨2, ![51, 256]⟩ : Shape).Idx → EReal) (w : (⟨2, ![256, 256]⟩ : Shape).Idx → EReal)
    (nrm : (⟨2, ![n, 1]⟩ : Shape).Idx → EReal) : (⟨2, ![n, 256]⟩ : Shape).Idx → EReal :=
  fun j => (∑ k : Fin 256, (xg (ix2 (n0 := n) (j 0) k) * ∑ r : Fin 51, oh (t (ix2 (n0 := n) (j 0) (0 : Fin 1))) r * ra (ix2 r k))
      * w (ix2 k (j 1))) * nrm (ix2 (n0 := n) (j 0) (0 : Fin 1))

/-- A vector of per-edge integers as a column. -/
def icol (v : IVec S320000 32) : IVec S320000x1 32 := shapeCast S320000x1 v Cert.KernelIdeal.Facts₀.shapeCasts_S320000_S320000x1
/-- A vector of per-edge values as a column. -/
def fcol (v : FVec Ideal S320000 .f32) : FVec Ideal S320000x1 .f32 := shapeCast S320000x1 v Cert.KernelIdeal.Facts₀.shapeCasts_S320000_S320000x1

/-- A direction's messages as the kernel computes them. -/
def msgK (x : FVec Ideal S100000x256 .f32) (e : IVec S2x320000 32) (t : IVec S320000 32) (ra : FVec Ideal S51x256 .f32)
    (w : FVec Ideal S256x256 .f32) : FVec Ideal S320000x256 .f32 :=
  composeK (n := 320000) (xgOf x e) (icol t) ra w (fcol (normOf e))

/-- The self-loop term as the kernel computes it: every node has relation 50 and normalisation 1. -/
def loopK (x : FVec Ideal S100000x256 .f32) (ra : FVec Ideal S51x256 .f32) (wl : FVec Ideal S256x256 .f32) : FVec Ideal S100000x256 .f32 :=
  composeK (n := 100000) x
    (broadcastInDim Cert.KernelIdeal.S100000x1 ![] Cert.KernelIdeal.Facts₀.bcast_S_S100000x1 (constantI S_ 32 50#32)) ra wl
    (broadcastInDim Cert.KernelIdeal.S100000x1 ![] Cert.KernelIdeal.Facts₀.bcast_S_S100000x1 (constant (F := Ideal) S_ .f32 0x3F800000#32))

/-- Both directions' messages summed onto their target nodes in one scatter over the concatenated edge set. -/
def aggK (mi mo : FVec Ideal S320000x256 .f32) (tIn tOut : IVec S320000 32) : FVec Ideal S100000x256 .f32 :=
  Host.scatterAdd Cert.KernelIdeal.scatter_S100000x256_S640000x1_S640000x256_1_0_0_1
    (broadcastInDim S100000x256 ![] bcast_S_S100000x256 (constant S_ .f32 0x00000000#32))
    (broadcastInDim Cert.KernelIdeal.S640000x1 ![0] Cert.KernelIdeal.Facts₀.bcast_S640000_S640000x1_0
      (concatenate Cert.KernelIdeal.S640000 0 [⟨S320000, tIn⟩, ⟨S320000, tOut⟩] Cert.KernelIdeal.Facts₀.concatenates_S320000_S320000_S640000_d0))
    (concatenate Cert.KernelIdeal.S640000x256 0 [⟨S320000x256, mi⟩, ⟨S320000x256, mo⟩] Cert.KernelIdeal.Facts₀.concatenates_S320000x256_S320000x256_S640000x256_d0)

/-- The single-precision third, the row count and the variance's epsilon, at the ideal instance. -/
def c3 : EReal := Ideal.ofBits .f32 0x3EAAAAAB#32
def cN : EReal := Ideal.ofBits .f32 0x47C35000#32
def cEps : EReal := Ideal.ofBits .f32 0x3727C5AC#32

/-- The averaged output before normalisation. -/
def oK (agg loop : FVec Ideal S100000x256 .f32) : FVec Ideal S100000x256 .f32 := fun i => (agg i + loop i) * c3

/-- The sum of a column. -/
def colsum (f : FVec Ideal S100000x256 .f32) (d : Fin 256) : EReal := ∑ n : Fin 100000, f (ix2 n d)
/-- The column mean. -/
def meanK (f : FVec Ideal S100000x256 .f32) (d : Fin 256) : EReal := Ideal.div (colsum f d) cN
/-- The column variance as the mean of the squares minus the squared mean. -/
def varK (f : FVec Ideal S100000x256 .f32) (d : Fin 256) : EReal :=
  Ideal.div (colsum (fun i => f i * f i) d) cN - meanK f d * meanK f d
/-- Batch normalisation with those statistics. -/
def bnK (f : FVec Ideal S100000x256 .f32) (bw bb : FVec Ideal S256 .f32) : FVec Ideal S100000x256 .f32 :=
  fun i => ((f i - meanK f (i 1)) * Ideal.rsqrt (varK f (i 1) + cEps)) * bw (ix1 (i 1)) + bb (ix1 (i 1))

/-- The normalisation entry by entry from one-row arrays of the column means, variances, weights and biases. -/
def normK (o : FVec Ideal S100000x256 .f32) (mean var w b : FVec Ideal S1x256 .f32) : FVec Ideal S100000x256 .f32 :=
  fun i => ((o i - mean (ix2 (0 : Fin 1) (i 1))) * Ideal.rsqrt (var (ix2 (0 : Fin 1) (i 1)) + cEps)) * w (ix2 (0 : Fin 1) (i 1))
    + b (ix2 (0 : Fin 1) (i 1))

/-- The kernel program's pre-normalisation output. -/
def oKof (x : FVec Ideal S100000x256 .f32) (ei : IVec S2x640000 32) (et : IVec S640000 32) (rel : FVec Ideal S50x256 .f32)
    (wl wi wo : FVec Ideal S256x256 .f32) (lr : FVec Ideal S1x256 .f32) : FVec Ideal S100000x256 .f32 :=
  oK (aggK (msgK x (eiIn ei) (etIn et) (relAll rel lr) wi) (msgK x (eiOut ei) (etOut et) (relAll rel lr) wo)
      (rowOf (eiIn ei)) (rowOf (eiOut ei)))
    (loopK x (relAll rel lr) wl)

/-- The kernel program's first result. -/
def kout0 (x : FVec Ideal S100000x256 .f32) (ei : IVec S2x640000 32) (et : IVec S640000 32) (rel : FVec Ideal S50x256 .f32)
    (wl wi wo : FVec Ideal S256x256 .f32) (lr : FVec Ideal S1x256 .f32) (bw bb : FVec Ideal S256 .f32) : FVec Ideal S100000x256 .f32 :=
  bnK (oKof x ei et rel wl wi wo lr) bw bb

end Cert.Hand

end
-- ==== Proof.KPrefix.lean ====
import proofs.«407851_j24489903522003_2_alg».proof.Proof.Gen.KernelIdeal.Frame
import proofs.«407851_j24489903522003_2_alg».proof.Proof.KSpec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

/-! The host operations before region 0: what the first three regions read, as functions of the argument arrays. -/

set_option maxRecDepth 16384

noncomputable section

namespace Cert.KernelIdeal.Gen

open Idealize.ShloMosaic Idealize.ShloMosaic.TcCoe Idealize.ShloMosaic.Tactic Idealize.ShloMosaic.ValueIdx
open Idealize.SL.Sem
open Idealize.ShloMosaic.Pipeline (Dat Cfg Window)
open Cert.Hand

/-! ## A stretch leaves alone what it does not write -/

/-- The references the first stretch writes. -/
def pfx_wr0 : List (Ref sig .tc) :=
  [main_v0, main_v1, main_v2, main_v3, main_v4, main_v5, main_v6, main_v7, main_v8, main_cst, main_v9, main_cst_0, main_v10,
   main_v11, main_v12, main_cst_1, main_v13, main_v14, main_cst_2, main_v15, main_v16, main_cst_3]
/-- The references the second stretch (the first outlined selection) writes. -/
def pfx_wr1 : List (Ref sig .tc) := [main_call0_v0, main_call0_v1, main_v17]
/-- The references the third stretch writes. -/
def pfx_wr2 : List (Ref sig .tc) :=
  [main_c, main_v18, main_v19, main_c_4, main_v20, main_v21, main_v22, main_v23, main_v24, main_c_5, main_v25, main_v26, main_c_6,
   main_v27, main_v28, main_v29, main_v30, main_v31, main_v32, main_v33, main_v34, main_v35, main_v36, main_cst_7, main_v37,
   main_cst_8, main_v38, main_v39, main_v40, main_cst_9, main_v41, main_v42, main_cst_10, main_v43, main_v44, main_cst_11]
/-- The references the fourth stretch (the second outlined selection) writes. -/
def pfx_wr3 : List (Ref sig .tc) := [main_call1_v0, main_call1_v1, main_v45]
/-- The references the fifth stretch writes. -/
def pfx_wr4 : List (Ref sig .tc) :=
  [main_c_12, main_v46, main_v47, main_c_13, main_v48, main_v49, main_v50, main_v51, main_v52, main_c_14, main_v53, main_v54,
   main_c_15, main_v55, main_v56, main_v57, main_v58, main_v59, main_v60, main_v61, main_v62, main_v63, main_v64, main_v65,
   main_v66, main_v67, main_v68, main_c_16, main_v69, main_v70, main_c_17, main_v71, main_v72, main_v73, main_v74, main_v75,
   main_c_18, main_v76, main_v77, main_c_19, main_v78, main_v79, main_v80, main_v81, main_v82, main_v83, main_v84, main_v85,
   main_v86]

theorem pfx_wr0_sub : (hostOps0 (F := Ideal)).Forall fun op => op.writes ⊆ (pfx_wr0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem pfx_wr1_sub : (hostOps0_1 (F := Ideal)).Forall fun op => op.writes ⊆ (pfx_wr1.map (Proc.devRef (τ := τ) .tc)).toFinset := by
  simp only [hostOps0_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem pfx_wr2_sub : (hostOps0_2 (F := Ideal)).Forall fun op => op.writes ⊆ (pfx_wr2.map (Proc.devRef (τ := τ) .tc)).toFinset := by
  simp only [hostOps0_2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem pfx_wr3_sub : (hostOps0_3 (F := Ideal)).Forall fun op => op.writes ⊆ (pfx_wr3.map (Proc.devRef (τ := τ) .tc)).toFinset := by
  simp only [hostOps0_3, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem pfx_wr4_sub : (hostOps0_4 (F := Ideal)).Forall fun op => op.writes ⊆ (pfx_wr4.map (Proc.devRef (τ := τ) .tc)).toFinset := by
  simp only [hostOps0_4, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

section Steps

variable (V : Valuation τ sig (Elt Ideal))

theorem pfx_keep0 {r : Ref sig .tc} (hr : r ∉ pfx_wr0) :
    StableHlo.after (hostOps0 (F := Ideal)) V (Proc.devRef .tc r) = V (Proc.devRef .tc r) :=
  StableHlo.after_of_writes_sub _ V pfx_wr0_sub hr
theorem pfx_keep1 {r : Ref sig .tc} (hr : r ∉ pfx_wr1) :
    StableHlo.after (hostOps0_1 (F := Ideal)) V (Proc.devRef .tc r) = V (Proc.devRef .tc r) :=
  StableHlo.after_of_writes_sub _ V pfx_wr1_sub hr
theorem pfx_keep2 {r : Ref sig .tc} (hr : r ∉ pfx_wr2) :
    StableHlo.after (hostOps0_2 (F := Ideal)) V (Proc.devRef .tc r) = V (Proc.devRef .tc r) :=
  StableHlo.after_of_writes_sub _ V pfx_wr2_sub hr
theorem pfx_keep3 {r : Ref sig .tc} (hr : r ∉ pfx_wr3) :
    StableHlo.after (hostOps0_3 (F := Ideal)) V (Proc.devRef .tc r) = V (Proc.devRef .tc r) :=
  StableHlo.after_of_writes_sub _ V pfx_wr3_sub hr
theorem pfx_keep4 {r : Ref sig .tc} (hr : r ∉ pfx_wr4) :
    StableHlo.after (hostOps0_4 (F := Ideal)) V (Proc.devRef .tc r) = V (Proc.devRef .tc r) :=
  StableHlo.after_of_writes_sub _ V pfx_wr4_sub hr

end Steps

/-! ## What each stretch computes, from any contents `V` it starts at -/

/-- The product of two gathers from one per-node vector, at a target row and a source row: an edge normalisation
    before the per-node vector is known to be the inverse square root of the degree. -/
def pfx_normFrom (dinv : FVec Ideal Cert.ReferenceIdeal.S100000 .f32) (r s : IVec Cert.ReferenceIdeal.S320000 32) :
    FVec Ideal Cert.ReferenceIdeal.S320000 .f32 :=
  mulf (Host.gather Cert.ReferenceIdeal.gather_S100000_S320000x1_S320000_n_0_n_n_0_1_1 dinv (wrapIdx 100000#32 r))
    (Host.gather Cert.ReferenceIdeal.gather_S100000_S320000x1_S320000_n_0_n_n_0_1_1 dinv (wrapIdx 100000#32 s))

theorem pfx_normOf_eq (e : IVec Cert.ReferenceIdeal.S2x320000 32) :
    normOf e = pfx_normFrom (degInv (rowOf e)) (rowOf e) (colOf e) := rfl

section Steps

variable (V : Valuation τ sig (Elt Ideal))

/-! ### The first stretch: the relation table, the halves of the edge list and of the edge types, the first half's rows -/

theorem pfx_s0_v0 : StableHlo.after (hostOps0 (F := Ideal)) V (Proc.devRef .tc main_v0)
    = relAll (V (Proc.devRef .tc main_arg3)) (V (Proc.devRef .tc main_arg8)) := by
  unfold hostOps0; after_results_simp; rfl
theorem pfx_s0_v1 : StableHlo.after (hostOps0 (F := Ideal)) V (Proc.devRef .tc main_v1)
    = eiIn (V (Proc.devRef .tc main_arg1)) := by
  unfold hostOps0; after_results_simp; rfl
theorem pfx_s0_v2 : StableHlo.after (hostOps0 (F := Ideal)) V (Proc.devRef .tc main_v2)
    = eiOut (V (Proc.devRef .tc main_arg1)) := by
  unfold hostOps0; after_results_simp; rfl
theorem pfx_s0_v3 : StableHlo.after (hostOps0 (F := Ideal)) V (Proc.devRef .tc main_v3)
    = etIn (V (Proc.devRef .tc main_arg2)) := by
  unfold hostOps0; after_results_simp; rfl
theorem pfx_s0_v4 : StableHlo.after (hostOps0 (F := Ideal)) V (Proc.devRef .tc main_v4)
    = etOut (V (Proc.devRef .tc main_arg2)) := by
  unfold hostOps0; after_results_simp; rfl
theorem pfx_s0_v6 : StableHlo.after (hostOps0 (F := Ideal)) V (Proc.devRef .tc main_v6)
    = rowOf (eiIn (V (Proc.devRef .tc main_arg1))) := by
  unfold hostOps0; after_results_simp; rfl
theorem pfx_s0_v8 : StableHlo.after (hostOps0 (F := Ideal)) V (Proc.devRef .tc main_v8)
    = colOf (eiIn (V (Proc.devRef .tc main_arg1))) := by
  unfold hostOps0; after_results_simp; rfl

/-! ### The first two stretches: the first half's inverse-root degrees -/

theorem pfx_s01_v17 :
    StableHlo.after (hostOps0_1 (F := Ideal)) (StableHlo.after (hostOps0 (F := Ideal)) V) (Proc.devRef .tc main_v17)
      = degInv (rowOf (eiIn (V (Proc.devRef .tc main_arg1)))) := by
  unfold hostOps0_1 hostOps0; after_results_simp
  simp only [StableHlo.TRef.ofBuf, StableHlo.TRef.toBuf, cast_eq]
  rfl

/-! ### The third stretch: the first half's normalisation, the second half's rows -/

theorem pfx_s2_v32 : StableHlo.after (hostOps0_2 (F := Ideal)) V (Proc.devRef .tc main_v32)
    = pfx_normFrom (V (Proc.devRef .tc main_v17)) (V (Proc.devRef .tc main_v6)) (V (Proc.devRef .tc main_v8)) := by
  unfold hostOps0_2; after_results_simp; rfl
theorem pfx_s2_v34 : StableHlo.after (hostOps0_2 (F := Ideal)) V (Proc.devRef .tc main_v34)
    = rowOf (V (Proc.devRef .tc main_v2)) := by
  unfold hostOps0_2; after_results_simp; rfl
theorem pfx_s2_v36 : StableHlo.after (hostOps0_2 (F := Ideal)) V (Proc.devRef .tc main_v36)
    = colOf (V (Proc.devRef .tc main_v2)) := by
  unfold hostOps0_2; after_results_simp; rfl

/-! ### The third and fourth stretches: the second half's inverse-root degrees -/

theorem pfx_s23_v45 :
    StableHlo.after (hostOps0_3 (F := Ideal)) (StableHlo.after (hostOps0_2 (F := Ideal)) V) (Proc.devRef .tc main_v45)
      = degInv (rowOf (V (Proc.devRef .tc main_v2))) := by
  unfold hostOps0_3 hostOps0_2; after_results_simp
  simp only [StableHlo.TRef.ofBuf, StableHlo.TRef.toBuf, cast_eq]
  rfl

/-! ### The fifth stretch: the second half's normalisation, the gathered feature rows, the columns, the target rows -/

theorem pfx_s4_v75 : StableHlo.after (hostOps0_4 (F := Ideal)) V (Proc.devRef .tc main_v75)
    = xgOf (V (Proc.devRef .tc main_arg0)) (V (Proc.devRef .tc main_v1)) := by
  unfold hostOps0_4; after_results_simp; rfl
theorem pfx_s4_v82 : StableHlo.after (hostOps0_4 (F := Ideal)) V (Proc.devRef .tc main_v82)
    = xgOf (V (Proc.devRef .tc main_arg0)) (V (Proc.devRef .tc main_v2)) := by
  unfold hostOps0_4; after_results_simp; rfl
theorem pfx_s4_v83 : StableHlo.after (hostOps0_4 (F := Ideal)) V (Proc.devRef .tc main_v83)
    = icol (V (Proc.devRef .tc main_v3)) := by
  unfold hostOps0_4; after_results_simp; rfl
theorem pfx_s4_v84 : StableHlo.after (hostOps0_4 (F := Ideal)) V (Proc.devRef .tc main_v84)
    = icol (V (Proc.devRef .tc main_v4)) := by
  unfold hostOps0_4; after_results_simp; rfl
theorem pfx_s4_v85 : StableHlo.after (hostOps0_4 (F := Ideal)) V (Proc.devRef .tc main_v85)
    = fcol (V (Proc.devRef .tc main_v32)) := by
  unfold hostOps0_4; after_results_simp; rfl
theorem pfx_s4_v86 : StableHlo.after (hostOps0_4 (F := Ideal)) V (Proc.devRef .tc main_v86)
    = fcol (pfx_normFrom (V (Proc.devRef .tc main_v45)) (V (Proc.devRef .tc main_v34)) (V (Proc.devRef .tc main_v36))) := by
  unfold hostOps0_4; after_results_simp; rfl
theorem pfx_s4_v66 : StableHlo.after (hostOps0_4 (F := Ideal)) V (Proc.devRef .tc main_v66)
    = rowOf (V (Proc.devRef .tc main_v1)) := by
  unfold hostOps0_4; after_results_simp; rfl
theorem pfx_s4_v68 : StableHlo.after (hostOps0_4 (F := Ideal)) V (Proc.devRef .tc main_v68)
    = rowOf (V (Proc.devRef .tc main_v2)) := by
  unfold hostOps0_4; after_results_simp; rfl

end Steps

variable (m : (ℓ : Loc nD τ sig) → Buf (Elt Ideal) ℓ) (ρ : Dev nD → PrngReg) (c : Dev nD)

/-! ## The contents at the boundaries between the stretches, as terms of the argument arrays -/

theorem pfx_W1_v0 : W1 (F := Ideal) m ρ c (Proc.devRef .tc main_v0)
    = relAll (m ((c : Thread nD τ).loc main_arg3)) (m ((c : Thread nD τ).loc main_arg8)) := pfx_s0_v0 (W0 m ρ c)
theorem pfx_W1_v1 : W1 (F := Ideal) m ρ c (Proc.devRef .tc main_v1) = eiIn (m ((c : Thread nD τ).loc main_arg1)) :=
  pfx_s0_v1 (W0 m ρ c)
theorem pfx_W1_v2 : W1 (F := Ideal) m ρ c (Proc.devRef .tc main_v2) = eiOut (m ((c : Thread nD τ).loc main_arg1)) :=
  pfx_s0_v2 (W0 m ρ c)
theorem pfx_W1_v3 : W1 (F := Ideal) m ρ c (Proc.devRef .tc main_v3) = etIn (m ((c : Thread nD τ).loc main_arg2)) :=
  pfx_s0_v3 (W0 m ρ c)
theorem pfx_W1_v4 : W1 (F := Ideal) m ρ c (Proc.devRef .tc main_v4) = etOut (m ((c : Thread nD τ).loc main_arg2)) :=
  pfx_s0_v4 (W0 m ρ c)
theorem pfx_W1_v6 : W1 (F := Ideal) m ρ c (Proc.devRef .tc main_v6) = rowOf (eiIn (m ((c : Thread nD τ).loc main_arg1))) :=
  pfx_s0_v6 (W0 m ρ c)
theorem pfx_W1_v8 : W1 (F := Ideal) m ρ c (Proc.devRef .tc main_v8) = colOf (eiIn (m ((c : Thread nD τ).loc main_arg1))) :=
  pfx_s0_v8 (W0 m ρ c)

theorem pfx_W2_v17 : W2 (F := Ideal) m ρ c (Proc.devRef .tc main_v17)
    = degInv (rowOf (eiIn (m ((c : Thread nD τ).loc main_arg1)))) := pfx_s01_v17 (W0 m ρ c)
theorem pfx_W2_v2 : W2 (F := Ideal) m ρ c (Proc.devRef .tc main_v2) = eiOut (m ((c : Thread nD τ).loc main_arg1)) :=
  (pfx_keep1 _ (by decide)).trans (pfx_W1_v2 m ρ c)
theorem pfx_W2_v6 : W2 (F := Ideal) m ρ c (Proc.devRef .tc main_v6) = rowOf (eiIn (m ((c : Thread nD τ).loc main_arg1))) :=
  (pfx_keep1 _ (by decide)).trans (pfx_W1_v6 m ρ c)
theorem pfx_W2_v8 : W2 (F := Ideal) m ρ c (Proc.devRef .tc main_v8) = colOf (eiIn (m ((c : Thread nD τ).loc main_arg1))) :=
  (pfx_keep1 _ (by decide)).trans (pfx_W1_v8 m ρ c)

theorem pfx_W3_v32 : W3 (F := Ideal) m ρ c (Proc.devRef .tc main_v32) = normOf (eiIn (m ((c : Thread nD τ).loc main_arg1))) :=
  (pfx_s2_v32 (W2 m ρ c)).trans (by rw [pfx_W2_v17, pfx_W2_v6, pfx_W2_v8, ← pfx_normOf_eq])
theorem pfx_W3_v34 : W3 (F := Ideal) m ρ c (Proc.devRef .tc main_v34) = rowOf (eiOut (m ((c : Thread nD τ).loc main_arg1))) :=
  (pfx_s2_v34 (W2 m ρ c)).trans (by rw [pfx_W2_v2])
theorem pfx_W3_v36 : W3 (F := Ideal) m ρ c (Proc.devRef .tc main_v36) = colOf (eiOut (m ((c : Thread nD τ).loc main_arg1))) :=
  (pfx_s2_v36 (W2 m ρ c)).trans (by rw [pfx_W2_v2])

theorem pfx_W4_v45 : W4 (F := Ideal) m ρ c (Proc.devRef .tc main_v45)
    = degInv (rowOf (eiOut (m ((c : Thread nD τ).loc main_arg1)))) :=
  (pfx_s23_v45 (W2 m ρ c)).trans (by rw [pfx_W2_v2])
theorem pfx_W4_v32 : W4 (F := Ideal) m ρ c (Proc.devRef .tc main_v32) = normOf (eiIn (m ((c : Thread nD τ).loc main_arg1))) :=
  (pfx_keep3 _ (by decide)).trans (pfx_W3_v32 m ρ c)
theorem pfx_W4_v34 : W4 (F := Ideal) m ρ c (Proc.devRef .tc main_v34) = rowOf (eiOut (m ((c : Thread nD τ).loc main_arg1))) :=
  (pfx_keep3 _ (by decide)).trans (pfx_W3_v34 m ρ c)
theorem pfx_W4_v36 : W4 (F := Ideal) m ρ c (Proc.devRef .tc main_v36) = colOf (eiOut (m ((c : Thread nD τ).loc main_arg1))) :=
  (pfx_keep3 _ (by decide)).trans (pfx_W3_v36 m ρ c)
theorem pfx_W4_v0 : W4 (F := Ideal) m ρ c (Proc.devRef .tc main_v0)
    = relAll (m ((c : Thread nD τ).loc main_arg3)) (m ((c : Thread nD τ).loc main_arg8)) :=
  (pfx_keep3 _ (by decide)).trans ((pfx_keep2 _ (by decide)).trans ((pfx_keep1 _ (by decide)).trans (pfx_W1_v0 m ρ c)))
theorem pfx_W4_v1 : W4 (F := Ideal) m ρ c (Proc.devRef .tc main_v1) = eiIn (m ((c : Thread nD τ).loc main_arg1)) :=
  (pfx_keep3 _ (by decide)).trans ((pfx_keep2 _ (by decide)).trans ((pfx_keep1 _ (by decide)).trans (pfx_W1_v1 m ρ c)))
theorem pfx_W4_v2 : W4 (F := Ideal) m ρ c (Proc.devRef .tc main_v2) = eiOut (m ((c : Thread nD τ).loc main_arg1)) :=
  (pfx_keep3 _ (by decide)).trans ((pfx_keep2 _ (by decide)).trans (pfx_W2_v2 m ρ c))
theorem pfx_W4_v3 : W4 (F := Ideal) m ρ c (Proc.devRef .tc main_v3) = etIn (m ((c : Thread nD τ).loc main_arg2)) :=
  (pfx_keep3 _ (by decide)).trans ((pfx_keep2 _ (by decide)).trans ((pfx_keep1 _ (by decide)).trans (pfx_W1_v3 m ρ c)))
theorem pfx_W4_v4 : W4 (F := Ideal) m ρ c (Proc.devRef .tc main_v4) = etOut (m ((c : Thread nD τ).loc main_arg2)) :=
  (pfx_keep3 _ (by decide)).trans ((pfx_keep2 _ (by decide)).trans ((pfx_keep1 _ (by decide)).trans (pfx_W1_v4 m ρ c)))
theorem pfx_W4_arg0 : W4 (F := Ideal) m ρ c (Proc.devRef .tc main_arg0) = m ((c : Thread nD τ).loc main_arg0) :=
  (pfx_keep3 _ (by decide)).trans ((pfx_keep2 _ (by decide)).trans ((pfx_keep1 _ (by decide)).trans (pfx_keep0 _ (by decide))))

/-- A reference none of the five stretches writes holds at region 0's entry what it held at launch. -/
theorem pfx_W5_keep {r : Ref sig .tc} (h0 : r ∉ pfx_wr0) (h1 : r ∉ pfx_wr1) (h2 : r ∉ pfx_wr2) (h3 : r ∉ pfx_wr3)
    (h4 : r ∉ pfx_wr4) : W5 (F := Ideal) m ρ c (Proc.devRef .tc r) = W0 m ρ c (Proc.devRef .tc r) :=
  (pfx_keep4 _ h4).trans ((pfx_keep3 _ h3).trans ((pfx_keep2 _ h2).trans ((pfx_keep1 _ h1).trans (pfx_keep0 _ h0))))

/-! ## Region 0's entry -/

theorem P_v75 : W5 (F := Ideal) m ρ c (Proc.devRef .tc main_v75) = xgOf (m ((c : Thread nD τ).loc main_arg0)) (eiIn (m ((c : Thread nD τ).loc main_arg1))) :=
  (pfx_s4_v75 (W4 m ρ c)).trans (by rw [pfx_W4_arg0, pfx_W4_v1])
theorem P_v83 : W5 (F := Ideal) m ρ c (Proc.devRef .tc main_v83) = icol (etIn (m ((c : Thread nD τ).loc main_arg2))) :=
  (pfx_s4_v83 (W4 m ρ c)).trans (by rw [pfx_W4_v3])
theorem P_v85 : W5 (F := Ideal) m ρ c (Proc.devRef .tc main_v85) = fcol (normOf (eiIn (m ((c : Thread nD τ).loc main_arg1)))) :=
  (pfx_s4_v85 (W4 m ρ c)).trans (by rw [pfx_W4_v32])
theorem P_v82 : W5 (F := Ideal) m ρ c (Proc.devRef .tc main_v82) = xgOf (m ((c : Thread nD τ).loc main_arg0)) (eiOut (m ((c : Thread nD τ).loc main_arg1))) :=
  (pfx_s4_v82 (W4 m ρ c)).trans (by rw [pfx_W4_arg0, pfx_W4_v2])
theorem P_v84 : W5 (F := Ideal) m ρ c (Proc.devRef .tc main_v84) = icol (etOut (m ((c : Thread nD τ).loc main_arg2))) :=
  (pfx_s4_v84 (W4 m ρ c)).trans (by rw [pfx_W4_v4])
theorem P_v86 : W5 (F := Ideal) m ρ c (Proc.devRef .tc main_v86) = fcol (normOf (eiOut (m ((c : Thread nD τ).loc main_arg1)))) :=
  (pfx_s4_v86 (W4 m ρ c)).trans (by rw [pfx_W4_v45, pfx_W4_v34, pfx_W4_v36, ← pfx_normOf_eq])
theorem P_v0 : W5 (F := Ideal) m ρ c (Proc.devRef .tc main_v0) = relAll (m ((c : Thread nD τ).loc main_arg3)) (m ((c : Thread nD τ).loc main_arg8)) :=
  (pfx_keep4 _ (by decide)).trans (pfx_W4_v0 m ρ c)
theorem P_v66 : W5 (F := Ideal) m ρ c (Proc.devRef .tc main_v66) = rowOf (eiIn (m ((c : Thread nD τ).loc main_arg1))) :=
  (pfx_s4_v66 (W4 m ρ c)).trans (by rw [pfx_W4_v1])
theorem P_v68 : W5 (F := Ideal) m ρ c (Proc.devRef .tc main_v68) = rowOf (eiOut (m ((c : Thread nD τ).loc main_arg1))) :=
  (pfx_s4_v68 (W4 m ρ c)).trans (by rw [pfx_W4_v2])
theorem P_arg0 : W5 (F := Ideal) m ρ c (Proc.devRef .tc main_arg0) = (m ((c : Thread nD τ).loc main_arg0)) :=
  pfx_W5_keep m ρ c (by decide) (by decide) (by decide) (by decide) (by decide)
theorem P_arg4 : W5 (F := Ideal) m ρ c (Proc.devRef .tc main_arg4) = (m ((c : Thread nD τ).loc main_arg4)) :=
  pfx_W5_keep m ρ c (by decide) (by decide) (by decide) (by decide) (by decide)
theorem P_arg5 : W5 (F := Ideal) m ρ c (Proc.devRef .tc main_arg5) = (m ((c : Thread nD τ).loc main_arg5)) :=
  pfx_W5_keep m ρ c (by decide) (by decide) (by decide) (by decide) (by decide)
theorem P_arg6 : W5 (F := Ideal) m ρ c (Proc.devRef .tc main_arg6) = (m ((c : Thread nD τ).loc main_arg6)) :=
  pfx_W5_keep m ρ c (by decide) (by decide) (by decide) (by decide) (by decide)
theorem P_arg7 : W5 (F := Ideal) m ρ c (Proc.devRef .tc main_arg7) = (m ((c : Thread nD τ).loc main_arg7)) :=
  pfx_W5_keep m ρ c (by decide) (by decide) (by decide) (by decide) (by decide)
theorem P_arg9 : W5 (F := Ideal) m ρ c (Proc.devRef .tc main_arg9) = (m ((c : Thread nD τ).loc main_arg9)) :=
  pfx_W5_keep m ρ c (by decide) (by decide) (by decide) (by decide) (by decide)
theorem P_arg10 : W5 (F := Ideal) m ρ c (Proc.devRef .tc main_arg10) = (m ((c : Thread nD τ).loc main_arg10)) :=
  pfx_W5_keep m ρ c (by decide) (by decide) (by decide) (by decide) (by decide)

end Cert.KernelIdeal.Gen

end
-- ==== Proof.KCompose0.lean ====
import proofs.«407851_j24489903522003_2_alg».proof.Proof.Gen.KernelIdeal.Frame
import proofs.«407851_j24489903522003_2_alg».proof.Proof.KSpec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

/-! Region 0 (the incoming edges' messages): the array the pipeline leaves is the entry-by-entry message function of the arrays the region is entered with. -/

set_option maxRecDepth 16384

noncomputable section

namespace Cert.KernelIdeal.Gen

open Idealize.ShloMosaic Idealize.ShloMosaic.TcCoe Idealize.ShloMosaic.Tactic Idealize.ShloMosaic.ValueIdx
open Idealize.SL.Sem
open Idealize.ShloMosaic.Pipeline (Dat Cfg Window)
open Cert.Hand

/-! ## The body's two products at an entry

The first product contracts the 51 relations (the one-hot rows against the relation table), the second the 256
features (the composed rows against the weight matrix). Each operand index of a product is read coordinate by
coordinate: the free axis keeps the output's coordinate, the contracted axis takes the contraction position. -/

/-- The dimension numbers of the one-hot rows times the relation table. -/
abbrev D1 := dot_S4000x51_S51x256_S4000x256_1_0_0_1_n_n
/-- The dimension numbers of the composed rows times the weight matrix. -/
abbrev D2 := dot_S4000x256_S256x256_S4000x256_1_0_0_1_n_n

theorem lhs1_0 (p : Fin 4000) (q : Fin 256) (c : D1.contr.Idx) : (D1.lhsIdx (ix2 p q) c 0).val = p.val := by
  simp [DotDims.lhsIdx, dot_S4000x51_S51x256_S4000x256_1_0_0_1_n_n]; rfl
theorem lhs1_1 (p : Fin 4000) (q : Fin 256) (c : D1.contr.Idx) : (D1.lhsIdx (ix2 p q) c 1).val = (c ⟨0, by decide⟩).val :=
  DotDims.lhsIdx_val_of_single (d := D1) (cl := 1) rfl _ _
theorem rhs1_0 (p : Fin 4000) (q : Fin 256) (c : D1.contr.Idx) : (D1.rhsIdx (ix2 p q) c 0).val = (c ⟨0, by decide⟩).val :=
  DotDims.rhsIdx_val_of_single (d := D1) (cr := 0) rfl _ _
theorem rhs1_1 (p : Fin 4000) (q : Fin 256) (c : D1.contr.Idx) : (D1.rhsIdx (ix2 p q) c 1).val = q.val := by
  simp [DotDims.rhsIdx, dot_S4000x51_S51x256_S4000x256_1_0_0_1_n_n]; rfl

theorem lhs2_0 (p : Fin 4000) (q : Fin 256) (c : D2.contr.Idx) : (D2.lhsIdx (ix2 p q) c 0).val = p.val := by
  simp [DotDims.lhsIdx, dot_S4000x256_S256x256_S4000x256_1_0_0_1_n_n]; rfl
theorem lhs2_1 (p : Fin 4000) (q : Fin 256) (c : D2.contr.Idx) : (D2.lhsIdx (ix2 p q) c 1).val = (c ⟨0, by decide⟩).val :=
  DotDims.lhsIdx_val_of_single (d := D2) (cl := 1) rfl _ _
theorem rhs2_0 (p : Fin 4000) (q : Fin 256) (c : D2.contr.Idx) : (D2.rhsIdx (ix2 p q) c 0).val = (c ⟨0, by decide⟩).val :=
  DotDims.rhsIdx_val_of_single (d := D2) (cr := 0) rfl _ _
theorem rhs2_1 (p : Fin 4000) (q : Fin 256) (c : D2.contr.Idx) : (D2.rhsIdx (ix2 p q) c 1).val = q.val := by
  simp [DotDims.rhsIdx, dot_S4000x256_S256x256_S4000x256_1_0_0_1_n_n]; rfl

/-- The one-hot product into the zero accumulator, at an entry: the sum over the 51 relations. -/
theorem mm1_apply {φ₁ φ₂ : FTy} (prec : Option ContractPrecision) (A : FVec Ideal S4000x51 φ₁) (B : FVec Ideal S51x256 φ₂)
    (p : Fin 4000) (q : Fin 256) :
    matmul D1 prec A B (constant (F := Ideal) S4000x256 .f32 0x00000000#32) (ix2 p q) = ∑ r : Fin 51, A (ix2 p r) * B (ix2 r q) := by
  show FloatOps.matmul D1 prec A B _ (ix2 p q) = _
  rw [Ideal.matmul_constant_zero_apply, ← Equiv.sum_comp (contrEquiv1 D1 51 rfl rfl).symm]
  refine Finset.sum_congr rfl fun r _ => ?_
  have hk := contrEquiv1_symm_val D1 51 rfl rfl r
  have l : D1.lhsIdx (ix2 p q) ((contrEquiv1 D1 51 rfl rfl).symm r) = ix2 p r := by
    funext ax; apply Fin.ext
    match ax with
    | ⟨0, _⟩ => exact lhs1_0 _ _ _
    | ⟨1, _⟩ => exact (lhs1_1 _ _ _).trans hk
  have r' : D1.rhsIdx (ix2 p q) ((contrEquiv1 D1 51 rfl rfl).symm r) = ix2 r q := by
    funext ax; apply Fin.ext
    match ax with
    | ⟨0, _⟩ => exact (rhs1_0 _ _ _).trans hk
    | ⟨1, _⟩ => exact rhs1_1 _ _ _
  rw [l, r']

/-- The weight product into the zero accumulator, at an entry: the sum over the 256 features. -/
theorem mm2_apply {φ₁ φ₂ : FTy} (prec : Option ContractPrecision) (A : FVec Ideal S4000x256 φ₁) (B : FVec Ideal S256x256 φ₂)
    (p : Fin 4000) (q : Fin 256) :
    matmul D2 prec A B (constant (F := Ideal) S4000x256 .f32 0x00000000#32) (ix2 p q) = ∑ k : Fin 256, A (ix2 p k) * B (ix2 k q) := by
  show FloatOps.matmul D2 prec A B _ (ix2 p q) = _
  rw [Ideal.matmul_constant_zero_apply, ← Equiv.sum_comp (contrEquiv1 D2 256 rfl rfl).symm]
  refine Finset.sum_congr rfl fun r _ => ?_
  have hk := contrEquiv1_symm_val D2 256 rfl rfl r
  have l : D2.lhsIdx (ix2 p q) ((contrEquiv1 D2 256 rfl rfl).symm r) = ix2 p r := by
    funext ax; apply Fin.ext
    match ax with
    | ⟨0, _⟩ => exact lhs2_0 _ _ _
    | ⟨1, _⟩ => exact (lhs2_1 _ _ _).trans hk
  have r' : D2.rhsIdx (ix2 p q) ((contrEquiv1 D2 256 rfl rfl).symm r) = ix2 r q := by
    funext ax; apply Fin.ext
    match ax with
    | ⟨0, _⟩ => exact (rhs2_0 _ _ _).trans hk
    | ⟨1, _⟩ => exact rhs2_1 _ _ _
  rw [l, r']

/-! ## The column broadcast and the one-hot entry -/

/-- A column broadcast along the rows of a rectangle reads, at an entry, the column's entry of that row. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one-bit word of an equality of 32-bit words, widened and converted, is the indicator in the extended reals:
    the widened word is 1 or 0, read signed it is the integer 1 or 0. -/
theorem onehot_word (t : BitVec 32) (r : Fin 51) :
    FloatOps.sitofp (F := Ideal) .f32 ((IntOp.cmpi .eq t (BitVec.ofNat 32 r.val)).setWidth 32) = oh t r := by
  unfold oh
  show ((((BitVec.ofBool (t == BitVec.ofNat 32 r.val)).setWidth 32).toInt : ℝ) : EReal) = _
  by_cases h : t = BitVec.ofNat 32 r.val
  · rw [if_pos h, show (t == BitVec.ofNat 32 r.val) = true from by simpa using h]
    have e : ((BitVec.ofBool true).setWidth 32).toInt = 1 := by decide
    rw [e]; simp
  · rw [if_neg h, show (t == BitVec.ofNat 32 r.val) = false from by simpa using h]
    have e : ((BitVec.ofBool false).setWidth 32).toInt = 0 := by decide
    rw [e]; simp

/-! ## The stored value at an entry -/

/-- The body's stored value at entry (p, q) of the block: row p of the gathered rows times, feature by feature, the
    relation row its edge type selects (the one-hot row against the table), contracted with column q of the weight
    matrix, scaled by the edge's normalisation. The narrowing of the two factors of the second product is the
    identity on extended reals. -/
theorem pay_apply (x0 : Vec Ideal S4000x256 .f32) (x1 : Vec Ideal S4000x1 .i32) (x2 : Vec Ideal S51x256 .f32)
    (x3 : Vec Ideal S256x256 .f32) (x4 : Vec Ideal S4000x1 .f32) (p : Fin 4000) (q : Fin 256) :
    k0_pay1 (F := Ideal) x0 x1 x2 x3 x4 (ix2 p q)
      = (∑ k : Fin 256, (x0 (ix2 p k) * ∑ r : Fin 51, oh (x1 (ix2 p (0 : Fin 1))) r * x2 (ix2 r k)) * x3 (ix2 k q))
          * x4 (ix2 p (0 : Fin 1)) := by
  unfold k0_pay1
  simp only [shapeCast_self]
  rw [mulf_apply, broadcastTo_a1_ab_apply, mm2_apply]
  congr 1
  refine Finset.sum_congr rfl fun k _ => ?_
  rw [truncf_apply, truncf_apply, mulf_apply, mm1_apply]
  congr 2
  refine Finset.sum_congr rfl fun r _ => ?_
  rw [sitofp_apply, extui_apply]
  show FloatOps.sitofp (F := Ideal) .f32 ((IntOp.cmpi .eq (broadcastTo S4000x51 x1 broadcasts_S4000x1_S4000x51 (ix2 p r))
    (broadcastTo S4000x51 (iota .tc S1x51 32 [1] iota_S1x51_d1_w32) broadcasts_S1x51_S4000x51 (ix2 p r))).setWidth 32) * _ = _
  rw [broadcastTo_a1_ab_apply, broadcastTo_1b_ab_apply, iota_single_apply, onehot_word]

/-- An entry of the stored block is the message function at a row `P` of arrays of `n` rows, once the block's
    row-wise inputs are those arrays' entries of row `P` and the two tables are the arrays read whole. -/
theorem pay_compose {n : Nat} (A0 : (⟨2, ![n, 256]⟩ : Shape).Idx → EReal) (A1 : (⟨2, ![n, 1]⟩ : Shape).Idx → BitVec 32)
    (A2 : (⟨2, ![51, 256]⟩ : Shape).Idx → EReal) (A3 : (⟨2, ![256, 256]⟩ : Shape).Idx → EReal)
    (A4 : (⟨2, ![n, 1]⟩ : Shape).Idx → EReal)
    (x0 : Vec Ideal S4000x256 .f32) (x1 : Vec Ideal S4000x1 .i32) (x2 : Vec Ideal S51x256 .f32) (x3 : Vec Ideal S256x256 .f32)
    (x4 : Vec Ideal S4000x1 .f32) (p : Fin 4000) (q : Fin 256) (P : Fin n)
    (h0 : ∀ k : Fin 256, x0 (ix2 p k) = A0 (ix2 P k))
    (h1 : x1 (ix2 p (0 : Fin 1)) = A1 (ix2 P (0 : Fin 1)))
    (h2 : ∀ (r : Fin 51) (k : Fin 256), x2 (ix2 r k) = A2 (ix2 r k))
    (h3 : ∀ (k : Fin 256) (d : Fin 256), x3 (ix2 k d) = A3 (ix2 k d))
    (h4 : x4 (ix2 p (0 : Fin 1)) = A4 (ix2 P (0 : Fin 1))) :
    k0_pay1 (F := Ideal) x0 x1 x2 x3 x4 (ix2 p q) = composeK (n := n) A0 A1 A2 A3 A4 (ix2 P q) := by
  rw [pay_apply]
  unfold composeK
  simp only [h0, h1, h2, h3, h4]
  rfl

/-- The zero offsets of a whole-buffer access. -/
theorem hz : (![0, 0] : Fin 2 → Nat) = fun _ => 0 := funext fun a => by fin_cases a <;> rfl

/-! ## Region 0: from the blocks to the array -/

/-- The printed index maps over the grid: the row-blocked windows sit at block (t, 0), the two tables at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the message function of the arrays as the region finds them: entry
    (p, q) of the block is the array's entry (4000·t + p, q), and it reads rows 4000·t + p of the three row-wise arrays
    and the two tables whole. -/
theorem flushed0 (V : (c : Dev nD) → (b : Ref sig .tc) → Buf (Elt Ideal) ((c : Thread nD τ).loc b)) (c : Dev nD) (t : Fin cfg0.N) :
    (dat0 (F := Ideal) V c).flushed 5 t = ((cfg0.win 5).blk t).view.read (Elt Ideal)
      (composeK (n := 320000) (V c main_v75) (V c main_v83) (V c main_v0) (V c main_arg5) (V c main_v85)) := by
  show (cfg0.win 5).cut (grid0.coords t) ((dat0 V c).after 5 t) = _
  rw [after0_5]
  unfold out0_5
  rw [View.canon_unit_zero hz]
  simp only [View.ld_unit_zero (S := S4000x256) hz, View.ld_unit_zero (S := S4000x1) hz, View.ld_unit_zero (S := S51x256) hz,
    View.ld_unit_zero (S := S256x256) hz]
  have key : ∀ j' : S4000x256.Idx,
      k0_pay1 (F := Ideal) (iblk0 V c 0 t) (iblk0 V c 1 t) (iblk0 V c 2 t) (iblk0 V c 3 t) (iblk0 V c 4 t) j'
        = composeK (n := 320000) (V c main_v75) (V c main_v83) (V c main_v0) (V c main_arg5) (V c main_v85)
            (((cfg0.win 5).blk t).view.emb j') := by
    intro j'
    obtain ⟨p, q, rfl⟩ : ∃ (p : Fin 4000) (q : Fin 256), j' = ix2 p q := ⟨j' 0, j' 1, eq_ix2 j'⟩
    obtain ⟨e00, e01, e10, e11, e20, e21, e30, e31, e40, e41, e50, e51⟩ := idx_facts0 t
    have hN : cfg0.N = 80 := N_0
    have hP : t.val * 4000 + p.val < 320000 := by have := t.isLt; have := p.isLt; omega
    have hi : ((cfg0.win 5).blk t).view.emb (ix2 p q) = ix2 (⟨t.val * 4000 + p.val, hP⟩ : Fin 320000) q := by
      funext a; apply Fin.ext
      match a with
      | ⟨0, _⟩ => show win0_5.index t (0 : Fin 2) * 4000 + 1 * p.val = t.val * 4000 + p.val; rw [e50]; omega
      | ⟨1, _⟩ => show win0_5.index t (1 : Fin 2) * 256 + 1 * q.val = q.val; rw [e51]; omega
    rw [hi]
    refine pay_compose (n := 320000) _ _ _ _ _ _ _ _ _ _ p q ⟨_, hP⟩ (fun k => ?_) ?_ (fun r k => ?_) (fun k d => ?_) ?_
    · show V c main_v75 (((cfg0.win 0).blk t).view.emb (ix2 p k)) = V c main_v75 (ix2 (⟨t.val * 4000 + p.val, hP⟩ : Fin 320000) k)
      congr 1; funext a; apply Fin.ext
      match a with
      | ⟨0, _⟩ => show win0_0.index t (0 : Fin 2) * 4000 + 1 * p.val = t.val * 4000 + p.val; rw [e00]; omega
      | ⟨1, _⟩ => show win0_0.index t (1 : Fin 2) * 256 + 1 * k.val = k.val; rw [e01]; omega
    · show V c main_v83 (((cfg0.win 1).blk t).view.emb (ix2 p (0 : Fin 1)))
        = V c main_v83 (ix2 (⟨t.val * 4000 + p.val, hP⟩ : Fin 320000) (0 : Fin 1))
      congr 1; funext a; apply Fin.ext
      match a with
      | ⟨0, _⟩ => show win0_1.index t (0 : Fin 2) * 4000 + 1 * p.val = t.val * 4000 + p.val; rw [e10]; omega
      | ⟨1, _⟩ => show win0_1.index t (1 : Fin 2) * 1 + 1 * 0 = 0; rw [e11]
    · show V c main_v0 (((cfg0.win 2).blk t).view.emb (ix2 r k)) = V c main_v0 (ix2 r k)
      congr 1; funext a; apply Fin.ext
      match a with
      | ⟨0, _⟩ => show win0_2.index t (0 : Fin 2) * 51 + 1 * r.val = r.val; rw [e20]; omega
      | ⟨1, _⟩ => show win0_2.index t (1 : Fin 2) * 256 + 1 * k.val = k.val; rw [e21]; omega
    · show V c main_arg5 (((cfg0.win 3).blk t).view.emb (ix2 k d)) = V c main_arg5 (ix2 k d)
      congr 1; funext a; apply Fin.ext
      match a with
      | ⟨0, _⟩ => show win0_3.index t (0 : Fin 2) * 256 + 1 * k.val = k.val; rw [e30]; omega
      | ⟨1, _⟩ => show win0_3.index t (1 : Fin 2) * 256 + 1 * d.val = d.val; rw [e31]; omega
    · show V c main_v85 (((cfg0.win 4).blk t).view.emb (ix2 p (0 : Fin 1)))
        = V c main_v85 (ix2 (⟨t.val * 4000 + p.val, hP⟩ : Fin 320000) (0 : Fin 1))
      congr 1; funext a; apply Fin.ext
      match a with
      | ⟨0, _⟩ => show win0_4.index t (0 : Fin 2) * 4000 + 1 * p.val = t.val * 4000 + p.val; rw [e40]; omega
      | ⟨1, _⟩ => show win0_4.index t (1 : Fin 2) * 1 + 1 * 0 = 0; rw [e41]
  funext j
  exact key j

/-- An index of the array is in point `t`'s block iff each coordinate is in the block's range on its axis. -/
theorem mem_blk0 (t : Fin cfg0.N) (i : S320000x256.Idx) :
    i ∈ ((cfg0.win 5).blk t).view.set ↔ ∀ a : Fin 2, win0_5.index t a * S4000x256.size a ≤ (i a).val
      ∧ (i a).val < win0_5.index t a * S4000x256.size a + S4000x256.size a := by
  show i ∈ ((View.whole main_v87).slice (win0_5.rect t)).set ↔ _
  rw [View.set_slice_whole, Rect.mem_set_unit]
  exact Iff.rfl

/-- Row `r` of the array lies in the block of point `r / 4000`: the 80 blocks of 4000 rows tile the 320000 rows. -/
theorem cover0 (i : S320000x256.Idx) : ∃ t : Fin cfg0.N, (cfg0.win 5).flush t = true ∧ i ∈ ((cfg0.win 5).blk t).view.set := by
  have hN : cfg0.N = 80 := N_0
  have h0 : (i 0).val < 320000 := idx2_lt0 i
  have h1 : (i 1).val < 256 := idx2_lt1 i
  obtain ⟨t, ht⟩ : ∃ t : Fin cfg0.N, t.val = (i 0).val / 4000 := ⟨⟨(i 0).val / 4000, by omega⟩, rfl⟩
  obtain ⟨-, -, -, -, -, -, -, -, -, -, e50, e51⟩ := idx_facts0 t
  refine ⟨t, flush0_5 t, ?_⟩
  rw [mem_blk0]
  intro a
  match a with
  | ⟨0, _⟩ =>
    show win0_5.index t (0 : Fin 2) * 4000 ≤ (i 0).val ∧ (i 0).val < win0_5.index t (0 : Fin 2) * 4000 + 4000
    rw [e50]; omega
  | ⟨1, _⟩ =>
    show win0_5.index t (1 : Fin 2) * 256 ≤ (i 1).val ∧ (i 1).val < win0_5.index t (1 : Fin 2) * 256 + 256
    rw [e51]; omega

/-- After region 0, its output array holds, entry by entry, the messages of the incoming edges computed from the arrays the
    region found: every grid point's block is that function's restriction, and the 80 blocks of 4000 rows tile the array. -/
theorem final0 (V : (c : Dev nD) → (b : Ref sig .tc) → Buf (Elt Ideal) ((c : Thread nD τ).loc b)) (c : Dev nD) :
    (dat0 (F := Ideal) V c).arrAt 5 cfg0.N
      = composeK (n := 320000) (V c main_v75) (V c main_v83) (V c main_v0) (V c main_arg5) (V c main_v85) :=
  (dat0 (F := Ideal) V c).arrAt_eq_of_cover 5
    (composeK (n := 320000) (V c main_v75) (V c main_v83) (V c main_v0) (V c main_arg5) (V c main_v85))
    (fun t _ => flushed0 V c t) (fun i => cover0 i)

end Cert.KernelIdeal.Gen

end
-- ==== Proof.KCompose1.lean ====
import proofs.«407851_j24489903522003_2_alg».proof.Proof.Gen.KernelIdeal.Frame
import proofs.«407851_j24489903522003_2_alg».proof.Proof.KSpec
import proofs.«407851_j24489903522003_2_alg».proof.Proof.KCompose0
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

/-! Region 1 (the outgoing edges' messages). -/

set_option maxRecDepth 16384

noncomputable section

namespace Cert.KernelIdeal.Gen

open Idealize.ShloMosaic Idealize.ShloMosaic.TcCoe Idealize.ShloMosaic.Tactic Idealize.ShloMosaic.ValueIdx
open Idealize.SL.Sem
open Idealize.ShloMosaic.Pipeline (Dat Cfg Window)
open Cert.Hand

/-! ## Region 1: from the blocks to the array -/

/-- Region 1 runs the same body as region 0: its stored value is the same function of the loaded blocks. -/
theorem pay1_eq (x0 : Vec Ideal S4000x256 .f32) (x1 : Vec Ideal S4000x1 .i32) (x2 : Vec Ideal S51x256 .f32)
    (x3 : Vec Ideal S256x256 .f32) (x4 : Vec Ideal S4000x1 .f32) :
    k1_pay1 (F := Ideal) x0 x1 x2 x3 x4 = k0_pay1 (F := Ideal) x0 x1 x2 x3 x4 := rfl

/-- The printed index maps over the grid: the row-blocked windows sit at block (t, 0), the two tables at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the message function of the arrays as the region finds them: entry
    (p, q) of the block is the array's entry (4000·t + p, q), and it reads rows 4000·t + p of the three row-wise arrays
    and the two tables whole. -/
theorem flushed1 (V : (c : Dev nD) → (b : Ref sig .tc) → Buf (Elt Ideal) ((c : Thread nD τ).loc b)) (c : Dev nD) (t : Fin cfg1.N) :
    (dat1 (F := Ideal) V c).flushed 5 t = ((cfg1.win 5).blk t).view.read (Elt Ideal)
      (composeK (n := 320000) (V c main_v82) (V c main_v84) (V c main_v0) (V c main_arg6) (V c main_v86)) := by
  show (cfg1.win 5).cut (grid1.coords t) ((dat1 V c).after 5 t) = _
  rw [after1_5]
  unfold out1_5
  rw [View.canon_unit_zero hz]
  simp only [View.ld_unit_zero (S := S4000x256) hz, View.ld_unit_zero (S := S4000x1) hz, View.ld_unit_zero (S := S51x256) hz,
    View.ld_unit_zero (S := S256x256) hz]
  have key : ∀ j' : S4000x256.Idx,
      k1_pay1 (F := Ideal) (iblk1 V c 0 t) (iblk1 V c 1 t) (iblk1 V c 2 t) (iblk1 V c 3 t) (iblk1 V c 4 t) j'
        = composeK (n := 320000) (V c main_v82) (V c main_v84) (V c main_v0) (V c main_arg6) (V c main_v86)
            (((cfg1.win 5).blk t).view.emb j') := by
    intro j'
    obtain ⟨p, q, rfl⟩ : ∃ (p : Fin 4000) (q : Fin 256), j' = ix2 p q := ⟨j' 0, j' 1, eq_ix2 j'⟩
    obtain ⟨e00, e01, e10, e11, e20, e21, e30, e31, e40, e41, e50, e51⟩ := idx_facts1 t
    have hN : cfg1.N = 80 := N_1
    have hP : t.val * 4000 + p.val < 320000 := by have := t.isLt; have := p.isLt; omega
    have hi : ((cfg1.win 5).blk t).view.emb (ix2 p q) = ix2 (⟨t.val * 4000 + p.val, hP⟩ : Fin 320000) q := by
      funext a; apply Fin.ext
      match a with
      | ⟨0, _⟩ => show win1_5.index t (0 : Fin 2) * 4000 + 1 * p.val = t.val * 4000 + p.val; rw [e50]; omega
      | ⟨1, _⟩ => show win1_5.index t (1 : Fin 2) * 256 + 1 * q.val = q.val; rw [e51]; omega
    rw [hi, pay1_eq]
    refine pay_compose (n := 320000) _ _ _ _ _ _ _ _ _ _ p q ⟨_, hP⟩ (fun k => ?_) ?_ (fun r k => ?_) (fun k d => ?_) ?_
    · show V c main_v82 (((cfg1.win 0).blk t).view.emb (ix2 p k)) = V c main_v82 (ix2 (⟨t.val * 4000 + p.val, hP⟩ : Fin 320000) k)
      congr 1; funext a; apply Fin.ext
      match a with
      | ⟨0, _⟩ => show win1_0.index t (0 : Fin 2) * 4000 + 1 * p.val = t.val * 4000 + p.val; rw [e00]; omega
      | ⟨1, _⟩ => show win1_0.index t (1 : Fin 2) * 256 + 1 * k.val = k.val; rw [e01]; omega
    · show V c main_v84 (((cfg1.win 1).blk t).view.emb (ix2 p (0 : Fin 1)))
        = V c main_v84 (ix2 (⟨t.val * 4000 + p.val, hP⟩ : Fin 320000) (0 : Fin 1))
      congr 1; funext a; apply Fin.ext
      match a with
      | ⟨0, _⟩ => show win1_1.index t (0 : Fin 2) * 4000 + 1 * p.val = t.val * 4000 + p.val; rw [e10]; omega
      | ⟨1, _⟩ => show win1_1.index t (1 : Fin 2) * 1 + 1 * 0 = 0; rw [e11]
    · show V c main_v0 (((cfg1.win 2).blk t).view.emb (ix2 r k)) = V c main_v0 (ix2 r k)
      congr 1; funext a; apply Fin.ext
      match a with
      | ⟨0, _⟩ => show win1_2.index t (0 : Fin 2) * 51 + 1 * r.val = r.val; rw [e20]; omega
      | ⟨1, _⟩ => show win1_2.index t (1 : Fin 2) * 256 + 1 * k.val = k.val; rw [e21]; omega
    · show V c main_arg6 (((cfg1.win 3).blk t).view.emb (ix2 k d)) = V c main_arg6 (ix2 k d)
      congr 1; funext a; apply Fin.ext
      match a with
      | ⟨0, _⟩ => show win1_3.index t (0 : Fin 2) * 256 + 1 * k.val = k.val; rw [e30]; omega
      | ⟨1, _⟩ => show win1_3.index t (1 : Fin 2) * 256 + 1 * d.val = d.val; rw [e31]; omega
    · show V c main_v86 (((cfg1.win 4).blk t).view.emb (ix2 p (0 : Fin 1)))
        = V c main_v86 (ix2 (⟨t.val * 4000 + p.val, hP⟩ : Fin 320000) (0 : Fin 1))
      congr 1; funext a; apply Fin.ext
      match a with
      | ⟨0, _⟩ => show win1_4.index t (0 : Fin 2) * 4000 + 1 * p.val = t.val * 4000 + p.val; rw [e40]; omega
      | ⟨1, _⟩ => show win1_4.index t (1 : Fin 2) * 1 + 1 * 0 = 0; rw [e41]
  funext j
  exact key j

/-- An index of the array is in point `t`'s block iff each coordinate is in the block's range on its axis. -/
theorem mem_blk1 (t : Fin cfg1.N) (i : S320000x256.Idx) :
    i ∈ ((cfg1.win 5).blk t).view.set ↔ ∀ a : Fin 2, win1_5.index t a * S4000x256.size a ≤ (i a).val
      ∧ (i a).val < win1_5.index t a * S4000x256.size a + S4000x256.size a := by
  show i ∈ ((View.whole main_v88).slice (win1_5.rect t)).set ↔ _
  rw [View.set_slice_whole, Rect.mem_set_unit]
  exact Iff.rfl

/-- Row `r` of the array lies in the block of point `r / 4000`: the 80 blocks of 4000 rows tile the 320000 rows. -/
theorem cover1 (i : S320000x256.Idx) : ∃ t : Fin cfg1.N, (cfg1.win 5).flush t = true ∧ i ∈ ((cfg1.win 5).blk t).view.set := by
  have hN : cfg1.N = 80 := N_1
  have h0 : (i 0).val < 320000 := idx2_lt0 i
  have h1 : (i 1).val < 256 := idx2_lt1 i
  obtain ⟨t, ht⟩ : ∃ t : Fin cfg1.N, t.val = (i 0).val / 4000 := ⟨⟨(i 0).val / 4000, by omega⟩, rfl⟩
  obtain ⟨-, -, -, -, -, -, -, -, -, -, e50, e51⟩ := idx_facts1 t
  refine ⟨t, flush1_5 t, ?_⟩
  rw [mem_blk1]
  intro a
  match a with
  | ⟨0, _⟩ =>
    show win1_5.index t (0 : Fin 2) * 4000 ≤ (i 0).val ∧ (i 0).val < win1_5.index t (0 : Fin 2) * 4000 + 4000
    rw [e50]; omega
  | ⟨1, _⟩ =>
    show win1_5.index t (1 : Fin 2) * 256 ≤ (i 1).val ∧ (i 1).val < win1_5.index t (1 : Fin 2) * 256 + 256
    rw [e51]; omega

/-- After region 1, its output array holds, entry by entry, the messages of the outgoing edges. -/
theorem final1 (V : (c : Dev nD) → (b : Ref sig .tc) → Buf (Elt Ideal) ((c : Thread nD τ).loc b)) (c : Dev nD) :
    (dat1 (F := Ideal) V c).arrAt 5 cfg1.N
      = composeK (n := 320000) (V c main_v82) (V c main_v84) (V c main_v0) (V c main_arg6) (V c main_v86) :=
  (dat1 (F := Ideal) V c).arrAt_eq_of_cover 5
    (composeK (n := 320000) (V c main_v82) (V c main_v84) (V c main_v0) (V c main_arg6) (V c main_v86))
    (fun t _ => flushed1 V c t) (fun i => cover1 i)

end Cert.KernelIdeal.Gen

end
-- ==== Proof.KCompose2.lean ====
import proofs.«407851_j24489903522003_2_alg».proof.Proof.Gen.KernelIdeal.Frame
import proofs.«407851_j24489903522003_2_alg».proof.Proof.KSpec
import proofs.«407851_j24489903522003_2_alg».proof.Proof.KCompose0
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

/-! Region 2 (the self-loop term). -/

set_option maxRecDepth 16384

noncomputable section

namespace Cert.KernelIdeal.Gen

open Idealize.ShloMosaic Idealize.ShloMosaic.TcCoe Idealize.ShloMosaic.Tactic Idealize.ShloMosaic.ValueIdx
open Idealize.SL.Sem
open Idealize.ShloMosaic.Pipeline (Dat Cfg Window)
open Cert.Hand

/-! ## Region 2: from the blocks to the array -/

/-- Region 2 runs the same body as region 0 up to an identity reshape of the gathered rows: its stored value is the
    same function of the loaded blocks. -/
theorem pay2_eq (x0 : Vec Ideal S4000x256 .f32) (x1 : Vec Ideal S4000x1 .i32) (x2 : Vec Ideal S51x256 .f32)
    (x3 : Vec Ideal S256x256 .f32) (x4 : Vec Ideal S4000x1 .f32) :
    k2_pay1 (F := Ideal) x0 x1 x2 x3 x4 = k0_pay1 (F := Ideal) x0 x1 x2 x3 x4 := by
  unfold k2_pay1 k0_pay1
  simp only [shapeCast_self]

/-- The printed index maps over the grid: the row-blocked windows sit at block (t, 0), the two tables at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- What point `t` writes back is block `t` of the message function of the arrays as the region finds them: entry
    (p, q) of the block is the array's entry (4000·t + p, q), and it reads rows 4000·t + p of the three row-wise arrays
    and the two tables whole. -/
theorem flushed2 (V : (c : Dev nD) → (b : Ref sig .tc) → Buf (Elt Ideal) ((c : Thread nD τ).loc b)) (c : Dev nD) (t : Fin cfg2.N) :
    (dat2 (F := Ideal) V c).flushed 5 t = ((cfg2.win 5).blk t).view.read (Elt Ideal)
      (composeK (n := 100000) (V c main_arg0) (V c main_v89) (V c main_v0) (V c main_arg4) (V c main_v90)) := by
  show (cfg2.win 5).cut (grid2.coords t) ((dat2 V c).after 5 t) = _
  rw [after2_5]
  unfold out2_5
  rw [View.canon_unit_zero hz]
  simp only [View.ld_unit_zero (S := S4000x256) hz, View.ld_unit_zero (S := S4000x1) hz, View.ld_unit_zero (S := S51x256) hz,
    View.ld_unit_zero (S := S256x256) hz]
  have key : ∀ j' : S4000x256.Idx,
      k2_pay1 (F := Ideal) (iblk2 V c 0 t) (iblk2 V c 1 t) (iblk2 V c 2 t) (iblk2 V c 3 t) (iblk2 V c 4 t) j'
        = composeK (n := 100000) (V c main_arg0) (V c main_v89) (V c main_v0) (V c main_arg4) (V c main_v90)
            (((cfg2.win 5).blk t).view.emb j') := by
    intro j'
    obtain ⟨p, q, rfl⟩ : ∃ (p : Fin 4000) (q : Fin 256), j' = ix2 p q := ⟨j' 0, j' 1, eq_ix2 j'⟩
    obtain ⟨e00, e01, e10, e11, e20, e21, e30, e31, e40, e41, e50, e51⟩ := idx_facts2 t
    have hN : cfg2.N = 25 := N_2
    have hP : t.val * 4000 + p.val < 100000 := by have := t.isLt; have := p.isLt; omega
    have hi : ((cfg2.win 5).blk t).view.emb (ix2 p q) = ix2 (⟨t.val * 4000 + p.val, hP⟩ : Fin 100000) q := by
      funext a; apply Fin.ext
      match a with
      | ⟨0, _⟩ => show win2_5.index t (0 : Fin 2) * 4000 + 1 * p.val = t.val * 4000 + p.val; rw [e50]; omega
      | ⟨1, _⟩ => show win2_5.index t (1 : Fin 2) * 256 + 1 * q.val = q.val; rw [e51]; omega
    rw [hi, pay2_eq]
    refine pay_compose (n := 100000) _ _ _ _ _ _ _ _ _ _ p q ⟨_, hP⟩ (fun k => ?_) ?_ (fun r k => ?_) (fun k d => ?_) ?_
    · show V c main_arg0 (((cfg2.win 0).blk t).view.emb (ix2 p k)) = V c main_arg0 (ix2 (⟨t.val * 4000 + p.val, hP⟩ : Fin 100000) k)
      congr 1; funext a; apply Fin.ext
      match a with
      | ⟨0, _⟩ => show win2_0.index t (0 : Fin 2) * 4000 + 1 * p.val = t.val * 4000 + p.val; rw [e00]; omega
      | ⟨1, _⟩ => show win2_0.index t (1 : Fin 2) * 256 + 1 * k.val = k.val; rw [e01]; omega
    · show V c main_v89 (((cfg2.win 1).blk t).view.emb (ix2 p (0 : Fin 1)))
        = V c main_v89 (ix2 (⟨t.val * 4000 + p.val, hP⟩ : Fin 100000) (0 : Fin 1))
      congr 1; funext a; apply Fin.ext
      match a with
      | ⟨0, _⟩ => show win2_1.index t (0 : Fin 2) * 4000 + 1 * p.val = t.val * 4000 + p.val; rw [e10]; omega
      | ⟨1, _⟩ => show win2_1.index t (1 : Fin 2) * 1 + 1 * 0 = 0; rw [e11]
    · show V c main_v0 (((cfg2.win 2).blk t).view.emb (ix2 r k)) = V c main_v0 (ix2 r k)
      congr 1; funext a; apply Fin.ext
      match a with
      | ⟨0, _⟩ => show win2_2.index t (0 : Fin 2) * 51 + 1 * r.val = r.val; rw [e20]; omega
      | ⟨1, _⟩ => show win2_2.index t (1 : Fin 2) * 256 + 1 * k.val = k.val; rw [e21]; omega
    · show V c main_arg4 (((cfg2.win 3).blk t).view.emb (ix2 k d)) = V c main_arg4 (ix2 k d)
      congr 1; funext a; apply Fin.ext
      match a with
      | ⟨0, _⟩ => show win2_3.index t (0 : Fin 2) * 256 + 1 * k.val = k.val; rw [e30]; omega
      | ⟨1, _⟩ => show win2_3.index t (1 : Fin 2) * 256 + 1 * d.val = d.val; rw [e31]; omega
    · show V c main_v90 (((cfg2.win 4).blk t).view.emb (ix2 p (0 : Fin 1)))
        = V c main_v90 (ix2 (⟨t.val * 4000 + p.val, hP⟩ : Fin 100000) (0 : Fin 1))
      congr 1; funext a; apply Fin.ext
      match a with
      | ⟨0, _⟩ => show win2_4.index t (0 : Fin 2) * 4000 + 1 * p.val = t.val * 4000 + p.val; rw [e40]; omega
      | ⟨1, _⟩ => show win2_4.index t (1 : Fin 2) * 1 + 1 * 0 = 0; rw [e41]
  funext j
  exact key j

/-- An index of the array is in point `t`'s block iff each coordinate is in the block's range on its axis. -/
theorem mem_blk2 (t : Fin cfg2.N) (i : S100000x256.Idx) :
    i ∈ ((cfg2.win 5).blk t).view.set ↔ ∀ a : Fin 2, win2_5.index t a * S4000x256.size a ≤ (i a).val
      ∧ (i a).val < win2_5.index t a * S4000x256.size a + S4000x256.size a := by
  show i ∈ ((View.whole main_v91).slice (win2_5.rect t)).set ↔ _
  rw [View.set_slice_whole, Rect.mem_set_unit]
  exact Iff.rfl

/-- Row `r` of the array lies in the block of point `r / 4000`: the 25 blocks of 4000 rows tile the 100000 rows. -/
theorem cover2 (i : S100000x256.Idx) : ∃ t : Fin cfg2.N, (cfg2.win 5).flush t = true ∧ i ∈ ((cfg2.win 5).blk t).view.set := by
  have hN : cfg2.N = 25 := N_2
  have h0 : (i 0).val < 100000 := idx2_lt0 i
  have h1 : (i 1).val < 256 := idx2_lt1 i
  obtain ⟨t, ht⟩ : ∃ t : Fin cfg2.N, t.val = (i 0).val / 4000 := ⟨⟨(i 0).val / 4000, by omega⟩, rfl⟩
  obtain ⟨-, -, -, -, -, -, -, -, -, -, e50, e51⟩ := idx_facts2 t
  refine ⟨t, flush2_5 t, ?_⟩
  rw [mem_blk2]
  intro a
  match a with
  | ⟨0, _⟩ =>
    show win2_5.index t (0 : Fin 2) * 4000 ≤ (i 0).val ∧ (i 0).val < win2_5.index t (0 : Fin 2) * 4000 + 4000
    rw [e50]; omega
  | ⟨1, _⟩ =>
    show win2_5.index t (1 : Fin 2) * 256 ≤ (i 1).val ∧ (i 1).val < win2_5.index t (1 : Fin 2) * 256 + 256
    rw [e51]; omega

/-- After region 2, its output array holds, entry by entry, the self-loop term. -/
theorem final2 (V : (c : Dev nD) → (b : Ref sig .tc) → Buf (Elt Ideal) ((c : Thread nD τ).loc b)) (c : Dev nD) :
    (dat2 (F := Ideal) V c).arrAt 5 cfg2.N
      = composeK (n := 100000) (V c main_arg0) (V c main_v89) (V c main_v0) (V c main_arg4) (V c main_v90) :=
  (dat2 (F := Ideal) V c).arrAt_eq_of_cover 5
    (composeK (n := 100000) (V c main_arg0) (V c main_v89) (V c main_v0) (V c main_arg4) (V c main_v90))
    (fun t _ => flushed2 V c t) (fun i => cover2 i)

end Cert.KernelIdeal.Gen

end
-- ==== Proof.KChainA.lean ====
import proofs.«407851_j24489903522003_2_alg».proof.Proof.Gen.KernelIdeal.Frame
import proofs.«407851_j24489903522003_2_alg».proof.Proof.KSpec
import proofs.«407851_j24489903522003_2_alg».proof.Proof.KPrefix
import proofs.«407851_j24489903522003_2_alg».proof.Proof.KCompose0
import proofs.«407851_j24489903522003_2_alg».proof.Proof.KCompose1
import proofs.«407851_j24489903522003_2_alg».proof.Proof.KCompose2
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

/-! From the launch to region 3's entry: the three message regions and the host operations between them. -/

set_option maxRecDepth 16384

noncomputable section

namespace Cert.KernelIdeal.Gen

open Idealize.ShloMosaic Idealize.ShloMosaic.TcCoe Idealize.ShloMosaic.Tactic Idealize.ShloMosaic.ValueIdx
open Idealize.SL.Sem
open Idealize.ShloMosaic.Pipeline (Dat Cfg Window)
open Cert.Hand

variable (m : (ℓ : Loc nD τ sig) → Buf (Elt Ideal) ℓ) (ρ : Dev nD → PrngReg) (c : Dev nD)

/-- A stretch of host operations leaves a buffer that none of them writes as it found it. -/
local macro "host_skip " ops:ident b:ident : tactic =>
  `(tactic| exact StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- The entry-by-entry message function depends on its five arrays only. -/
private theorem composeK_congr {n : Nat} {xg xg' : (⟨2, ![n, 256]⟩ : Shape).Idx → EReal} {t t' : (⟨2, ![n, 1]⟩ : Shape).Idx → BitVec 32}
    {ra ra' : (⟨2, ![51, 256]⟩ : Shape).Idx → EReal} {w w' : (⟨2, ![256, 256]⟩ : Shape).Idx → EReal}
    {nrm nrm' : (⟨2, ![n, 1]⟩ : Shape).Idx → EReal} (h1 : xg = xg') (h2 : t = t') (h3 : ra = ra') (h4 : w = w') (h5 : nrm = nrm') :
    composeK xg t ra w nrm = composeK xg' t' ra' w' nrm' := by
  subst h1 h2 h3 h4 h5; rfl

/-! ## The relation table: read by every message region through its window 2, written by none -/

private theorem W6_v0 : W6 (F := Ideal) m ρ c (Proc.devRef .tc main_v0) = relAll (m ((c : Thread nD τ).loc main_arg3)) (m ((c : Thread nD τ).loc main_arg8)) :=
  calc W6 (F := Ideal) m ρ c (Proc.devRef .tc main_v0)
    _ = W5 m ρ c (Proc.devRef .tc main_v0) := (W6_arr m ρ c 2).trans (((dat0 (V5 m ρ) c).arrAt_in 2 rfl _).trans (A_eq0 (V5 m ρ) c 2))
    _ = _ := P_v0 m ρ c

private theorem W7_v0 : W7 (F := Ideal) m ρ c (Proc.devRef .tc main_v0) = relAll (m ((c : Thread nD τ).loc main_arg3)) (m ((c : Thread nD τ).loc main_arg8)) :=
  calc W7 (F := Ideal) m ρ c (Proc.devRef .tc main_v0)
    _ = W6 m ρ c (Proc.devRef .tc main_v0) := (W7_arr m ρ c 2).trans (((dat1 (V6 m ρ) c).arrAt_in 2 rfl _).trans (A_eq1 (V6 m ρ) c 2))
    _ = _ := W6_v0 m ρ c

private theorem W8_v0 : W8 (F := Ideal) m ρ c (Proc.devRef .tc main_v0) = relAll (m ((c : Thread nD τ).loc main_arg3)) (m ((c : Thread nD τ).loc main_arg8)) :=
  calc W8 (F := Ideal) m ρ c (Proc.devRef .tc main_v0)
    _ = W7 m ρ c (Proc.devRef .tc main_v0) := by host_skip hostOps2 main_v0
    _ = _ := W7_v0 m ρ c

private theorem W9_v0 : W9 (F := Ideal) m ρ c (Proc.devRef .tc main_v0) = relAll (m ((c : Thread nD τ).loc main_arg3)) (m ((c : Thread nD τ).loc main_arg8)) :=
  calc W9 (F := Ideal) m ρ c (Proc.devRef .tc main_v0)
    _ = W8 m ρ c (Proc.devRef .tc main_v0) := (W9_arr m ρ c 2).trans (((dat2 (V8 m ρ) c).arrAt_in 2 rfl _).trans (A_eq2 (V8 m ρ) c 2))
    _ = _ := W8_v0 m ρ c

/-! ## Region 0: the incoming edges' messages -/

private theorem W6_v87 : W6 (F := Ideal) m ρ c (Proc.devRef .tc main_v87)
    = msgK (m ((c : Thread nD τ).loc main_arg0)) (eiIn (m ((c : Thread nD τ).loc main_arg1))) (etIn (m ((c : Thread nD τ).loc main_arg2))) (relAll (m ((c : Thread nD τ).loc main_arg3)) (m ((c : Thread nD τ).loc main_arg8))) (m ((c : Thread nD τ).loc main_arg5)) :=
  (W6_arr m ρ c 5).trans ((final0 (V5 m ρ) c).trans
    (composeK_congr (P_v75 m ρ c) (P_v83 m ρ c) (P_v0 m ρ c) (P_arg5 m ρ c) (P_v85 m ρ c)))

/-! ## Region 1: the outgoing edges' messages; region 0 wrote none of its inputs -/

private theorem W6_v82 : W6 (F := Ideal) m ρ c (Proc.devRef .tc main_v82) = xgOf (m ((c : Thread nD τ).loc main_arg0)) (eiOut (m ((c : Thread nD τ).loc main_arg1))) :=
  (W6_of_ne m ρ c main_v82 (by decide)).trans (P_v82 m ρ c)
private theorem W6_v84 : W6 (F := Ideal) m ρ c (Proc.devRef .tc main_v84) = icol (etOut (m ((c : Thread nD τ).loc main_arg2))) :=
  (W6_of_ne m ρ c main_v84 (by decide)).trans (P_v84 m ρ c)
private theorem W6_arg6 : W6 (F := Ideal) m ρ c (Proc.devRef .tc main_arg6) = (m ((c : Thread nD τ).loc main_arg6)) :=
  (W6_of_ne m ρ c main_arg6 (by decide)).trans (P_arg6 m ρ c)
private theorem W6_v86 : W6 (F := Ideal) m ρ c (Proc.devRef .tc main_v86) = fcol (normOf (eiOut (m ((c : Thread nD τ).loc main_arg1)))) :=
  (W6_of_ne m ρ c main_v86 (by decide)).trans (P_v86 m ρ c)

private theorem W7_v88 : W7 (F := Ideal) m ρ c (Proc.devRef .tc main_v88)
    = msgK (m ((c : Thread nD τ).loc main_arg0)) (eiOut (m ((c : Thread nD τ).loc main_arg1))) (etOut (m ((c : Thread nD τ).loc main_arg2))) (relAll (m ((c : Thread nD τ).loc main_arg3)) (m ((c : Thread nD τ).loc main_arg8))) (m ((c : Thread nD τ).loc main_arg6)) :=
  (W7_arr m ρ c 5).trans ((final1 (V6 m ρ) c).trans
    (composeK_congr (W6_v82 m ρ c) (W6_v84 m ρ c) (W6_v0 m ρ c) (W6_arg6 m ρ c) (W6_v86 m ρ c)))

private theorem W7_v87 : W7 (F := Ideal) m ρ c (Proc.devRef .tc main_v87)
    = msgK (m ((c : Thread nD τ).loc main_arg0)) (eiIn (m ((c : Thread nD τ).loc main_arg1))) (etIn (m ((c : Thread nD τ).loc main_arg2))) (relAll (m ((c : Thread nD τ).loc main_arg3)) (m ((c : Thread nD τ).loc main_arg8))) (m ((c : Thread nD τ).loc main_arg5)) :=
  (W7_of_ne m ρ c main_v87 (by decide)).trans (W6_v87 m ρ c)

/-! ## The host operations before region 2 make its two constant columns and write nothing else that is read later -/

private theorem W8_v87 : W8 (F := Ideal) m ρ c (Proc.devRef .tc main_v87)
    = msgK (m ((c : Thread nD τ).loc main_arg0)) (eiIn (m ((c : Thread nD τ).loc main_arg1))) (etIn (m ((c : Thread nD τ).loc main_arg2))) (relAll (m ((c : Thread nD τ).loc main_arg3)) (m ((c : Thread nD τ).loc main_arg8))) (m ((c : Thread nD τ).loc main_arg5)) :=
  calc W8 (F := Ideal) m ρ c (Proc.devRef .tc main_v87)
    _ = W7 m ρ c (Proc.devRef .tc main_v87) := by host_skip hostOps2 main_v87
    _ = _ := W7_v87 m ρ c
private theorem W8_v88 : W8 (F := Ideal) m ρ c (Proc.devRef .tc main_v88)
    = msgK (m ((c : Thread nD τ).loc main_arg0)) (eiOut (m ((c : Thread nD τ).loc main_arg1))) (etOut (m ((c : Thread nD τ).loc main_arg2))) (relAll (m ((c : Thread nD τ).loc main_arg3)) (m ((c : Thread nD τ).loc main_arg8))) (m ((c : Thread nD τ).loc main_arg6)) :=
  calc W8 (F := Ideal) m ρ c (Proc.devRef .tc main_v88)
    _ = W7 m ρ c (Proc.devRef .tc main_v88) := by host_skip hostOps2 main_v88
    _ = _ := W7_v88 m ρ c
private theorem W8_arg0 : W8 (F := Ideal) m ρ c (Proc.devRef .tc main_arg0) = (m ((c : Thread nD τ).loc main_arg0)) :=
  calc W8 (F := Ideal) m ρ c (Proc.devRef .tc main_arg0)
    _ = W7 m ρ c (Proc.devRef .tc main_arg0) := by host_skip hostOps2 main_arg0
    _ = W6 m ρ c (Proc.devRef .tc main_arg0) := W7_of_ne m ρ c main_arg0 (by decide)
    _ = W5 m ρ c (Proc.devRef .tc main_arg0) := W6_of_ne m ρ c main_arg0 (by decide)
    _ = _ := P_arg0 m ρ c
private theorem W8_arg4 : W8 (F := Ideal) m ρ c (Proc.devRef .tc main_arg4) = (m ((c : Thread nD τ).loc main_arg4)) :=
  calc W8 (F := Ideal) m ρ c (Proc.devRef .tc main_arg4)
    _ = W7 m ρ c (Proc.devRef .tc main_arg4) := by host_skip hostOps2 main_arg4
    _ = W6 m ρ c (Proc.devRef .tc main_arg4) := W7_of_ne m ρ c main_arg4 (by decide)
    _ = W5 m ρ c (Proc.devRef .tc main_arg4) := W6_of_ne m ρ c main_arg4 (by decide)
    _ = _ := P_arg4 m ρ c
private theorem W8_v66 : W8 (F := Ideal) m ρ c (Proc.devRef .tc main_v66) = rowOf (eiIn (m ((c : Thread nD τ).loc main_arg1))) :=
  calc W8 (F := Ideal) m ρ c (Proc.devRef .tc main_v66)
    _ = W7 m ρ c (Proc.devRef .tc main_v66) := by host_skip hostOps2 main_v66
    _ = W6 m ρ c (Proc.devRef .tc main_v66) := W7_of_ne m ρ c main_v66 (by decide)
    _ = W5 m ρ c (Proc.devRef .tc main_v66) := W6_of_ne m ρ c main_v66 (by decide)
    _ = _ := P_v66 m ρ c
private theorem W8_v68 : W8 (F := Ideal) m ρ c (Proc.devRef .tc main_v68) = rowOf (eiOut (m ((c : Thread nD τ).loc main_arg1))) :=
  calc W8 (F := Ideal) m ρ c (Proc.devRef .tc main_v68)
    _ = W7 m ρ c (Proc.devRef .tc main_v68) := by host_skip hostOps2 main_v68
    _ = W6 m ρ c (Proc.devRef .tc main_v68) := W7_of_ne m ρ c main_v68 (by decide)
    _ = W5 m ρ c (Proc.devRef .tc main_v68) := W6_of_ne m ρ c main_v68 (by decide)
    _ = _ := P_v68 m ρ c

/-- Every node's relation number for the self-loop: the column of the integer 50. -/
private theorem W8_v89 : W8 (F := Ideal) m ρ c (Proc.devRef .tc main_v89)
    = broadcastInDim Cert.KernelIdeal.S100000x1 ![] Cert.KernelIdeal.Facts₀.bcast_S_S100000x1 (constantI Cert.KernelIdeal.S_ 32 50#32) := by
  show StableHlo.after hostOps2 (W7 m ρ c) (Proc.devRef .tc main_v89) = _
  dsimp only [hostOps2]
  after_results
/-- Every node's normalisation for the self-loop: the column of ones. -/
private theorem W8_v90 : W8 (F := Ideal) m ρ c (Proc.devRef .tc main_v90)
    = broadcastInDim Cert.KernelIdeal.S100000x1 ![] Cert.KernelIdeal.Facts₀.bcast_S_S100000x1 (constant (F := Ideal) Cert.KernelIdeal.S_ .f32 0x3F800000#32) := by
  show StableHlo.after hostOps2 (W7 m ρ c) (Proc.devRef .tc main_v90) = _
  dsimp only [hostOps2]
  after_results

/-! ## Region 2: the self-loop term -/

private theorem W9_v91 : W9 (F := Ideal) m ρ c (Proc.devRef .tc main_v91) = loopK (m ((c : Thread nD τ).loc main_arg0)) (relAll (m ((c : Thread nD τ).loc main_arg3)) (m ((c : Thread nD τ).loc main_arg8))) (m ((c : Thread nD τ).loc main_arg4)) :=
  (W9_arr m ρ c 5).trans ((final2 (V8 m ρ) c).trans
    (composeK_congr (W8_arg0 m ρ c) (W8_v89 m ρ c) (W8_v0 m ρ c) (W8_arg4 m ρ c) (W8_v90 m ρ c)))

private theorem W9_v87 : W9 (F := Ideal) m ρ c (Proc.devRef .tc main_v87)
    = msgK (m ((c : Thread nD τ).loc main_arg0)) (eiIn (m ((c : Thread nD τ).loc main_arg1))) (etIn (m ((c : Thread nD τ).loc main_arg2))) (relAll (m ((c : Thread nD τ).loc main_arg3)) (m ((c : Thread nD τ).loc main_arg8))) (m ((c : Thread nD τ).loc main_arg5)) :=
  (W9_of_ne m ρ c main_v87 (by decide)).trans (W8_v87 m ρ c)
private theorem W9_v88 : W9 (F := Ideal) m ρ c (Proc.devRef .tc main_v88)
    = msgK (m ((c : Thread nD τ).loc main_arg0)) (eiOut (m ((c : Thread nD τ).loc main_arg1))) (etOut (m ((c : Thread nD τ).loc main_arg2))) (relAll (m ((c : Thread nD τ).loc main_arg3)) (m ((c : Thread nD τ).loc main_arg8))) (m ((c : Thread nD τ).loc main_arg6)) :=
  (W9_of_ne m ρ c main_v88 (by decide)).trans (W8_v88 m ρ c)
private theorem W9_v66 : W9 (F := Ideal) m ρ c (Proc.devRef .tc main_v66) = rowOf (eiIn (m ((c : Thread nD τ).loc main_arg1))) :=
  (W9_of_ne m ρ c main_v66 (by decide)).trans (W8_v66 m ρ c)
private theorem W9_v68 : W9 (F := Ideal) m ρ c (Proc.devRef .tc main_v68) = rowOf (eiOut (m ((c : Thread nD τ).loc main_arg1))) :=
  (W9_of_ne m ρ c main_v68 (by decide)).trans (W8_v68 m ρ c)

/-! ## The host operations before region 3: one scatter-add over the concatenated edge set -/

/-- The scatter-add's result from the four arrays it is made of. -/
private theorem W10_v96 : W10 (F := Ideal) m ρ c (Proc.devRef .tc main_v96)
    = aggK (W9 m ρ c (Proc.devRef .tc main_v87)) (W9 m ρ c (Proc.devRef .tc main_v88))
        (W9 m ρ c (Proc.devRef .tc main_v66)) (W9 m ρ c (Proc.devRef .tc main_v68)) := by
  show StableHlo.after hostOps3 (W9 m ρ c) (Proc.devRef .tc main_v96) = _
  dsimp only [hostOps3]
  after_results
  rfl

/-- At region 3's entry the aggregated messages are the one scatter-add of both directions' messages. -/
theorem X_v96 : W10 (F := Ideal) m ρ c (Proc.devRef .tc main_v96)
    = aggK (msgK (m ((c : Thread nD τ).loc main_arg0)) (eiIn (m ((c : Thread nD τ).loc main_arg1))) (etIn (m ((c : Thread nD τ).loc main_arg2))) (relAll (m ((c : Thread nD τ).loc main_arg3)) (m ((c : Thread nD τ).loc main_arg8))) (m ((c : Thread nD τ).loc main_arg5)))
        (msgK (m ((c : Thread nD τ).loc main_arg0)) (eiOut (m ((c : Thread nD τ).loc main_arg1))) (etOut (m ((c : Thread nD τ).loc main_arg2))) (relAll (m ((c : Thread nD τ).loc main_arg3)) (m ((c : Thread nD τ).loc main_arg8))) (m ((c : Thread nD τ).loc main_arg6)))
        (rowOf (eiIn (m ((c : Thread nD τ).loc main_arg1)))) (rowOf (eiOut (m ((c : Thread nD τ).loc main_arg1)))) :=
  (W10_v96 m ρ c).trans (by rw [W9_v87, W9_v88, W9_v66, W9_v68])
/-- At region 3's entry the self-loop array is the self-loop term. -/
theorem X_v91 : W10 (F := Ideal) m ρ c (Proc.devRef .tc main_v91) = loopK (m ((c : Thread nD τ).loc main_arg0)) (relAll (m ((c : Thread nD τ).loc main_arg3)) (m ((c : Thread nD τ).loc main_arg8))) (m ((c : Thread nD τ).loc main_arg4)) :=
  calc W10 (F := Ideal) m ρ c (Proc.devRef .tc main_v91)
    _ = W9 m ρ c (Proc.devRef .tc main_v91) := by host_skip hostOps3 main_v91
    _ = _ := W9_v91 m ρ c
theorem X_v0 : W10 (F := Ideal) m ρ c (Proc.devRef .tc main_v0) = relAll (m ((c : Thread nD τ).loc main_arg3)) (m ((c : Thread nD τ).loc main_arg8)) :=
  calc W10 (F := Ideal) m ρ c (Proc.devRef .tc main_v0)
    _ = W9 m ρ c (Proc.devRef .tc main_v0) := by host_skip hostOps3 main_v0
    _ = _ := W9_v0 m ρ c
theorem X_arg7 : W10 (F := Ideal) m ρ c (Proc.devRef .tc main_arg7) = (m ((c : Thread nD τ).loc main_arg7)) :=
  calc W10 (F := Ideal) m ρ c (Proc.devRef .tc main_arg7)
    _ = W9 m ρ c (Proc.devRef .tc main_arg7) := by host_skip hostOps3 main_arg7
    _ = W8 m ρ c (Proc.devRef .tc main_arg7) := W9_of_ne m ρ c main_arg7 (by decide)
    _ = W7 m ρ c (Proc.devRef .tc main_arg7) := by host_skip hostOps2 main_arg7
    _ = W6 m ρ c (Proc.devRef .tc main_arg7) := W7_of_ne m ρ c main_arg7 (by decide)
    _ = W5 m ρ c (Proc.devRef .tc main_arg7) := W6_of_ne m ρ c main_arg7 (by decide)
    _ = _ := P_arg7 m ρ c
theorem X_arg9 : W10 (F := Ideal) m ρ c (Proc.devRef .tc main_arg9) = (m ((c : Thread nD τ).loc main_arg9)) :=
  calc W10 (F := Ideal) m ρ c (Proc.devRef .tc main_arg9)
    _ = W9 m ρ c (Proc.devRef .tc main_arg9) := by host_skip hostOps3 main_arg9
    _ = W8 m ρ c (Proc.devRef .tc main_arg9) := W9_of_ne m ρ c main_arg9 (by decide)
    _ = W7 m ρ c (Proc.devRef .tc main_arg9) := by host_skip hostOps2 main_arg9
    _ = W6 m ρ c (Proc.devRef .tc main_arg9) := W7_of_ne m ρ c main_arg9 (by decide)
    _ = W5 m ρ c (Proc.devRef .tc main_arg9) := W6_of_ne m ρ c main_arg9 (by decide)
    _ = _ := P_arg9 m ρ c
theorem X_arg10 : W10 (F := Ideal) m ρ c (Proc.devRef .tc main_arg10) = (m ((c : Thread nD τ).loc main_arg10)) :=
  calc W10 (F := Ideal) m ρ c (Proc.devRef .tc main_arg10)
    _ = W9 m ρ c (Proc.devRef .tc main_arg10) := by host_skip hostOps3 main_arg10
    _ = W8 m ρ c (Proc.devRef .tc main_arg10) := W9_of_ne m ρ c main_arg10 (by decide)
    _ = W7 m ρ c (Proc.devRef .tc main_arg10) := by host_skip hostOps2 main_arg10
    _ = W6 m ρ c (Proc.devRef .tc main_arg10) := W7_of_ne m ρ c main_arg10 (by decide)
    _ = W5 m ρ c (Proc.devRef .tc main_arg10) := W6_of_ne m ρ c main_arg10 (by decide)
    _ = _ := P_arg10 m ρ c

end Cert.KernelIdeal.Gen

end
-- ==== Proof.KStats.lean ====
import proofs.«407851_j24489903522003_2_alg».proof.Proof.Gen.KernelIdeal.Frame
import proofs.«407851_j24489903522003_2_alg».proof.Proof.KSpec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

/-! Region 3 (the column statistics): over the 25 grid points the two one-row outputs accumulate the column sums of the averaged output and of its square. -/

set_option maxRecDepth 16384

noncomputable section

namespace Cert.KernelIdeal.Gen

open Idealize.ShloMosaic Idealize.ShloMosaic.TcCoe Idealize.ShloMosaic.Tactic Idealize.ShloMosaic.ValueIdx
open Idealize.SL.Sem
open Idealize.ShloMosaic.Pipeline (Dat Cfg Window)
open Cert.Hand

namespace Stats3

section Pieces

variable {F : FTy → Type} [FloatOps F]

theorem hz2 : (![0, 0] : Fin 2 → Nat) = fun _ => 0 := funext fun a => by fin_cases a <;> rfl

/-- Away from the first point the body leaves, in output 2's buffer holding `xo2`, `xo2` plus the column sums of the block. -/
theorem out_B2 (c : Dev nD) (i : grid3.Coords) (a1 : Memref sig .tc .vmem S4000x256 .f32) (h1 : a1.IsWhole)
    (a2 : Memref sig .tc .vmem S4000x256 .f32) (h2 : a2.IsWhole) (a3 : Memref sig .tc .vmem S1x256 .f32) (h3 : a3.IsWhole)
    (a4 : Memref sig .tc .vmem S1x256 .f32) (h4 : a4.IsWhole) (hc : ¬cond3_0 i)
    (x0 x1 : Vec F S4000x256 .f32) (xo2 xo3 : Vec F S1x256 .f32) :
    out3_B_2 c i a1 h1 a2 h2 a3 h3 a4 h4 hc x0 x1 xo2 xo3 = k3_pay4 x0 x1 xo2 := by
  unfold out3_B_2
  rw [View.read_writes_eq_canon _ _ _ (cover3_B_2 c i a1 h1 a2 h2 a3 h3 a4 h4 hc x0 x1 xo2 xo3)]
  unfold kernelRun3_B
  dsimp only
  sl_unfold_words
  rw [View.canon_unit_zero hz2]
  simp only [View.readAt_eq_ld, h1.read_unread, h2.read_unread, h3.read_unread, View.ld_unit_zero (S := S4000x256) hz2,
    View.ld_unit_zero (S := S1x256) hz2]

/-- Away from the first point the body leaves, in output 3's buffer holding `xo3`, `xo3` plus the column sums of the block's square. -/
theorem out_B3 (c : Dev nD) (i : grid3.Coords) (a1 : Memref sig .tc .vmem S4000x256 .f32) (h1 : a1.IsWhole)
    (a2 : Memref sig .tc .vmem S4000x256 .f32) (h2 : a2.IsWhole) (a3 : Memref sig .tc .vmem S1x256 .f32) (h3 : a3.IsWhole)
    (a4 : Memref sig .tc .vmem S1x256 .f32) (h4 : a4.IsWhole) (hc : ¬cond3_0 i)
    (x0 x1 : Vec F S4000x256 .f32) (xo2 xo3 : Vec F S1x256 .f32) :
    out3_B_3 c i a1 h1 a2 h2 a3 h3 a4 h4 hc x0 x1 xo2 xo3 = k3_pay5 x0 x1 xo3 := by
  unfold out3_B_3
  rw [View.read_writes_eq_canon _ _ _ (cover3_B_3 c i a1 h1 a2 h2 a3 h3 a4 h4 hc x0 x1 xo2 xo3)]
  unfold kernelRun3_B
  dsimp only
  sl_unfold_words
  rw [View.canon_unit_zero hz2]
  simp only [View.readAt_eq_ld, h1.read_unread, h2.read_unread, h4.read_unread, View.ld_unit_zero (S := S4000x256) hz2,
    View.ld_unit_zero (S := S1x256) hz2]

/-- At the first point the body stores the zero row, reads it back, and leaves it plus the column sums of the block. -/
theorem out_A2 (c : Dev nD) (i : grid3.Coords) (a1 : Memref sig .tc .vmem S4000x256 .f32) (h1 : a1.IsWhole)
    (a2 : Memref sig .tc .vmem S4000x256 .f32) (h2 : a2.IsWhole) (a3 : Memref sig .tc .vmem S1x256 .f32) (h3 : a3.IsWhole)
    (a4 : Memref sig .tc .vmem S1x256 .f32) (h4 : a4.IsWhole) (hc : cond3_0 i)
    (x0 x1 : Vec F S4000x256 .f32) :
    out3_A_2 c i a1 h1 a2 h2 a3 h3 a4 h4 hc x0 x1 = k3_pay4 x0 x1 (k3_pay1 (F := F)) := by
  unfold out3_A_2
  rw [View.read_writes_eq_canon _ _ _ (cover3_A_2 c i a1 h1 a2 h2 a3 h3 a4 h4 hc x0 x1)]
  unfold kernelRun3_A
  dsimp only
  sl_unfold_words
  rw [View.canon_cons_unit_zero (S := S1x256) hz2]
  simp only [View.readAt_eq_ld, h1.read_unread, h2.read_unread, View.ld_unit_zero (S := S4000x256) hz2,
    View.ld_unit_zero (S := S1x256) hz2, View.readCov_unit_zero (S := S1x256) _ hz2]

/-- At the first point the body stores the zero row, reads it back, and leaves it plus the column sums of the block's square. -/
theorem out_A3 (c : Dev nD) (i : grid3.Coords) (a1 : Memref sig .tc .vmem S4000x256 .f32) (h1 : a1.IsWhole)
    (a2 : Memref sig .tc .vmem S4000x256 .f32) (h2 : a2.IsWhole) (a3 : Memref sig .tc .vmem S1x256 .f32) (h3 : a3.IsWhole)
    (a4 : Memref sig .tc .vmem S1x256 .f32) (h4 : a4.IsWhole) (hc : cond3_0 i)
    (x0 x1 : Vec F S4000x256 .f32) :
    out3_A_3 c i a1 h1 a2 h2 a3 h3 a4 h4 hc x0 x1 = k3_pay5 x0 x1 (k3_pay2 (F := F)) := by
  unfold out3_A_3
  rw [View.read_writes_eq_canon _ _ _ (cover3_A_3 c i a1 h1 a2 h2 a3 h3 a4 h4 hc x0 x1)]
  unfold kernelRun3_A
  dsimp only
  sl_unfold_words
  rw [View.canon_cons_unit_zero (S := S1x256) hz2]
  simp only [View.readAt_eq_ld, h1.read_unread, h2.read_unread, View.ld_unit_zero (S := S4000x256) hz2,
    View.ld_unit_zero (S := S1x256) hz2, View.readCov_unit_zero (S := S1x256) _ hz2]

end Pieces

/-! ## The payloads at an index, over the extended reals -/

/-- The index a column reduction of a 4000×256 block inserts its row at. -/
theorem lift_rows (h : S4000x256.Reduces [0] S256) (d : Fin 256) (r : Fin 4000) :
    h.lift (ix1 d) r = ix2 r d := by
  funext a
  apply Fin.ext
  match a with
  | ⟨0, _⟩ => rfl
  | ⟨1, _⟩ => rfl

/-- A one-row accumulator plus the column sums of a block, read at a column. -/
theorem acc_add_colsums (acc : FVec Ideal S1x256 .f32) (src : FVec Ideal S4000x256 .f32)
    (h1 : S1x256.ShapeCasts S1x256) (h2 : S256.ShapeCasts S1x256) (hr : S4000x256.Reduces [0] S256)
    (hφ : FKind.Formats .f32) (hacc : (0x00000000#32 : BitVec 32) = FKind.add.neutral .f32 hφ) (d : Fin 256) :
    addf (shapeCast S1x256 acc h1) (shapeCast S1x256 (multiReduction .add [0] S256 src 0x00000000#32 hr hφ hacc) h2)
        (ix2 (0 : Fin 1) d)
      = acc (ix2 (0 : Fin 1) d) + ∑ r : Fin 4000, src (ix2 r d) := by
  rw [addf_apply, shapeCast_self, shapeCast_a_1a_apply]
  refine congrArg (acc (ix2 (0 : Fin 1) d) + ·) ?_
  refine (Ideal.multiReduction_add_single src _ hr hφ hacc (ix1 d)).trans ?_
  exact Finset.sum_congr rfl fun (r : Fin 4000) _ => congrArg src (lift_rows hr d r)

/-- The averaged block: the two input blocks added and scaled by a third. -/
theorem pay3_apply (x0 x1 : Vec Ideal S4000x256 .f32) (r : Fin 4000) (d : Fin 256) :
    k3_pay3 (F := Ideal) x0 x1 (ix2 r d) = (x0 (ix2 r d) + x1 (ix2 r d)) * c3 := by
  unfold k3_pay3
  simp only [shapeCast_self]
  rfl

/-- The first output's update at a column: the accumulator plus the block's column sum. -/
theorem pay4_apply (x0 x1 : Vec Ideal S4000x256 .f32) (acc : Vec Ideal S1x256 .f32) (d : Fin 256) :
    k3_pay4 (F := Ideal) x0 x1 acc (ix2 (0 : Fin 1) d)
      = acc (ix2 (0 : Fin 1) d) + ∑ r : Fin 4000, (x0 (ix2 r d) + x1 (ix2 r d)) * c3 := by
  unfold k3_pay4
  refine (acc_add_colsums acc (k3_pay3 (F := Ideal) x0 x1) _ _ _ _ _ d).trans ?_
  exact congrArg (acc (ix2 (0 : Fin 1) d) + ·) (Finset.sum_congr rfl fun r _ => pay3_apply x0 x1 r d)

/-- The second output's update at a column: the accumulator plus the column sum of the block's square. -/
theorem pay5_apply (x0 x1 : Vec Ideal S4000x256 .f32) (acc : Vec Ideal S1x256 .f32) (d : Fin 256) :
    k3_pay5 (F := Ideal) x0 x1 acc (ix2 (0 : Fin 1) d)
      = acc (ix2 (0 : Fin 1) d)
        + ∑ r : Fin 4000, ((x0 (ix2 r d) + x1 (ix2 r d)) * c3) * ((x0 (ix2 r d) + x1 (ix2 r d)) * c3) := by
  unfold k3_pay5
  refine (acc_add_colsums acc (mulf (k3_pay3 (F := Ideal) x0 x1) (k3_pay3 (F := Ideal) x0 x1)) _ _ _ _ _ d).trans ?_
  refine congrArg (acc (ix2 (0 : Fin 1) d) + ·) (Finset.sum_congr rfl fun r _ => ?_)
  rw [mulf_apply, pay3_apply]

/-- The rows the first point stores before accumulating are zero. -/
theorem pay1_apply (j : S1x256.Idx) : k3_pay1 (F := Ideal) j = 0 := Ideal.ofBits_zero_f32
theorem pay2_apply (j : S1x256.Idx) : k3_pay2 (F := Ideal) j = 0 := Ideal.ofBits_zero_f32

/-! ## The input blocks, read off their arrays -/

section Run

variable (V : (c : Dev nD) → (b : Ref sig .tc) → Buf (Elt Ideal) ((c : Thread nD τ).loc b))

/-- The two input arrays and their blocks at a point, at their literal types. -/
abbrev aggA (c : Dev nD) : FVec Ideal S100000x256 .f32 := V c main_v96
abbrev loopA (c : Dev nD) : FVec Ideal S100000x256 .f32 := V c main_v91
abbrev blkA (c : Dev nD) (t : Fin cfg3.N) : Vec Ideal S4000x256 .f32 := iblk3 (F := Ideal) V c 0 t
abbrev blkL (c : Dev nD) (t : Fin cfg3.N) : Vec Ideal S4000x256 .f32 := iblk3 (F := Ideal) V c 1 t

/-- Both input windows' block index at point `t` is `(t, 0)`. -/
theorem index3 : ∀ t : Fin grid3.N, (win3_0.index t 0 = t.val ∧ win3_0.index t 1 = 0)
    ∧ (win3_1.index t 0 = t.val ∧ win3_1.index t 1 = 0) := by decide +kernel

/-- Row `r` of the first input's block at point `t` is row `4000 t + r` of its array. -/
theorem blkA_apply (c : Dev nD) (t : Fin cfg3.N) (r : Fin 4000) (d : Fin 256) (hb : 4000 * t.val + r.val < 100000) :
    blkA V c t (ix2 r d) = aggA V c (ix2 ⟨4000 * t.val + r.val, hb⟩ d) := by
  have hi := (index3 t).1
  show iblk3 (F := Ideal) V c 0 t (ix2 r d) = V c main_v96 _
  unfold iblk3
  rw [View.read_apply]
  show V c main_v96 _ = V c main_v96 _
  congr 1
  funext a
  apply Fin.ext
  match a with
  | ⟨0, _⟩ => show win3_0.index t 0 * 4000 + 1 * r.val = 4000 * t.val + r.val; rw [hi.1]; omega
  | ⟨1, _⟩ => show win3_0.index t 1 * 256 + 1 * d.val = d.val; rw [hi.2]; omega

/-- Row `r` of the second input's block at point `t` is row `4000 t + r` of its array. -/
theorem blkL_apply (c : Dev nD) (t : Fin cfg3.N) (r : Fin 4000) (d : Fin 256) (hb : 4000 * t.val + r.val < 100000) :
    blkL V c t (ix2 r d) = loopA V c (ix2 ⟨4000 * t.val + r.val, hb⟩ d) := by
  have hi := (index3 t).2
  show iblk3 (F := Ideal) V c 1 t (ix2 r d) = V c main_v91 _
  unfold iblk3
  rw [View.read_apply]
  show V c main_v91 _ = V c main_v91 _
  congr 1
  funext a
  apply Fin.ext
  match a with
  | ⟨0, _⟩ => show win3_1.index t 0 * 4000 + 1 * r.val = 4000 * t.val + r.val; rw [hi.1]; omega
  | ⟨1, _⟩ => show win3_1.index t 1 * 256 + 1 * d.val = d.val; rw [hi.2]; omega

end Run

/-! ## The accumulation over the points -/

section Acc

variable (V : (c : Dev nD) → (b : Ref sig .tc) → Buf (Elt Ideal) ((c : Thread nD τ).loc b))

/-- The sum down column `d` of the averaged output's rows in block `s` (zero past the grid). -/
def blkSum (c : Dev nD) (s : ℕ) (d : Fin 256) : EReal :=
  if h : s < cfg3.N then ∑ r : Fin 4000, (blkA V c ⟨s, h⟩ (ix2 r d) + blkL V c ⟨s, h⟩ (ix2 r d)) * c3 else 0

/-- The sum down column `d` of the squares of the averaged output's rows in block `s` (zero past the grid). -/
def blkSq (c : Dev nD) (s : ℕ) (d : Fin 256) : EReal :=
  if h : s < cfg3.N then
    ∑ r : Fin 4000, ((blkA V c ⟨s, h⟩ (ix2 r d) + blkL V c ⟨s, h⟩ (ix2 r d)) * c3)
      * ((blkA V c ⟨s, h⟩ (ix2 r d) + blkL V c ⟨s, h⟩ (ix2 r d)) * c3)
  else 0

/-- The first point leaves zero plus its block's sums. -/
theorem outs_A (c : Dev nD) (t : Fin cfg3.N) (h0 : t.val % 25 = 0) (d : Fin 256) :
    (outsAt3 (F := Ideal) V c t.val t.isLt).1 (ix2 (0 : Fin 1) d) = blkSum V c t.val d
    ∧ (outsAt3 (F := Ideal) V c t.val t.isLt).2 (ix2 (0 : Fin 1) d) = blkSq V c t.val d := by
  rw [outsAt3_A V c t h0]
  dsimp only
  constructor
  · refine (congrFun (out_A2 (F := Ideal) c (grid3.coords t) (ms3_0 t) (hs3_0 t) (ms3_1 t) (hs3_1 t) (ms3_2 t) (hs3_2 t)
      (ms3_3 t) (hs3_3 t) ((hcond3_0 t).mpr h0) (blkA V c t) (blkL V c t)) (ix2 (0 : Fin 1) d)).trans ?_
    rw [pay4_apply, pay1_apply, zero_add]
    unfold blkSum
    rw [dif_pos t.isLt]
  · refine (congrFun (out_A3 (F := Ideal) c (grid3.coords t) (ms3_0 t) (hs3_0 t) (ms3_1 t) (hs3_1 t) (ms3_2 t) (hs3_2 t)
      (ms3_3 t) (hs3_3 t) ((hcond3_0 t).mpr h0) (blkA V c t) (blkL V c t)) (ix2 (0 : Fin 1) d)).trans ?_
    rw [pay5_apply, pay2_apply, zero_add]
    unfold blkSq
    rw [dif_pos t.isLt]

/-- Every later point adds its block's sums to what the point before left. -/
theorem outs_B (c : Dev nD) (t : Fin cfg3.N) (h0 : ¬t.val % 25 = 0) (d : Fin 256) :
    (outsAt3 (F := Ideal) V c t.val t.isLt).1 (ix2 (0 : Fin 1) d)
      = (outsAt3 (F := Ideal) V c (t.val - 1) (Nat.lt_of_le_of_lt (Nat.sub_le _ _) t.isLt)).1 (ix2 (0 : Fin 1) d)
        + blkSum V c t.val d
    ∧ (outsAt3 (F := Ideal) V c t.val t.isLt).2 (ix2 (0 : Fin 1) d)
      = (outsAt3 (F := Ideal) V c (t.val - 1) (Nat.lt_of_le_of_lt (Nat.sub_le _ _) t.isLt)).2 (ix2 (0 : Fin 1) d)
        + blkSq V c t.val d := by
  rw [outsAt3_B V c t h0]
  dsimp only
  constructor
  · refine (congrFun (out_B2 (F := Ideal) c (grid3.coords t) (ms3_0 t) (hs3_0 t) (ms3_1 t) (hs3_1 t) (ms3_2 t) (hs3_2 t)
      (ms3_3 t) (hs3_3 t) (fun h => h0 ((hcond3_0 t).mp h)) (blkA V c t) (blkL V c t)
      (outsAt3 (F := Ideal) V c (t.val - 1) (Nat.lt_of_le_of_lt (Nat.sub_le _ _) t.isLt)).1
      (outsAt3 (F := Ideal) V c (t.val - 1) (Nat.lt_of_le_of_lt (Nat.sub_le _ _) t.isLt)).2) (ix2 (0 : Fin 1) d)).trans ?_
    rw [pay4_apply]
    unfold blkSum
    rw [dif_pos t.isLt]
  · refine (congrFun (out_B3 (F := Ideal) c (grid3.coords t) (ms3_0 t) (hs3_0 t) (ms3_1 t) (hs3_1 t) (ms3_2 t) (hs3_2 t)
      (ms3_3 t) (hs3_3 t) (fun h => h0 ((hcond3_0 t).mp h)) (blkA V c t) (blkL V c t)
      (outsAt3 (F := Ideal) V c (t.val - 1) (Nat.lt_of_le_of_lt (Nat.sub_le _ _) t.isLt)).1
      (outsAt3 (F := Ideal) V c (t.val - 1) (Nat.lt_of_le_of_lt (Nat.sub_le _ _) t.isLt)).2) (ix2 (0 : Fin 1) d)).trans ?_
    rw [pay5_apply]
    unfold blkSq
    rw [dif_pos t.isLt]

/-- After point `n` the two outputs hold the sums over the blocks `0 … n`. -/
theorem outs_inv (c : Dev nD) : ∀ (n : ℕ) (h : n < cfg3.N) (d : Fin 256),
    (outsAt3 (F := Ideal) V c n h).1 (ix2 (0 : Fin 1) d) = ∑ s ∈ Finset.range (n + 1), blkSum V c s d
    ∧ (outsAt3 (F := Ideal) V c n h).2 (ix2 (0 : Fin 1) d) = ∑ s ∈ Finset.range (n + 1), blkSq V c s d
  | 0, h, d => by
    rw [Finset.sum_range_one, Finset.sum_range_one]
    exact outs_A V c ⟨0, h⟩ rfl d
  | n + 1, h, d => by
    have hN : cfg3.N = 25 := N_3
    have hB : ¬(⟨n + 1, h⟩ : Fin cfg3.N).val % 25 = 0 := by dsimp only; omega
    obtain ⟨e1, e2⟩ := outs_B V c ⟨n + 1, h⟩ hB d
    obtain ⟨i1, i2⟩ := outs_inv c n (Nat.lt_of_succ_lt h) d
    rw [Finset.sum_range_succ _ (n + 1), Finset.sum_range_succ _ (n + 1), ← i1, ← i2]
    exact ⟨e1, e2⟩

end Acc

/-! ## The arrays after the region -/

section Final

variable (V : (c : Dev nD) → (b : Ref sig .tc) → Buf (Elt Ideal) ((c : Thread nD τ).loc b))

/-- The last point of the grid, the one point that writes the outputs back. -/
def t24 : Fin cfg3.N := ⟨24, by rw [show cfg3.N = 25 from N_3]; decide⟩

/-- A sum over the 100000 rows is the sum over the 25 blocks of the sums over each block's 4000 rows. -/
theorem sum_rows (g : Fin 100000 → EReal) :
    ∑ n : Fin 100000, g n
      = ∑ s : Fin 25, ∑ r : Fin 4000, g ⟨4000 * s.val + r.val, by have := s.isLt; have := r.isLt; omega⟩ := by
  rw [← Fintype.sum_prod_type']
  symm
  refine Fintype.sum_equiv (finProdFinEquiv (m := 25) (n := 4000)) _ _ fun p => ?_
  exact congrArg g (Fin.ext (by show 4000 * p.1.val + p.2.val = p.2.val + 4000 * p.1.val; omega))

/-- After the last point the outputs hold the column sums over all rows. -/
theorem outs_last (c : Dev nD) (d : Fin 256) :
    (outsAt3 (F := Ideal) V c 24 t24.isLt).1 (ix2 (0 : Fin 1) d) = colsum (oK (aggA V c) (loopA V c)) d
    ∧ (outsAt3 (F := Ideal) V c 24 t24.isLt).2 (ix2 (0 : Fin 1) d)
        = colsum (fun j => oK (aggA V c) (loopA V c) j * oK (aggA V c) (loopA V c) j) d := by
  have hN : cfg3.N = 25 := N_3
  obtain ⟨i1, i2⟩ := outs_inv V c 24 t24.isLt d
  rw [i1, i2]
  unfold colsum
  rw [sum_rows, sum_rows, show (24 + 1 : ℕ) = 25 from rfl, Finset.sum_range, Finset.sum_range]
  constructor
  · refine Finset.sum_congr rfl fun s _ => ?_
    unfold blkSum
    rw [dif_pos (show s.val < cfg3.N by have := s.isLt; omega)]
    refine Finset.sum_congr rfl fun r _ => ?_
    rw [blkA_apply V c _ r d (by have := s.isLt; have := r.isLt; show 4000 * s.val + r.val < 100000; omega),
      blkL_apply V c _ r d (by have := s.isLt; have := r.isLt; show 4000 * s.val + r.val < 100000; omega)]
    rfl
  · refine Finset.sum_congr rfl fun s _ => ?_
    unfold blkSq
    rw [dif_pos (show s.val < cfg3.N by have := s.isLt; omega)]
    refine Finset.sum_congr rfl fun r _ => ?_
    rw [blkA_apply V c _ r d (by have := s.isLt; have := r.isLt; show 4000 * s.val + r.val < 100000; omega),
      blkL_apply V c _ r d (by have := s.isLt; have := r.isLt; show 4000 * s.val + r.val < 100000; omega)]
    rfl

end Final

end Stats3

open Stats3

/-- After region 3, output 2 holds in column `d` the sum over all 100000 rows of the averaged output. -/
theorem final3_sum (V : (c : Dev nD) → (b : Ref sig .tc) → Buf (Elt Ideal) ((c : Thread nD τ).loc b)) (c : Dev nD) :
    (dat3 (F := Ideal) V c).arrAt 2 cfg3.N
      = fun i => colsum (oK (V c main_v96) (V c main_v91)) (i 1) := by
  have hN : cfg3.N = 25 := N_3
  have hlast : (outsAt3 (F := Ideal) V c 24 t24.isLt).1 = fun i => colsum (oK (V c main_v96) (V c main_v91)) (i 1) := by
    funext i
    obtain ⟨p, q, rfl⟩ : ∃ (p : Fin 1) (q : Fin 256), i = ix2 p q := ⟨i 0, i 1, eq_ix2 i⟩
    obtain rfl : p = 0 := Subsingleton.elim _ _
    exact (outs_last V c q).1
  refine (dat3 (F := Ideal) V c).arrAt_eq_of_cover 2 _ (fun t hf => ?_) (fun i => ⟨t24, (flush3_2 t24).mpr rfl, ?_⟩)
  · have h3 : t.val = 24 := by have := (flush3_2 t).mp hf; have := t.isLt; omega
    obtain rfl : t = t24 := Fin.ext h3
    show (cfg3.win 2).cut (grid3.coords t24) ((dat3 (F := Ideal) V c).after 2 t24) = _
    rw [after3_2]
    show (cfg3.win 2).cut (grid3.coords t24) (outsAt3 (F := Ideal) V c 24 t24.isLt).1 = _
    rw [hlast]
    have hz' : (fun a => win3_2.index t24 a * main_v97_0.ty.shape.size a) = fun _ => 0 := funext fun a => by fin_cases a <;> decide
    exact (Memref.read_access_unit_zero (Elt Ideal) main_v97_0 hz' (fun a => by rw [congrFun hz' a]; simp) _).symm
  · show i ∈ ((View.whole main_v97_0).slice (win3_2.rect t24)).set
    rw [View.set_slice_whole, Rect.mem_set_unit]
    intro a
    have h0 : (i 0 : Nat) < 1 := (i 0).isLt
    have h1 : (i 1 : Nat) < 256 := (i 1).isLt
    match a with
    | ⟨0, _⟩ =>
      show win3_2.index t24 0 * win3_2.size 0 ≤ (i 0 : Nat) ∧ (i 0 : Nat) < win3_2.index t24 0 * win3_2.size 0 + win3_2.xsize (grid3.coords t24) 0
      rw [show win3_2.index t24 0 * win3_2.size 0 = 0 from by decide +kernel, show win3_2.xsize (grid3.coords t24) 0 = 1 from by decide +kernel]; omega
    | ⟨1, _⟩ =>
      show win3_2.index t24 1 * win3_2.size 1 ≤ (i 1 : Nat) ∧ (i 1 : Nat) < win3_2.index t24 1 * win3_2.size 1 + win3_2.xsize (grid3.coords t24) 1
      rw [show win3_2.index t24 1 * win3_2.size 1 = 0 from by decide +kernel, show win3_2.xsize (grid3.coords t24) 1 = 256 from by decide +kernel]; omega

/-- After region 3, output 3 holds in column `d` the sum over all rows of the averaged output's square. -/
theorem final3_sq (V : (c : Dev nD) → (b : Ref sig .tc) → Buf (Elt Ideal) ((c : Thread nD τ).loc b)) (c : Dev nD) :
    (dat3 (F := Ideal) V c).arrAt 3 cfg3.N
      = fun i => colsum (fun j => oK (V c main_v96) (V c main_v91) j * oK (V c main_v96) (V c main_v91) j) (i 1) := by
  have hN : cfg3.N = 25 := N_3
  have hlast : (outsAt3 (F := Ideal) V c 24 t24.isLt).2
      = fun i => colsum (fun j => oK (V c main_v96) (V c main_v91) j * oK (V c main_v96) (V c main_v91) j) (i 1) := by
    funext i
    obtain ⟨p, q, rfl⟩ : ∃ (p : Fin 1) (q : Fin 256), i = ix2 p q := ⟨i 0, i 1, eq_ix2 i⟩
    obtain rfl : p = 0 := Subsingleton.elim _ _
    exact (outs_last V c q).2
  refine (dat3 (F := Ideal) V c).arrAt_eq_of_cover 3 _ (fun t hf => ?_) (fun i => ⟨t24, (flush3_3 t24).mpr rfl, ?_⟩)
  · have h3 : t.val = 24 := by have := (flush3_3 t).mp hf; have := t.isLt; omega
    obtain rfl : t = t24 := Fin.ext h3
    show (cfg3.win 3).cut (grid3.coords t24) ((dat3 (F := Ideal) V c).after 3 t24) = _
    rw [after3_3]
    show (cfg3.win 3).cut (grid3.coords t24) (outsAt3 (F := Ideal) V c 24 t24.isLt).2 = _
    rw [hlast]
    have hz' : (fun a => win3_3.index t24 a * main_v97_1.ty.shape.size a) = fun _ => 0 := funext fun a => by fin_cases a <;> decide
    exact (Memref.read_access_unit_zero (Elt Ideal) main_v97_1 hz' (fun a => by rw [congrFun hz' a]; simp) _).symm
  · show i ∈ ((View.whole main_v97_1).slice (win3_3.rect t24)).set
    rw [View.set_slice_whole, Rect.mem_set_unit]
    intro a
    have h0 : (i 0 : Nat) < 1 := (i 0).isLt
    have h1 : (i 1 : Nat) < 256 := (i 1).isLt
    match a with
    | ⟨0, _⟩ =>
      show win3_3.index t24 0 * win3_3.size 0 ≤ (i 0 : Nat) ∧ (i 0 : Nat) < win3_3.index t24 0 * win3_3.size 0 + win3_3.xsize (grid3.coords t24) 0
      rw [show win3_3.index t24 0 * win3_3.size 0 = 0 from by decide +kernel, show win3_3.xsize (grid3.coords t24) 0 = 1 from by decide +kernel]; omega
    | ⟨1, _⟩ =>
      show win3_3.index t24 1 * win3_3.size 1 ≤ (i 1 : Nat) ∧ (i 1 : Nat) < win3_3.index t24 1 * win3_3.size 1 + win3_3.xsize (grid3.coords t24) 1
      rw [show win3_3.index t24 1 * win3_3.size 1 = 0 from by decide +kernel, show win3_3.xsize (grid3.coords t24) 1 = 256 from by decide +kernel]; omega

end Cert.KernelIdeal.Gen

end
-- ==== Proof.KNorm.lean ====
import proofs.«407851_j24489903522003_2_alg».proof.Proof.Gen.KernelIdeal.Frame
import proofs.«407851_j24489903522003_2_alg».proof.Proof.KSpec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

/-! Region 4 (the normalisation): entry by entry, the averaged output minus the mean row, times the reciprocal square root of the variance row plus epsilon, times the weight row, plus the bias row. -/

set_option maxRecDepth 16384

noncomputable section

namespace Cert.KernelIdeal.Gen

open Idealize.ShloMosaic Idealize.ShloMosaic.TcCoe Idealize.ShloMosaic.Tactic Idealize.ShloMosaic.ValueIdx
open Idealize.SL.Sem
open Idealize.ShloMosaic.Pipeline (Dat Cfg Window)
open Cert.Hand

variable (V : (c : Dev nD) → (b : Ref sig .tc) → Buf (Elt Ideal) ((c : Thread nD τ).loc b))

/-- The zero offsets of a whole-block access, however they are spelt. -/
theorem zero_off2 : (![0, 0] : Fin 2 → Nat) = fun _ => 0 := funext fun a => by fin_cases a <;> rfl

/-- A one-row array broadcast down the rows reads, at row `p` and column `q`, the row's entry at column `q`. -/
theorem rowBroadcast_apply (x : FVec Ideal S1x256 .f32) (p : Fin 4000) (q : Fin 256) :
    broadcastTo S4000x256 x broadcasts_S1x256_S4000x256 (ix2 p q) = x (ix2 (0 : Fin 1) q) := by
  refine broadcastTo_apply x _ (ix2 p q) (ix2 (0 : Fin 1) q) fun a => ?_
  match a with
  | ⟨0, _⟩ => rfl
  | ⟨1, _⟩ => rfl

/-- The body's stored value at row `p`, column `q` of the block. -/
theorem norm_pay_apply (x0 x1 : Vec Ideal S4000x256 .f32) (x2 x3 x4 x5 : Vec Ideal S1x256 .f32) (p : Fin 4000) (q : Fin 256) :
    k4_pay1 (F := Ideal) x0 x1 x2 x3 x4 x5 (ix2 p q)
      = (((x0 (ix2 p q) + x1 (ix2 p q)) * c3 - x2 (ix2 (0 : Fin 1) q)) * Ideal.rsqrt (x3 (ix2 (0 : Fin 1) q) + cEps)) * x4 (ix2 (0 : Fin 1) q)
        + x5 (ix2 (0 : Fin 1) q) := by
  unfold k4_pay1
  simp only [shapeCast_self]
  rw [addf_apply, mulf_apply, mulf_apply, subf_apply, mulf_apply, addf_apply, broadcast_apply]
  rw [rowBroadcast_apply, rowBroadcast_apply, rowBroadcast_apply, rowBroadcast_apply]
  rfl

/-- The index maps over the 25 points: the two row-blocked inputs and the output sit at row block `t`, column block 0; the four one-row inputs at block (0, 0). -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- The block of the aggregated messages at point `t`: rows `4000 t … 4000 t + 3999` of the array. -/
theorem iblk4_0_apply (c : Dev nD) (t : Fin cfg4.N) (p : Fin 4000) (q : Fin 256) (k : S100000x256.Idx)
    (hk0 : (k 0).val = 4000 * t.val + p.val) (hk1 : (k 1).val = q.val) :
    (iblk4 (F := Ideal) V c 0 t : Vec Ideal S4000x256 .f32) (ix2 p q) = (V c main_v96 : Vec Ideal S100000x256 .f32) k := by
  obtain ⟨e0, e1, -⟩ := idx_facts4 t
  unfold iblk4
  rw [View.read_apply]
  show V c main_v96 _ = V c main_v96 _
  congr 1
  funext a
  apply Fin.ext
  match a with
  | ⟨0, _⟩ => show win4_0.index t (0 : Fin 2) * 4000 + 1 * p.val = (k 0).val; rw [e0, hk0]; omega
  | ⟨1, _⟩ => show win4_0.index t (1 : Fin 2) * 256 + 1 * q.val = (k 1).val; rw [e1, hk1]; omega

/-- The block of the self-loop term at point `t`: rows `4000 t … 4000 t + 3999` of the array. -/
theorem iblk4_1_apply (c : Dev nD) (t : Fin cfg4.N) (p : Fin 4000) (q : Fin 256) (k : S100000x256.Idx)
    (hk0 : (k 0).val = 4000 * t.val + p.val) (hk1 : (k 1).val = q.val) :
    (iblk4 (F := Ideal) V c 1 t : Vec Ideal S4000x256 .f32) (ix2 p q) = (V c main_v91 : Vec Ideal S100000x256 .f32) k := by
  obtain ⟨-, -, e2, e3, -⟩ := idx_facts4 t
  unfold iblk4
  rw [View.read_apply]
  show V c main_v91 _ = V c main_v91 _
  congr 1
  funext a
  apply Fin.ext
  match a with
  | ⟨0, _⟩ => show win4_1.index t (0 : Fin 2) * 4000 + 1 * p.val = (k 0).val; rw [e2, hk0]; omega
  | ⟨1, _⟩ => show win4_1.index t (1 : Fin 2) * 256 + 1 * q.val = (k 1).val; rw [e3, hk1]; omega

/-- The block of the mean row at every point is the row itself. -/
theorem iblk4_2_apply (c : Dev nD) (t : Fin cfg4.N) (q : Fin 256) :
    (iblk4 (F := Ideal) V c 2 t : Vec Ideal S1x256 .f32) (ix2 (0 : Fin 1) q) = (V c main_v106 : Vec Ideal S1x256 .f32) (ix2 (0 : Fin 1) q) := by
  obtain ⟨-, -, -, -, e4, e5, e6, e7, e8, e9, e10, e11, -⟩ := idx_facts4 t
  unfold iblk4
  rw [View.read_apply]
  show V c main_v106 _ = V c main_v106 _
  congr 1
  funext a
  apply Fin.ext
  match a with
  | ⟨0, _⟩ => show win4_2.index t (0 : Fin 2) * 1 + 1 * 0 = 0; omega
  | ⟨1, _⟩ => show win4_2.index t (1 : Fin 2) * 256 + 1 * q.val = q.val; omega

/-- The block of the variance row at every point is the row itself. -/
theorem iblk4_3_apply (c : Dev nD) (t : Fin cfg4.N) (q : Fin 256) :
    (iblk4 (F := Ideal) V c 3 t : Vec Ideal S1x256 .f32) (ix2 (0 : Fin 1) q) = (V c main_v107 : Vec Ideal S1x256 .f32) (ix2 (0 : Fin 1) q) := by
  obtain ⟨-, -, -, -, e4, e5, e6, e7, e8, e9, e10, e11, -⟩ := idx_facts4 t
  unfold iblk4
  rw [View.read_apply]
  show V c main_v107 _ = V c main_v107 _
  congr 1
  funext a
  apply Fin.ext
  match a with
  | ⟨0, _⟩ => show win4_3.index t (0 : Fin 2) * 1 + 1 * 0 = 0; omega
  | ⟨1, _⟩ => show win4_3.index t (1 : Fin 2) * 256 + 1 * q.val = q.val; omega

/-- The block of the weight row at every point is the row itself. -/
theorem iblk4_4_apply (c : Dev nD) (t : Fin cfg4.N) (q : Fin 256) :
    (iblk4 (F := Ideal) V c 4 t : Vec Ideal S1x256 .f32) (ix2 (0 : Fin 1) q) = (V c main_v108 : Vec Ideal S1x256 .f32) (ix2 (0 : Fin 1) q) := by
  obtain ⟨-, -, -, -, e4, e5, e6, e7, e8, e9, e10, e11, -⟩ := idx_facts4 t
  unfold iblk4
  rw [View.read_apply]
  show V c main_v108 _ = V c main_v108 _
  congr 1
  funext a
  apply Fin.ext
  match a with
  | ⟨0, _⟩ => show win4_4.index t (0 : Fin 2) * 1 + 1 * 0 = 0; omega
  | ⟨1, _⟩ => show win4_4.index t (1 : Fin 2) * 256 + 1 * q.val = q.val; omega

/-- The block of the bias row at every point is the row itself. -/
theorem iblk4_5_apply (c : Dev nD) (t : Fin cfg4.N) (q : Fin 256) :
    (iblk4 (F := Ideal) V c 5 t : Vec Ideal S1x256 .f32) (ix2 (0 : Fin 1) q) = (V c main_v109 : Vec Ideal S1x256 .f32) (ix2 (0 : Fin 1) q) := by
  obtain ⟨-, -, -, -, e4, e5, e6, e7, e8, e9, e10, e11, -⟩ := idx_facts4 t
  unfold iblk4
  rw [View.read_apply]
  show V c main_v109 _ = V c main_v109 _
  congr 1
  funext a
  apply Fin.ext
  match a with
  | ⟨0, _⟩ => show win4_5.index t (0 : Fin 2) * 1 + 1 * 0 = 0; omega
  | ⟨1, _⟩ => show win4_5.index t (1 : Fin 2) * 256 + 1 * q.val = q.val; omega

/-- What point `t` writes back is block `t` of the normalised array computed from the arrays the region found. -/
theorem flushed4_eq (c : Dev nD) (t : Fin cfg4.N) :
    (dat4 (F := Ideal) V c).flushed 6 t
      = ((cfg4.win 6).blk t).view.read (Elt Ideal)
          (normK (oK (V c main_v96) (V c main_v91)) (V c main_v106) (V c main_v107) (V c main_v108) (V c main_v109)) := by
  show (cfg4.win 6).cut (grid4.coords t) ((dat4 (F := Ideal) V c).after 6 t) = _
  rw [after4_6]
  unfold out4_6
  rw [View.canon_unit_zero zero_off2]
  simp only [View.ld_unit_zero (S := S4000x256) zero_off2, View.ld_unit_zero (S := S1x256) zero_off2]
  refine funext fun (j : S4000x256.Idx) => ?_
  obtain ⟨p, q, rfl⟩ : ∃ (p : Fin 4000) (q : Fin 256), j = ix2 p q := ⟨j 0, j 1, eq_ix2 j⟩
  have hN : cfg4.N = 25 := N_4
  have ht : t.val < 25 := hN ▸ t.isLt
  have hp : p.val < 4000 := p.isLt
  obtain ⟨-, -, -, -, -, -, -, -, -, -, -, -, e12, e13⟩ := idx_facts4 t
  have hemb : ((cfg4.win 6).blk t).view.emb (ix2 p q)
      = (ix2 (⟨4000 * t.val + p.val, by omega⟩ : Fin 100000) q : S100000x256.Idx) := by
    funext a
    apply Fin.ext
    match a with
    | ⟨0, _⟩ => show win4_6.index t (0 : Fin 2) * 4000 + 1 * p.val = 4000 * t.val + p.val; rw [e12]; omega
    | ⟨1, _⟩ => show win4_6.index t (1 : Fin 2) * 256 + 1 * q.val = q.val; rw [e13]; omega
  refine (norm_pay_apply (iblk4 (F := Ideal) V c 0 t) (iblk4 (F := Ideal) V c 1 t) (iblk4 (F := Ideal) V c 2 t) (iblk4 (F := Ideal) V c 3 t)
    (iblk4 (F := Ideal) V c 4 t) (iblk4 (F := Ideal) V c 5 t) p q).trans ?_
  rw [iblk4_0_apply V c t p q (ix2 (⟨4000 * t.val + p.val, by omega⟩ : Fin 100000) q) rfl rfl,
    iblk4_1_apply V c t p q (ix2 (⟨4000 * t.val + p.val, by omega⟩ : Fin 100000) q) rfl rfl,
    iblk4_2_apply V c t q, iblk4_3_apply V c t q, iblk4_4_apply V c t q, iblk4_5_apply V c t q,
    View.read_apply, hemb]
  rfl

/-- An index of the output array is in point `t`'s block iff each coordinate is in the block's range on its axis. -/
theorem mem_blk4 (t : Fin cfg4.N) (i : S100000x256.Idx) :
    i ∈ ((cfg4.win 6).blk t).view.set
      ↔ ∀ a : Fin 2, win4_6.index t a * S4000x256.size a ≤ (i a).val ∧ (i a).val < win4_6.index t a * S4000x256.size a + S4000x256.size a := by
  show i ∈ ((View.whole main_v110).slice (win4_6.rect t)).set ↔ _
  rw [View.set_slice_whole, Rect.mem_set_unit]
  exact Iff.rfl

/-- Row `r` of the output is written back by point `r / 4000`: the 25 blocks of 4000 rows tile the 100000 rows. -/
theorem cover4 (i : S100000x256.Idx) : ∃ t : Fin cfg4.N, (cfg4.win 6).flush t = true ∧ i ∈ ((cfg4.win 6).blk t).view.set := by
  have hN : cfg4.N = 25 := N_4
  have h0 : (i 0).val < 100000 := (i 0).isLt
  have h1 : (i 1).val < 256 := (i 1).isLt
  obtain ⟨t, ht⟩ : ∃ t : Fin cfg4.N, t.val = (i 0).val / 4000 := ⟨⟨(i 0).val / 4000, by omega⟩, rfl⟩
  obtain ⟨-, -, -, -, -, -, -, -, -, -, -, -, e12, e13⟩ := idx_facts4 t
  refine ⟨t, flush4_6 t, ?_⟩
  rw [mem_blk4]
  intro a
  match a with
  | ⟨0, _⟩ =>
    show win4_6.index t (0 : Fin 2) * 4000 ≤ (i 0).val ∧ (i 0).val < win4_6.index t (0 : Fin 2) * 4000 + 4000
    rw [e12, ht]; omega
  | ⟨1, _⟩ =>
    show win4_6.index t (1 : Fin 2) * 256 ≤ (i 1).val ∧ (i 1).val < win4_6.index t (1 : Fin 2) * 256 + 256
    rw [e13]; omega

/-- After region 4, its output array holds the normalised values computed from the arrays the region found. -/
theorem final4 (V : (c : Dev nD) → (b : Ref sig .tc) → Buf (Elt Ideal) ((c : Thread nD τ).loc b)) (c : Dev nD) :
    (dat4 (F := Ideal) V c).arrAt 6 cfg4.N
      = normK (oK (V c main_v96) (V c main_v91)) (V c main_v106) (V c main_v107) (V c main_v108) (V c main_v109) :=
  (dat4 (F := Ideal) V c).arrAt_eq_of_cover 6
    (normK (oK (V c main_v96) (V c main_v91)) (V c main_v106) (V c main_v107) (V c main_v108) (V c main_v109))
    (fun t _ => flushed4_eq V c t) cover4

end Cert.KernelIdeal.Gen

end
-- ==== Proof.KValue.lean ====
import proofs.«407851_j24489903522003_2_alg».proof.Proof.Gen.KernelIdeal.Frame
import proofs.«407851_j24489903522003_2_alg».proof.Proof.KSpec
import proofs.«407851_j24489903522003_2_alg».proof.Proof.KChainA
import proofs.«407851_j24489903522003_2_alg».proof.Proof.KStats
import proofs.«407851_j24489903522003_2_alg».proof.Proof.KNorm
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

/-! From region 3's entry to the return: the statistics, the host arithmetic on them, the normalisation and the relation table's transform. -/

set_option maxRecDepth 16384

noncomputable section

namespace Cert.KernelIdeal.Gen

open Idealize.ShloMosaic Idealize.ShloMosaic.TcCoe Idealize.ShloMosaic.Tactic Idealize.ShloMosaic.ValueIdx
open Idealize.SL.Sem
open Idealize.ShloMosaic.Pipeline (Dat Cfg Window)
open Cert.Hand

variable (m : (ℓ : Loc nD τ sig) → Buf (Elt Ideal) ℓ) (ρ : Dev nD → PrngReg) (c : Dev nD)

/-- A stretch of host operations leaves a buffer none of them writes as it was. -/
local macro "host_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- Both directions' messages summed onto their targets, as a function of the launch memory. -/
abbrev aggM : FVec Ideal S100000x256 .f32 :=
  aggK (msgK (m ((c : Thread nD τ).loc main_arg0)) (eiIn (m ((c : Thread nD τ).loc main_arg1))) (etIn (m ((c : Thread nD τ).loc main_arg2))) (relAll (m ((c : Thread nD τ).loc main_arg3)) (m ((c : Thread nD τ).loc main_arg8))) (m ((c : Thread nD τ).loc main_arg5)))
    (msgK (m ((c : Thread nD τ).loc main_arg0)) (eiOut (m ((c : Thread nD τ).loc main_arg1))) (etOut (m ((c : Thread nD τ).loc main_arg2))) (relAll (m ((c : Thread nD τ).loc main_arg3)) (m ((c : Thread nD τ).loc main_arg8))) (m ((c : Thread nD τ).loc main_arg6)))
    (rowOf (eiIn (m ((c : Thread nD τ).loc main_arg1)))) (rowOf (eiOut (m ((c : Thread nD τ).loc main_arg1))))

/-- The self-loop term, as a function of the launch memory. -/
abbrev loopM : FVec Ideal S100000x256 .f32 :=
  loopK (m ((c : Thread nD τ).loc main_arg0)) (relAll (m ((c : Thread nD τ).loc main_arg3)) (m ((c : Thread nD τ).loc main_arg8))) (m ((c : Thread nD τ).loc main_arg4))

/-! ## The last stretch of host operations does not write the normalised output -/

theorem W14_v110 : W14 (F := Ideal) m ρ c (Proc.devRef .tc main_v110) = W13 m ρ c (Proc.devRef .tc main_v110) := by
  host_keeps hostOps5

/-! ## Region 4 leaves in its output the normalisation of the arrays it found -/

theorem W13_v110 : W13 (F := Ideal) m ρ c (Proc.devRef .tc main_v110)
    = normK (oK (V12 m ρ c main_v96) (V12 m ρ c main_v91)) (V12 m ρ c main_v106) (V12 m ρ c main_v107) (V12 m ρ c main_v108) (V12 m ρ c main_v109) :=
  (W13_arr m ρ c 6).trans (final4 (V12 m ρ) c)

/-! ## The aggregated messages and the self-loop term reach region 4 as region 3 found them -/

theorem W12_v96 : W12 (F := Ideal) m ρ c (Proc.devRef .tc main_v96) = aggM m c :=
  calc W12 m ρ c (Proc.devRef .tc main_v96)
    _ = W11 m ρ c (Proc.devRef .tc main_v96) := by host_keeps hostOps4
    _ = W10 m ρ c (Proc.devRef .tc main_v96) := (W11_arr m ρ c 0).trans (((dat3 (V10 m ρ) c).arrAt_in 0 rfl _).trans (A_eq3 (V10 m ρ) c 0))
    _ = aggM m c := X_v96 m ρ c

theorem W12_v91 : W12 (F := Ideal) m ρ c (Proc.devRef .tc main_v91) = loopM m c :=
  calc W12 m ρ c (Proc.devRef .tc main_v91)
    _ = W11 m ρ c (Proc.devRef .tc main_v91) := by host_keeps hostOps4
    _ = W10 m ρ c (Proc.devRef .tc main_v91) := (W11_arr m ρ c 1).trans (((dat3 (V10 m ρ) c).arrAt_in 1 rfl _).trans (A_eq3 (V10 m ρ) c 1))
    _ = loopM m c := X_v91 m ρ c

/-! ## Region 3's two outputs: the column sums of the averaged output and of its square -/

theorem W11_sum : W11 (F := Ideal) m ρ c (Proc.devRef .tc main_v97_0) = fun i => colsum (oK (aggM m c) (loopM m c)) (i 1) :=
  (W11_arr m ρ c 2).trans ((final3_sum (V10 m ρ) c).trans (by rw [show V10 m ρ c main_v96 = aggM m c from X_v96 m ρ c, show V10 m ρ c main_v91 = loopM m c from X_v91 m ρ c]))

theorem W11_sq : W11 (F := Ideal) m ρ c (Proc.devRef .tc main_v97_1)
    = fun i => colsum (fun j => oK (aggM m c) (loopM m c) j * oK (aggM m c) (loopM m c) j) (i 1) :=
  (W11_arr m ρ c 3).trans ((final3_sq (V10 m ρ) c).trans (by rw [show V10 m ρ c main_v96 = aggM m c from X_v96 m ρ c, show V10 m ρ c main_v91 = loopM m c from X_v91 m ρ c]))

/-! ## The host arithmetic between regions 3 and 4, read at an index -/

/-- The host's quotient of two arrays is the quotient of their entries. -/
theorem hostQuot_at {s : Shape} (a b : FVec Ideal s .f32) (i : s.Idx) : Host.divf a b i = Ideal.div (a i) (b i) := rfl

/-- A constant laid out over the 256 columns is that constant in every column. -/
theorem splat256_at (w : BitVec 32) (j : S256.Idx) :
    broadcastInDim S256 ![] bcast_S_S256 (constant (F := Ideal) S_ .f32 w) j = Ideal.ofBits .f32 w :=
  rfl

/-- The mean row that region 4 finds: the column sum divided by the row count. -/
theorem W12_v106_apply (d : Fin 256) :
    (W12 (F := Ideal) m ρ c (Proc.devRef .tc main_v106) : S1x256.Idx → EReal) (ix2 (0 : Fin 1) d)
      = Ideal.div ((W11 m ρ c (Proc.devRef .tc main_v97_0) : S1x256.Idx → EReal) (ix2 (0 : Fin 1) d)) cN := by
  dsimp only [W12, hostOps4]
  after_results
  show shapeCast S1x256 (Host.divf (F := Ideal) (shapeCast S256 (W11 m ρ c (Proc.devRef .tc main_v97_0)) shapeCasts_S1x256_S256)
      (broadcastInDim S256 ![] bcast_S_S256 (constant (F := Ideal) S_ .f32 0x47C35000#32))) shapeCasts_S256_S1x256 (ix2 (0 : Fin 1) d) = _
  rw [shapeCast_a_1a_apply, hostQuot_at, shapeCast_1a_a_apply, splat256_at]
  rfl

/-- The variance row that region 4 finds: the column sum of squares divided by the row count, minus the squared mean. -/
theorem W12_v107_apply (d : Fin 256) :
    (W12 (F := Ideal) m ρ c (Proc.devRef .tc main_v107) : S1x256.Idx → EReal) (ix2 (0 : Fin 1) d)
      = Ideal.div ((W11 m ρ c (Proc.devRef .tc main_v97_1) : S1x256.Idx → EReal) (ix2 (0 : Fin 1) d)) cN
        - Ideal.div ((W11 m ρ c (Proc.devRef .tc main_v97_0) : S1x256.Idx → EReal) (ix2 (0 : Fin 1) d)) cN
          * Ideal.div ((W11 m ρ c (Proc.devRef .tc main_v97_0) : S1x256.Idx → EReal) (ix2 (0 : Fin 1) d)) cN := by
  dsimp only [W12, hostOps4]
  after_results
  show shapeCast S1x256 (subf (F := Ideal)
      (Host.divf (shapeCast S256 (W11 m ρ c (Proc.devRef .tc main_v97_1)) shapeCasts_S1x256_S256)
        (broadcastInDim S256 ![] bcast_S_S256 (constant (F := Ideal) S_ .f32 0x47C35000#32)))
      (mulf
        (Host.divf (shapeCast S256 (W11 m ρ c (Proc.devRef .tc main_v97_0)) shapeCasts_S1x256_S256)
          (broadcastInDim S256 ![] bcast_S_S256 (constant (F := Ideal) S_ .f32 0x47C35000#32)))
        (Host.divf (shapeCast S256 (W11 m ρ c (Proc.devRef .tc main_v97_0)) shapeCasts_S1x256_S256)
          (broadcastInDim S256 ![] bcast_S_S256 (constant (F := Ideal) S_ .f32 0x47C35000#32)))))
      shapeCasts_S256_S1x256 (ix2 (0 : Fin 1) d) = _
  rw [shapeCast_a_1a_apply, subf_apply, mulf_apply, hostQuot_at, hostQuot_at, shapeCast_1a_a_apply, shapeCast_1a_a_apply, splat256_at]
  rfl

/-- The weight and bias rows that region 4 finds are the weight and bias vectors as one-row arrays. -/
theorem W12_v108_apply (d : Fin 256) :
    (W12 (F := Ideal) m ρ c (Proc.devRef .tc main_v108) : S1x256.Idx → EReal) (ix2 (0 : Fin 1) d)
      = (m ((c : Thread nD τ).loc main_arg9) : S256.Idx → EReal) (ix1 d) := by
  have h9 : W11 (F := Ideal) m ρ c (Proc.devRef .tc main_arg9) = m ((c : Thread nD τ).loc main_arg9) :=
    (W11_of_ne m ρ c main_arg9 (by decide)).trans (X_arg9 m ρ c)
  dsimp only [W12, hostOps4]
  after_results
  show shapeCast S1x256 (W11 (F := Ideal) m ρ c (Proc.devRef .tc main_arg9)) shapeCasts_S256_S1x256 (ix2 (0 : Fin 1) d) = _
  rw [shapeCast_a_1a_apply, h9]

theorem W12_v109_apply (d : Fin 256) :
    (W12 (F := Ideal) m ρ c (Proc.devRef .tc main_v109) : S1x256.Idx → EReal) (ix2 (0 : Fin 1) d)
      = (m ((c : Thread nD τ).loc main_arg10) : S256.Idx → EReal) (ix1 d) := by
  have h10 : W11 (F := Ideal) m ρ c (Proc.devRef .tc main_arg10) = m ((c : Thread nD τ).loc main_arg10) :=
    (W11_of_ne m ρ c main_arg10 (by decide)).trans (X_arg10 m ρ c)
  dsimp only [W12, hostOps4]
  after_results
  show shapeCast S1x256 (W11 (F := Ideal) m ρ c (Proc.devRef .tc main_arg10)) shapeCasts_S256_S1x256 (ix2 (0 : Fin 1) d) = _
  rw [shapeCast_a_1a_apply, h10]

/-- The mean row at a column is the column mean of the averaged output. -/
theorem mean_row (d : Fin 256) :
    (V12 (F := Ideal) m ρ c main_v106 : S1x256.Idx → EReal) (ix2 (0 : Fin 1) d) = meanK (oK (aggM m c) (loopM m c)) d :=
  (W12_v106_apply m ρ c d).trans (by rw [W11_sum]; rfl)

/-- The variance row at a column is the column variance of the averaged output. -/
theorem var_row (d : Fin 256) :
    (V12 (F := Ideal) m ρ c main_v107 : S1x256.Idx → EReal) (ix2 (0 : Fin 1) d) = varK (oK (aggM m c) (loopM m c)) d :=
  (W12_v107_apply m ρ c d).trans (by rw [W11_sum, W11_sq]; rfl)

/-! ## The normalisation from one-row statistics is batch normalisation with the batch's own statistics -/

/-- When the four one-row arrays hold the column means, the column variances, the weights and the biases, the entrywise
    normalisation is batch normalisation. -/
theorem normK_eq_bnK (o : FVec Ideal S100000x256 .f32) (mean var w b : FVec Ideal S1x256 .f32) (bw bb : FVec Ideal S256 .f32)
    (hm : ∀ d : Fin 256, mean (ix2 (0 : Fin 1) d) = meanK o d) (hv : ∀ d : Fin 256, var (ix2 (0 : Fin 1) d) = varK o d)
    (hw : ∀ d : Fin 256, w (ix2 (0 : Fin 1) d) = bw (ix1 d)) (hb : ∀ d : Fin 256, b (ix2 (0 : Fin 1) d) = bb (ix1 d)) :
    normK o mean var w b = bnK o bw bb := by
  funext i
  obtain ⟨p, q, rfl⟩ : ∃ (p : Fin 100000) (q : Fin 256), i = ix2 p q := ⟨i 0, i 1, eq_ix2 i⟩
  show ((o (ix2 p q) - mean (ix2 (0 : Fin 1) q)) * Ideal.rsqrt (var (ix2 (0 : Fin 1) q) + cEps)) * w (ix2 (0 : Fin 1) q) + b (ix2 (0 : Fin 1) q)
    = ((o (ix2 p q) - meanK o q) * Ideal.rsqrt (varK o q + cEps)) * bw (ix1 q) + bb (ix1 q)
  rw [hm, hv, hw, hb]

/-! ## The relation table and its transform's weight reach the last stretch of host operations as launched -/

theorem W13_v0 : W13 (F := Ideal) m ρ c (Proc.devRef .tc main_v0) = relAll (m ((c : Thread nD τ).loc main_arg3)) (m ((c : Thread nD τ).loc main_arg8)) :=
  calc W13 m ρ c (Proc.devRef .tc main_v0)
    _ = W12 m ρ c (Proc.devRef .tc main_v0) := W13_of_ne m ρ c main_v0 (by decide)
    _ = W11 m ρ c (Proc.devRef .tc main_v0) := by host_keeps hostOps4
    _ = W10 m ρ c (Proc.devRef .tc main_v0) := W11_of_ne m ρ c main_v0 (by decide)
    _ = _ := X_v0 m ρ c

theorem W13_arg7 : W13 (F := Ideal) m ρ c (Proc.devRef .tc main_arg7) = m ((c : Thread nD τ).loc main_arg7) :=
  calc W13 m ρ c (Proc.devRef .tc main_arg7)
    _ = W12 m ρ c (Proc.devRef .tc main_arg7) := W13_of_ne m ρ c main_arg7 (by decide)
    _ = W11 m ρ c (Proc.devRef .tc main_arg7) := by host_keeps hostOps4
    _ = W10 m ρ c (Proc.devRef .tc main_arg7) := W11_of_ne m ρ c main_arg7 (by decide)
    _ = _ := X_arg7 m ρ c

/-- The product with the transform's weight, without its last row, is the same array whichever of the two programs'
    names for the shapes and the contraction it is written with. -/
theorem transform_eq (a : FVec Ideal S51x256 .f32) (w : FVec Ideal S256x256 .f32) :
    extractStridedSlice S50x256 ![0, 0] (Host.dotGeneral (F := Ideal) dot_S51x256_S256x256_S51x256_1_0_0_1_n_n none a w) slices_S51x256_S50x256_0_0
      = extractStridedSlice Cert.ReferenceIdeal.S50x256 ![0, 0]
          (Host.dotGeneral (F := Ideal) Cert.ReferenceIdeal.dot_S51x256_S256x256_S51x256_1_0_0_1_n_n none a w) Cert.ReferenceIdeal.Facts₀.slices_S51x256_S50x256_0_0 :=
  rfl

/-- The kernel program's first result, read off the last boundary's contents. -/
theorem kval0 : W14 (F := Ideal) m ρ c (Proc.devRef .tc main_v110)
    = kout0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) := by
  rw [W14_v110, W13_v110, show V12 m ρ c main_v96 = aggM m c from W12_v96 m ρ c, show V12 m ρ c main_v91 = loopM m c from W12_v91 m ρ c]
  exact normK_eq_bnK _ _ _ _ _ _ _ (mean_row m ρ c) (var_row m ρ c) (W12_v108_apply m ρ c) (W12_v109_apply m ρ c)
/-- The kernel program's second result. -/
theorem kval1 : W14 (F := Ideal) m ρ c (Proc.devRef .tc main_v112) = out1 (m ((c : Thread nD τ).loc main_arg3)) (m ((c : Thread nD τ).loc main_arg8)) (m ((c : Thread nD τ).loc main_arg7)) := by
  dsimp only [W14, hostOps5]
  after_results
  rw [W13_v0, W13_arg7]
  exact transform_eq _ _

end Cert.KernelIdeal.Gen

end
-- ==== Proof.RefRun.lean ====
import proofs.«407851_j24489903522003_2_alg».proof.ReferenceIdeal
import proofs.«407851_j24489903522003_2_alg».proof.Proof.Gen.ReferenceIdeal
import proofs.«407851_j24489903522003_2_alg».proof.Proof.Spec
import Idealize.ShloMosaic.Lib.StableHlo.Run
import Idealize.ShloMosaic.Adequacy

/-! The reference's run: @main is a straight line of host operations, so every weakly fair execution terminates with
    each buffer at the fold of the operations' results; the two results are the stage-by-stage terms of the
    specification, and no operation writes an argument. -/

noncomputable section

namespace Cert.ReferenceIdeal.Hand

open Idealize.ShloMosaic Idealize.ShloMosaic.StableHlo Idealize.SL.Sem
open Cert.ReferenceIdeal Cert.ReferenceIdeal.Facts₀

section Line

variable {F : FTy → Type} [FloatOps F]

/-- The first window's operations, in order: the relation table with the self-loop row appended, the two halves of the edge list and of the edge types, then for each half its target and source rows, the degree count, the guarded inverse square root of the degree (the guard's three operations are the outlined selection's: the fill value converted, laid out, selected) and, for the first half, the product of the two gathered factors. -/
abbrev ops0 : List (HloOp τ sig (Elt F)) :=
  [ StableHlo.binary main_arg3 main_arg8 main_v0 ((fun a b => concatenate S51x256 0 [⟨S50x256, a⟩, ⟨S1x256, b⟩] concatenates_S50x256_S1x256_S51x256_d0) : (⟨S50x256, .f32⟩ : BufTy).Contents (Elt F) → (⟨S1x256, .f32⟩ : BufTy).Contents (Elt F) → (⟨S51x256, .f32⟩ : BufTy).Contents (Elt F)),
    StableHlo.unary main_arg1 main_v1 ((extractStridedSlice S2x320000 ![0, 0] · slices_S2x640000_S2x320000_0_0) : (⟨S2x640000, .i32⟩ : BufTy).Contents (Elt F) → (⟨S2x320000, .i32⟩ : BufTy).Contents (Elt F)),
    StableHlo.unary main_arg1 main_v2 ((extractStridedSlice S2x320000 ![0, 320000] · slices_S2x640000_S2x320000_0_320000) : (⟨S2x640000, .i32⟩ : BufTy).Contents (Elt F) → (⟨S2x320000, .i32⟩ : BufTy).Contents (Elt F)),
    StableHlo.unary main_arg2 main_v3 ((extractStridedSlice S320000 ![0] · slices_S640000_S320000_0) : (⟨S640000, .i32⟩ : BufTy).Contents (Elt F) → (⟨S320000, .i32⟩ : BufTy).Contents (Elt F)),
    StableHlo.unary main_arg2 main_v4 ((extractStridedSlice S320000 ![320000] · slices_S640000_S320000_320000) : (⟨S640000, .i32⟩ : BufTy).Contents (Elt F) → (⟨S320000, .i32⟩ : BufTy).Contents (Elt F)),
    StableHlo.unary main_v1 main_v5 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v5 main_v6 rfl shapeCasts_S1x320000_S320000,
    StableHlo.unary main_v1 main_v7 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v7 main_v8 rfl shapeCasts_S1x320000_S320000,
    StableHlo.nullary main_cst (constant S_ .f32 0x3F800000#32),
    StableHlo.unary main_cst main_v9 (broadcastInDim S320000 ![] bcast_S_S320000 : (⟨S_, .f32⟩ : BufTy).Contents (Elt F) → (⟨S320000, .f32⟩ : BufTy).Contents (Elt F)),
    StableHlo.nullary main_cst_0 (constant S_ .f32 0x00000000#32),
    StableHlo.unary main_cst_0 main_v10 (broadcastInDim S100000 ![] bcast_S_S100000 : (⟨S_, .f32⟩ : BufTy).Contents (Elt F) → (⟨S100000, .f32⟩ : BufTy).Contents (Elt F)),
    StableHlo.unary main_v6 main_v11 (broadcastInDim S320000x1 ![0] bcast_S320000_S320000x1_0 : (⟨S320000, .i32⟩ : BufTy).Contents (Elt F) → (⟨S320000x1, .i32⟩ : BufTy).Contents (Elt F)),
    StableHlo.ternary main_v10 main_v11 main_v9 main_v12 ((fun x i u => Host.scatterAdd scatter_S100000_S320000x1_S320000_n_0_0_1 x i u) : (⟨S100000, .f32⟩ : BufTy).Contents (Elt F) → (⟨S320000x1, .i32⟩ : BufTy).Contents (Elt F) → (⟨S320000, .f32⟩ : BufTy).Contents (Elt F) → (⟨S100000, .f32⟩ : BufTy).Contents (Elt F)),
    StableHlo.nullary main_cst_1 (constant S_ .f32 0x00000000#32),
    StableHlo.unary main_cst_1 main_v13 (broadcastInDim S100000 ![] bcast_S_S100000 : (⟨S_, .f32⟩ : BufTy).Contents (Elt F) → (⟨S100000, .f32⟩ : BufTy).Contents (Elt F)),
    StableHlo.binary main_v12 main_v13 main_v14 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0xBF000000#32),
    StableHlo.unary main_cst_2 main_v15 (broadcastInDim S100000 ![] bcast_S_S100000 : (⟨S_, .f32⟩ : BufTy).Contents (Elt F) → (⟨S100000, .f32⟩ : BufTy).Contents (Elt F)),
    StableHlo.binary main_v12 main_v15 main_v16 (Host.powf : (⟨S100000, .f32⟩ : BufTy).Contents (Elt F) → (⟨S100000, .f32⟩ : BufTy).Contents (Elt F) → (⟨S100000, .f32⟩ : BufTy).Contents (Elt F)),
    StableHlo.nullary main_cst_3 (constant S_ .f32 0x00000000#32),
    StableHlo.TRef.unary (.of main_cst_3 : StableHlo.TRef sig ⟨S_, .f32⟩) main_call0.v0 id,
    StableHlo.TRef.unary main_call0.v0 main_call0.v1 (broadcastInDim S100000 ![] bcast_S_S100000),
    StableHlo.TRef.ternary (.of main_v14 : StableHlo.TRef sig ⟨S100000, .i1⟩) (.of main_v16 : StableHlo.TRef sig ⟨S100000, .f32⟩) main_call0.v1 main_call0.v2 select,
    StableHlo.nullary main_c (constantI S_ 32 0#32),
    StableHlo.unary main_c main_v18 (broadcastInDim S320000 ![] bcast_S_S320000 : (⟨S_, .i32⟩ : BufTy).Contents (Elt F) → (⟨S320000, .i32⟩ : BufTy).Contents (Elt F)),
    StableHlo.binary main_v6 main_v18 main_v19 (cmpi .slt : (⟨S320000, .i32⟩ : BufTy).Contents (Elt F) → (⟨S320000, .i32⟩ : BufTy).Contents (Elt F) → (⟨S320000, .i1⟩ : BufTy).Contents (Elt F)),
    StableHlo.nullary main_c_4 (constantI S_ 32 100000#32),
    StableHlo.unary main_c_4 main_v20 (broadcastInDim S320000 ![] bcast_S_S320000 : (⟨S_, .i32⟩ : BufTy).Contents (Elt F) → (⟨S320000, .i32⟩ : BufTy).Contents (Elt F)),
    StableHlo.binary main_v6 main_v20 main_v21 (addi : (⟨S320000, .i32⟩ : BufTy).Contents (Elt F) → (⟨S320000, .i32⟩ : BufTy).Contents (Elt F) → (⟨S320000, .i32⟩ : BufTy).Contents (Elt F)),
    StableHlo.ternary main_v19 main_v21 main_v6 main_v22 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v22 main_v23 (broadcastInDim S320000x1 ![0] bcast_S320000_S320000x1_0 : (⟨S320000, .i32⟩ : BufTy).Contents (Elt F) → (⟨S320000x1, .i32⟩ : BufTy).Contents (Elt F)),
    StableHlo.binary main_v17 main_v23 main_v24 ((fun x i => Host.gather gather_S100000_S320000x1_S320000_n_0_n_n_0_1_1 x i) : (⟨S100000, .f32⟩ : BufTy).Contents (Elt F) → (⟨S320000x1, .i32⟩ : BufTy).Contents (Elt F) → (⟨S320000, .f32⟩ : BufTy).Contents (Elt F)),
    StableHlo.nullary main_c_5 (constantI S_ 32 0#32),
    StableHlo.unary main_c_5 main_v25 (broadcastInDim S320000 ![] bcast_S_S320000 : (⟨S_, .i32⟩ : BufTy).Contents (Elt F) → (⟨S320000, .i32⟩ : BufTy).Contents (Elt F)),
    StableHlo.binary main_v8 main_v25 main_v26 (cmpi .slt : (⟨S320000, .i32⟩ : BufTy).Contents (Elt F) → (⟨S320000, .i32⟩ : BufTy).Contents (Elt F) → (⟨S320000, .i1⟩ : BufTy).Contents (Elt F)),
    StableHlo.nullary main_c_6 (constantI S_ 32 100000#32),
    StableHlo.unary main_c_6 main_v27 (broadcastInDim S320000 ![] bcast_S_S320000 : (⟨S_, .i32⟩ : BufTy).Contents (Elt F) → (⟨S320000, .i32⟩ : BufTy).Contents (Elt F)),
    StableHlo.binary main_v8 main_v27 main_v28 (addi : (⟨S320000, .i32⟩ : BufTy).Contents (Elt F) → (⟨S320000, .i32⟩ : BufTy).Contents (Elt F) → (⟨S320000, .i32⟩ : BufTy).Contents (Elt F)),
    StableHlo.ternary main_v26 main_v28 main_v8 main_v29 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v29 main_v30 (broadcastInDim S320000x1 ![0] bcast_S320000_S320000x1_0 : (⟨S320000, .i32⟩ : BufTy).Contents (Elt F) → (⟨S320000x1, .i32⟩ : BufTy).Contents (Elt F)),
    StableHlo.binary main_v17 main_v30 main_v31 ((fun x i => Host.gather gather_S100000_S320000x1_S320000_n_0_n_n_0_1_1 x i) : (⟨S100000, .f32⟩ : BufTy).Contents (Elt F) → (⟨S320000x1, .i32⟩ : BufTy).Contents (Elt F) → (⟨S320000, .f32⟩ : BufTy).Contents (Elt F)),
    StableHlo.binary main_v24 main_v31 main_v32 (mulf : (⟨S320000, .f32⟩ : BufTy).Contents (Elt F) → (⟨S320000, .f32⟩ : BufTy).Contents (Elt F) → (⟨S320000, .f32⟩ : BufTy).Contents (Elt F)),
    StableHlo.unary main_v2 main_v33 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v33 main_v34 rfl shapeCasts_S1x320000_S320000,
    StableHlo.unary main_v2 main_v35 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v35 main_v36 rfl shapeCasts_S1x320000_S320000,
    StableHlo.nullary main_cst_7 (constant S_ .f32 0x3F800000#32),
    StableHlo.unary main_cst_7 main_v37 (broadcastInDim S320000 ![] bcast_S_S320000 : (⟨S_, .f32⟩ : BufTy).Contents (Elt F) → (⟨S320000, .f32⟩ : BufTy).Contents (Elt F)),
    StableHlo.nullary main_cst_8 (constant S_ .f32 0x00000000#32),
    StableHlo.unary main_cst_8 main_v38 (broadcastInDim S100000 ![] bcast_S_S100000 : (⟨S_, .f32⟩ : BufTy).Contents (Elt F) → (⟨S100000, .f32⟩ : BufTy).Contents (Elt F)),
    StableHlo.unary main_v34 main_v39 (broadcastInDim S320000x1 ![0] bcast_S320000_S320000x1_0 : (⟨S320000, .i32⟩ : BufTy).Contents (Elt F) → (⟨S320000x1, .i32⟩ : BufTy).Contents (Elt F)),
    StableHlo.ternary main_v38 main_v39 main_v37 main_v40 ((fun x i u => Host.scatterAdd scatter_S100000_S320000x1_S320000_n_0_0_1 x i u) : (⟨S100000, .f32⟩ : BufTy).Contents (Elt F) → (⟨S320000x1, .i32⟩ : BufTy).Contents (Elt F) → (⟨S320000, .f32⟩ : BufTy).Contents (Elt F) → (⟨S100000, .f32⟩ : BufTy).Contents (Elt F)),
    StableHlo.nullary main_cst_9 (constant S_ .f32 0x00000000#32),
    StableHlo.unary main_cst_9 main_v41 (broadcastInDim S100000 ![] bcast_S_S100000 : (⟨S_, .f32⟩ : BufTy).Contents (Elt F) → (⟨S100000, .f32⟩ : BufTy).Contents (Elt F)),
    StableHlo.binary main_v40 main_v41 main_v42 (cmpf .ogt : (⟨S100000, .f32⟩ : BufTy).Contents (Elt F) → (⟨S100000, .f32⟩ : BufTy).Contents (Elt F) → (⟨S100000, .i1⟩ : BufTy).Contents (Elt F)),
    StableHlo.nullary main_cst_10 (constant S_ .f32 0xBF000000#32),
    StableHlo.unary main_cst_10 main_v43 (broadcastInDim S100000 ![] bcast_S_S100000 : (⟨S_, .f32⟩ : BufTy).Contents (Elt F) → (⟨S100000, .f32⟩ : BufTy).Contents (Elt F)),
    StableHlo.binary main_v40 main_v43 main_v44 (Host.powf : (⟨S100000, .f32⟩ : BufTy).Contents (Elt F) → (⟨S100000, .f32⟩ : BufTy).Contents (Elt F) → (⟨S100000, .f32⟩ : BufTy).Contents (Elt F)),
    StableHlo.nullary main_cst_11 (constant S_ .f32 0x00000000#32),
    StableHlo.TRef.unary (.of main_cst_11 : StableHlo.TRef sig ⟨S_, .f32⟩) main_call1.v0 id,
    StableHlo.TRef.unary main_call1.v0 main_call1.v1 (broadcastInDim S100000 ![] bcast_S_S100000),
    StableHlo.TRef.ternary (.of main_v42 : StableHlo.TRef sig ⟨S100000, .i1⟩) (.of main_v44 : StableHlo.TRef sig ⟨S100000, .f32⟩) main_call1.v1 main_call1.v2 select ]

/-- The second window's operations, in order: the second half's product of gathered factors, the first half's gathered source rows and relation rows, their product through the incoming weight, the scaling by the edge factor and the sum onto the target nodes; the second half's source index column. -/
abbrev ops1 : List (HloOp τ sig (Elt F)) :=
  [ StableHlo.nullary main_c_12 (constantI S_ 32 0#32),
    StableHlo.unary main_c_12 main_v46 (broadcastInDim S320000 ![] bcast_S_S320000 : (⟨S_, .i32⟩ : BufTy).Contents (Elt F) → (⟨S320000, .i32⟩ : BufTy).Contents (Elt F)),
    StableHlo.binary main_v34 main_v46 main_v47 (cmpi .slt : (⟨S320000, .i32⟩ : BufTy).Contents (Elt F) → (⟨S320000, .i32⟩ : BufTy).Contents (Elt F) → (⟨S320000, .i1⟩ : BufTy).Contents (Elt F)),
    StableHlo.nullary main_c_13 (constantI S_ 32 100000#32),
    StableHlo.unary main_c_13 main_v48 (broadcastInDim S320000 ![] bcast_S_S320000 : (⟨S_, .i32⟩ : BufTy).Contents (Elt F) → (⟨S320000, .i32⟩ : BufTy).Contents (Elt F)),
    StableHlo.binary main_v34 main_v48 main_v49 (addi : (⟨S320000, .i32⟩ : BufTy).Contents (Elt F) → (⟨S320000, .i32⟩ : BufTy).Contents (Elt F) → (⟨S320000, .i32⟩ : BufTy).Contents (Elt F)),
    StableHlo.ternary main_v47 main_v49 main_v34 main_v50 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v50 main_v51 (broadcastInDim S320000x1 ![0] bcast_S320000_S320000x1_0 : (⟨S320000, .i32⟩ : BufTy).Contents (Elt F) → (⟨S320000x1, .i32⟩ : BufTy).Contents (Elt F)),
    StableHlo.binary main_v45 main_v51 main_v52 ((fun x i => Host.gather gather_S100000_S320000x1_S320000_n_0_n_n_0_1_1 x i) : (⟨S100000, .f32⟩ : BufTy).Contents (Elt F) → (⟨S320000x1, .i32⟩ : BufTy).Contents (Elt F) → (⟨S320000, .f32⟩ : BufTy).Contents (Elt F)),
    StableHlo.nullary main_c_14 (constantI S_ 32 0#32),
    StableHlo.unary main_c_14 main_v53 (broadcastInDim S320000 ![] bcast_S_S320000 : (⟨S_, .i32⟩ : BufTy).Contents (Elt F) → (⟨S320000, .i32⟩ : BufTy).Contents (Elt F)),
    StableHlo.binary main_v36 main_v53 main_v54 (cmpi .slt : (⟨S320000, .i32⟩ : BufTy).Contents (Elt F) → (⟨S320000, .i32⟩ : BufTy).Contents (Elt F) → (⟨S320000, .i1⟩ : BufTy).Contents (Elt F)),
    StableHlo.nullary main_c_15 (constantI S_ 32 100000#32),
    StableHlo.unary main_c_15 main_v55 (broadcastInDim S320000 ![] bcast_S_S320000 : (⟨S_, .i32⟩ : BufTy).Contents (Elt F) → (⟨S320000, .i32⟩ : BufTy).Contents (Elt F)),
    StableHlo.binary main_v36 main_v55 main_v56 (addi : (⟨S320000, .i32⟩ : BufTy).Contents (Elt F) → (⟨S320000, .i32⟩ : BufTy).Contents (Elt F) → (⟨S320000, .i32⟩ : BufTy).Contents (Elt F)),
    StableHlo.ternary main_v54 main_v56 main_v36 main_v57 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v57 main_v58 (broadcastInDim S320000x1 ![0] bcast_S320000_S320000x1_0 : (⟨S320000, .i32⟩ : BufTy).Contents (Elt F) → (⟨S320000x1, .i32⟩ : BufTy).Contents (Elt F)),
    StableHlo.binary main_v45 main_v58 main_v59 ((fun x i => Host.gather gather_S100000_S320000x1_S320000_n_0_n_n_0_1_1 x i) : (⟨S100000, .f32⟩ : BufTy).Contents (Elt F) → (⟨S320000x1, .i32⟩ : BufTy).Contents (Elt F) → (⟨S320000, .f32⟩ : BufTy).Contents (Elt F)),
    StableHlo.binary main_v52 main_v59 main_v60 (mulf : (⟨S320000, .f32⟩ : BufTy).Contents (Elt F) → (⟨S320000, .f32⟩ : BufTy).Contents (Elt F) → (⟨S320000, .f32⟩ : BufTy).Contents (Elt F)),
    StableHlo.unary main_v1 main_v61 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v61 main_v62 rfl shapeCasts_S1x320000_S320000,
    StableHlo.nullary main_c_16 (constantI S_ 32 0#32),
    StableHlo.unary main_c_16 main_v63 (broadcastInDim S320000 ![] bcast_S_S320000 : (⟨S_, .i32⟩ : BufTy).Contents (Elt F) → (⟨S320000, .i32⟩ : BufTy).Contents (Elt F)),
    StableHlo.binary main_v62 main_v63 main_v64 (cmpi .slt : (⟨S320000, .i32⟩ : BufTy).Contents (Elt F) → (⟨S320000, .i32⟩ : BufTy).Contents (Elt F) → (⟨S320000, .i1⟩ : BufTy).Contents (Elt F)),
    StableHlo.nullary main_c_17 (constantI S_ 32 100000#32),
    StableHlo.unary main_c_17 main_v65 (broadcastInDim S320000 ![] bcast_S_S320000 : (⟨S_, .i32⟩ : BufTy).Contents (Elt F) → (⟨S320000, .i32⟩ : BufTy).Contents (Elt F)),
    StableHlo.binary main_v62 main_v65 main_v66 (addi : (⟨S320000, .i32⟩ : BufTy).Contents (Elt F) → (⟨S320000, .i32⟩ : BufTy).Contents (Elt F) → (⟨S320000, .i32⟩ : BufTy).Contents (Elt F)),
    StableHlo.ternary main_v64 main_v66 main_v62 main_v67 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v67 main_v68 (broadcastInDim S320000x1 ![0] bcast_S320000_S320000x1_0 : (⟨S320000, .i32⟩ : BufTy).Contents (Elt F) → (⟨S320000x1, .i32⟩ : BufTy).Contents (Elt F)),
    StableHlo.binary main_arg0 main_v68 main_v69 ((fun x i => Host.gather gather_S100000x256_S320000x1_S320000x256_1_0_n_n_0_1_1256 x i) : (⟨S100000x256, .f32⟩ : BufTy).Contents (Elt F) → (⟨S320000x1, .i32⟩ : BufTy).Contents (Elt F) → (⟨S320000x256, .f32⟩ : BufTy).Contents (Elt F)),
    StableHlo.nullary main_c_18 (constantI S_ 32 0#32),
    StableHlo.unary main_c_18 main_v70 (broadcastInDim S320000 ![] bcast_S_S320000 : (⟨S_, .i32⟩ : BufTy).Contents (Elt F) → (⟨S320000, .i32⟩ : BufTy).Contents (Elt F)),
    StableHlo.binary main_v3 main_v70 main_v71 (cmpi .slt : (⟨S320000, .i32⟩ : BufTy).Contents (Elt F) → (⟨S320000, .i32⟩ : BufTy).Contents (Elt F) → (⟨S320000, .i1⟩ : BufTy).Contents (Elt F)),
    StableHlo.nullary main_c_19 (constantI S_ 32 51#32),
    StableHlo.unary main_c_19 main_v72 (broadcastInDim S320000 ![] bcast_S_S320000 : (⟨S_, .i32⟩ : BufTy).Contents (Elt F) → (⟨S320000, .i32⟩ : BufTy).Contents (Elt F)),
    StableHlo.binary main_v3 main_v72 main_v73 (addi : (⟨S320000, .i32⟩ : BufTy).Contents (Elt F) → (⟨S320000, .i32⟩ : BufTy).Contents (Elt F) → (⟨S320000, .i32⟩ : BufTy).Contents (Elt F)),
    StableHlo.ternary main_v71 main_v73 main_v3 main_v74 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v74 main_v75 (broadcastInDim S320000x1 ![0] bcast_S320000_S320000x1_0 : (⟨S320000, .i32⟩ : BufTy).Contents (Elt F) → (⟨S320000x1, .i32⟩ : BufTy).Contents (Elt F)),
    StableHlo.binary main_v0 main_v75 main_v76 ((fun x i => Host.gather gather_S51x256_S320000x1_S320000x256_1_0_n_n_0_1_1256 x i) : (⟨S51x256, .f32⟩ : BufTy).Contents (Elt F) → (⟨S320000x1, .i32⟩ : BufTy).Contents (Elt F) → (⟨S320000x256, .f32⟩ : BufTy).Contents (Elt F)),
    StableHlo.binary main_v69 main_v76 main_v77 (mulf : (⟨S320000x256, .f32⟩ : BufTy).Contents (Elt F) → (⟨S320000x256, .f32⟩ : BufTy).Contents (Elt F) → (⟨S320000x256, .f32⟩ : BufTy).Contents (Elt F)),
    StableHlo.binary main_v77 main_arg5 main_v78 ((fun l r => Host.dotGeneral dot_S320000x256_S256x256_S320000x256_1_0_0_1_n_n none l r) : (⟨S320000x256, .f32⟩ : BufTy).Contents (Elt F) → (⟨S256x256, .f32⟩ : BufTy).Contents (Elt F) → (⟨S320000x256, .f32⟩ : BufTy).Contents (Elt F)),
    StableHlo.unary main_v32 main_v79 (broadcastInDim S320000x1 ![0] bcast_S320000_S320000x1_0 : (⟨S320000, .f32⟩ : BufTy).Contents (Elt F) → (⟨S320000x1, .f32⟩ : BufTy).Contents (Elt F)),
    StableHlo.unary main_v79 main_v80 (broadcastInDim S320000x256 ![0, 1] bcast_S320000x1_S320000x256_0_1 : (⟨S320000x1, .f32⟩ : BufTy).Contents (Elt F) → (⟨S320000x256, .f32⟩ : BufTy).Contents (Elt F)),
    StableHlo.binary main_v78 main_v80 main_v81 (mulf : (⟨S320000x256, .f32⟩ : BufTy).Contents (Elt F) → (⟨S320000x256, .f32⟩ : BufTy).Contents (Elt F) → (⟨S320000x256, .f32⟩ : BufTy).Contents (Elt F)),
    StableHlo.unary main_v1 main_v82 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v82 main_v83 rfl shapeCasts_S1x320000_S320000,
    StableHlo.nullary main_cst_20 (constant S_ .f32 0x00000000#32),
    StableHlo.unary main_cst_20 main_v84 (broadcastInDim S100000x256 ![] bcast_S_S100000x256 : (⟨S_, .f32⟩ : BufTy).Contents (Elt F) → (⟨S100000x256, .f32⟩ : BufTy).Contents (Elt F)),
    StableHlo.unary main_v83 main_v85 (broadcastInDim S320000x1 ![0] bcast_S320000_S320000x1_0 : (⟨S320000, .i32⟩ : BufTy).Contents (Elt F) → (⟨S320000x1, .i32⟩ : BufTy).Contents (Elt F)),
    StableHlo.ternary main_v84 main_v85 main_v81 main_v86 ((fun x i u => Host.scatterAdd scatter_S100000x256_S320000x1_S320000x256_1_0_0_1 x i u) : (⟨S100000x256, .f32⟩ : BufTy).Contents (Elt F) → (⟨S320000x1, .i32⟩ : BufTy).Contents (Elt F) → (⟨S320000x256, .f32⟩ : BufTy).Contents (Elt F) → (⟨S100000x256, .f32⟩ : BufTy).Contents (Elt F)),
    StableHlo.unary main_v2 main_v87 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v87 main_v88 rfl shapeCasts_S1x320000_S320000,
    StableHlo.nullary main_c_21 (constantI S_ 32 0#32),
    StableHlo.unary main_c_21 main_v89 (broadcastInDim S320000 ![] bcast_S_S320000 : (⟨S_, .i32⟩ : BufTy).Contents (Elt F) → (⟨S320000, .i32⟩ : BufTy).Contents (Elt F)),
    StableHlo.binary main_v88 main_v89 main_v90 (cmpi .slt : (⟨S320000, .i32⟩ : BufTy).Contents (Elt F) → (⟨S320000, .i32⟩ : BufTy).Contents (Elt F) → (⟨S320000, .i1⟩ : BufTy).Contents (Elt F)),
    StableHlo.nullary main_c_22 (constantI S_ 32 100000#32),
    StableHlo.unary main_c_22 main_v91 (broadcastInDim S320000 ![] bcast_S_S320000 : (⟨S_, .i32⟩ : BufTy).Contents (Elt F) → (⟨S320000, .i32⟩ : BufTy).Contents (Elt F)),
    StableHlo.binary main_v88 main_v91 main_v92 (addi : (⟨S320000, .i32⟩ : BufTy).Contents (Elt F) → (⟨S320000, .i32⟩ : BufTy).Contents (Elt F) → (⟨S320000, .i32⟩ : BufTy).Contents (Elt F)),
    StableHlo.ternary main_v90 main_v92 main_v88 main_v93 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v93 main_v94 (broadcastInDim S320000x1 ![0] bcast_S320000_S320000x1_0 : (⟨S320000, .i32⟩ : BufTy).Contents (Elt F) → (⟨S320000x1, .i32⟩ : BufTy).Contents (Elt F)) ]

/-- The third window's operations, in order: the second half's messages and their sum onto the target nodes, the self-loop term, the average of the three, its column means, the column variances (the outlined variance's operations, the selection it calls included), the normalisation, and the transformed relation table cut to its first fifty rows. -/
abbrev ops2 : List (HloOp τ sig (Elt F)) :=
  [ StableHlo.binary main_arg0 main_v94 main_v95 ((fun x i => Host.gather gather_S100000x256_S320000x1_S320000x256_1_0_n_n_0_1_1256 x i) : (⟨S100000x256, .f32⟩ : BufTy).Contents (Elt F) → (⟨S320000x1, .i32⟩ : BufTy).Contents (Elt F) → (⟨S320000x256, .f32⟩ : BufTy).Contents (Elt F)),
    StableHlo.nullary main_c_23 (constantI S_ 32 0#32),
    StableHlo.unary main_c_23 main_v96 (broadcastInDim S320000 ![] bcast_S_S320000 : (⟨S_, .i32⟩ : BufTy).Contents (Elt F) → (⟨S320000, .i32⟩ : BufTy).Contents (Elt F)),
    StableHlo.binary main_v4 main_v96 main_v97 (cmpi .slt : (⟨S320000, .i32⟩ : BufTy).Contents (Elt F) → (⟨S320000, .i32⟩ : BufTy).Contents (Elt F) → (⟨S320000, .i1⟩ : BufTy).Contents (Elt F)),
    StableHlo.nullary main_c_24 (constantI S_ 32 51#32),
    StableHlo.unary main_c_24 main_v98 (broadcastInDim S320000 ![] bcast_S_S320000 : (⟨S_, .i32⟩ : BufTy).Contents (Elt F) → (⟨S320000, .i32⟩ : BufTy).Contents (Elt F)),
    StableHlo.binary main_v4 main_v98 main_v99 (addi : (⟨S320000, .i32⟩ : BufTy).Contents (Elt F) → (⟨S320000, .i32⟩ : BufTy).Contents (Elt F) → (⟨S320000, .i32⟩ : BufTy).Contents (Elt F)),
    StableHlo.ternary main_v97 main_v99 main_v4 main_v100 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v100 main_v101 (broadcastInDim S320000x1 ![0] bcast_S320000_S320000x1_0 : (⟨S320000, .i32⟩ : BufTy).Contents (Elt F) → (⟨S320000x1, .i32⟩ : BufTy).Contents (Elt F)),
    StableHlo.binary main_v0 main_v101 main_v102 ((fun x i => Host.gather gather_S51x256_S320000x1_S320000x256_1_0_n_n_0_1_1256 x i) : (⟨S51x256, .f32⟩ : BufTy).Contents (Elt F) → (⟨S320000x1, .i32⟩ : BufTy).Contents (Elt F) → (⟨S320000x256, .f32⟩ : BufTy).Contents (Elt F)),
    StableHlo.binary main_v95 main_v102 main_v103 (mulf : (⟨S320000x256, .f32⟩ : BufTy).Contents (Elt F) → (⟨S320000x256, .f32⟩ : BufTy).Contents (Elt F) → (⟨S320000x256, .f32⟩ : BufTy).Contents (Elt F)),
    StableHlo.binary main_v103 main_arg6 main_v104 ((fun l r => Host.dotGeneral dot_S320000x256_S256x256_S320000x256_1_0_0_1_n_n none l r) : (⟨S320000x256, .f32⟩ : BufTy).Contents (Elt F) → (⟨S256x256, .f32⟩ : BufTy).Contents (Elt F) → (⟨S320000x256, .f32⟩ : BufTy).Contents (Elt F)),
    StableHlo.unary main_v60 main_v105 (broadcastInDim S320000x1 ![0] bcast_S320000_S320000x1_0 : (⟨S320000, .f32⟩ : BufTy).Contents (Elt F) → (⟨S320000x1, .f32⟩ : BufTy).Contents (Elt F)),
    StableHlo.unary main_v105 main_v106 (broadcastInDim S320000x256 ![0, 1] bcast_S320000x1_S320000x256_0_1 : (⟨S320000x1, .f32⟩ : BufTy).Contents (Elt F) → (⟨S320000x256, .f32⟩ : BufTy).Contents (Elt F)),
    StableHlo.binary main_v104 main_v106 main_v107 (mulf : (⟨S320000x256, .f32⟩ : BufTy).Contents (Elt F) → (⟨S320000x256, .f32⟩ : BufTy).Contents (Elt F) → (⟨S320000x256, .f32⟩ : BufTy).Contents (Elt F)),
    StableHlo.unary main_v2 main_v108 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v108 main_v109 rfl shapeCasts_S1x320000_S320000,
    StableHlo.nullary main_cst_25 (constant S_ .f32 0x00000000#32),
    StableHlo.unary main_cst_25 main_v110 (broadcastInDim S100000x256 ![] bcast_S_S100000x256 : (⟨S_, .f32⟩ : BufTy).Contents (Elt F) → (⟨S100000x256, .f32⟩ : BufTy).Contents (Elt F)),
    StableHlo.unary main_v109 main_v111 (broadcastInDim S320000x1 ![0] bcast_S320000_S320000x1_0 : (⟨S320000, .i32⟩ : BufTy).Contents (Elt F) → (⟨S320000x1, .i32⟩ : BufTy).Contents (Elt F)),
    StableHlo.ternary main_v110 main_v111 main_v107 main_v112 ((fun x i u => Host.scatterAdd scatter_S100000x256_S320000x1_S320000x256_1_0_0_1 x i u) : (⟨S100000x256, .f32⟩ : BufTy).Contents (Elt F) → (⟨S320000x1, .i32⟩ : BufTy).Contents (Elt F) → (⟨S320000x256, .f32⟩ : BufTy).Contents (Elt F) → (⟨S100000x256, .f32⟩ : BufTy).Contents (Elt F)),
    StableHlo.unary main_arg8 main_v113 (broadcastInDim S100000x256 ![0, 1] bcast_S1x256_S100000x256_0_1 : (⟨S1x256, .f32⟩ : BufTy).Contents (Elt F) → (⟨S100000x256, .f32⟩ : BufTy).Contents (Elt F)),
    StableHlo.binary main_arg0 main_v113 main_v114 (mulf : (⟨S100000x256, .f32⟩ : BufTy).Contents (Elt F) → (⟨S100000x256, .f32⟩ : BufTy).Contents (Elt F) → (⟨S100000x256, .f32⟩ : BufTy).Contents (Elt F)),
    StableHlo.binary main_v114 main_arg4 main_v115 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    StableHlo.binary main_v86 main_v112 main_v116 (addf : (⟨S100000x256, .f32⟩ : BufTy).Contents (Elt F) → (⟨S100000x256, .f32⟩ : BufTy).Contents (Elt F) → (⟨S100000x256, .f32⟩ : BufTy).Contents (Elt F)),
    StableHlo.binary main_v116 main_v115 main_v117 (addf : (⟨S100000x256, .f32⟩ : BufTy).Contents (Elt F) → (⟨S100000x256, .f32⟩ : BufTy).Contents (Elt F) → (⟨S100000x256, .f32⟩ : BufTy).Contents (Elt F)),
    StableHlo.nullary main_cst_26 (constant S_ .f32 0x3EAAAAAB#32),
    StableHlo.unary main_cst_26 main_v118 (broadcastInDim S100000x256 ![] bcast_S_S100000x256 : (⟨S_, .f32⟩ : BufTy).Contents (Elt F) → (⟨S100000x256, .f32⟩ : BufTy).Contents (Elt F)),
    StableHlo.binary main_v117 main_v118 main_v119 (mulf : (⟨S100000x256, .f32⟩ : BufTy).Contents (Elt F) → (⟨S100000x256, .f32⟩ : BufTy).Contents (Elt F) → (⟨S100000x256, .f32⟩ : BufTy).Contents (Elt F)),
    StableHlo.nullary main_cst_27 (constant S_ .f32 0x00000000#32),
    StableHlo.binary main_v119 main_cst_27 main_v120 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    StableHlo.nullary main_cst_28 (constant S_ .f32 0x47C35000#32),
    StableHlo.unary main_cst_28 main_v121 (broadcastInDim S256 ![] bcast_S_S256 : (⟨S_, .f32⟩ : BufTy).Contents (Elt F) → (⟨S256, .f32⟩ : BufTy).Contents (Elt F)),
    StableHlo.binary main_v120 main_v121 main_v122 (Host.divf : (⟨S256, .f32⟩ : BufTy).Contents (Elt F) → (⟨S256, .f32⟩ : BufTy).Contents (Elt F) → (⟨S256, .f32⟩ : BufTy).Contents (Elt F)),
    StableHlo.nullary main_c_29 (constantI S_ 32 0#32),
    StableHlo.TRef.nullary main_call2.cst (constant S_ .f32 0x00000000#32),
    StableHlo.TRef.binary (.of main_v119 : StableHlo.TRef sig ⟨S100000x256, .f32⟩) main_call2.cst main_call2.v0 (fun x v => Host.reduceAdd x v reducesTo_S100000x256_S256_d0 h_S_),
    StableHlo.TRef.unary main_call2.v0 main_call2.v1 (broadcastInDim S1x256 ![1] bcast_S256_S1x256_1),
    StableHlo.TRef.nullary main_call2.cst_0 (constant S_ .f32 0x47C35000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S100000x256 ![0, 1] bcast_S1x256_S100000x256_0_1),
    StableHlo.TRef.binary (.of main_v119 : StableHlo.TRef sig ⟨S100000x256, .f32⟩) main_call2.v4 main_call2.v5 subf,
    StableHlo.TRef.binary main_call2.v5 main_call2.v5 main_call2.v6 mulf,
    StableHlo.TRef.unary (.of main_c_29 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b),
    StableHlo.unary main_v122 main_v124 (broadcastInDim S1x256 ![1] bcast_S256_S1x256_1 : (⟨S256, .f32⟩ : BufTy).Contents (Elt F) → (⟨S1x256, .f32⟩ : BufTy).Contents (Elt F)),
    StableHlo.unary main_v124 main_v125 (broadcastInDim S100000x256 ![0, 1] bcast_S1x256_S100000x256_0_1 : (⟨S1x256, .f32⟩ : BufTy).Contents (Elt F) → (⟨S100000x256, .f32⟩ : BufTy).Contents (Elt F)),
    StableHlo.binary main_v119 main_v125 main_v126 (subf : (⟨S100000x256, .f32⟩ : BufTy).Contents (Elt F) → (⟨S100000x256, .f32⟩ : BufTy).Contents (Elt F) → (⟨S100000x256, .f32⟩ : BufTy).Contents (Elt F)),
    StableHlo.nullary main_cst_30 (constant S_ .f32 0x3727C5AC#32),
    StableHlo.unary main_cst_30 main_v127 (broadcastInDim S256 ![] bcast_S_S256 : (⟨S_, .f32⟩ : BufTy).Contents (Elt F) → (⟨S256, .f32⟩ : BufTy).Contents (Elt F)),
    StableHlo.binary main_v123 main_v127 main_v128 (addf : (⟨S256, .f32⟩ : BufTy).Contents (Elt F) → (⟨S256, .f32⟩ : BufTy).Contents (Elt F) → (⟨S256, .f32⟩ : BufTy).Contents (Elt F)),
    StableHlo.unary main_v128 main_v129 (Host.rsqrt : (⟨S256, .f32⟩ : BufTy).Contents (Elt F) → (⟨S256, .f32⟩ : BufTy).Contents (Elt F)),
    StableHlo.unary main_v129 main_v130 (broadcastInDim S1x256 ![1] bcast_S256_S1x256_1 : (⟨S256, .f32⟩ : BufTy).Contents (Elt F) → (⟨S1x256, .f32⟩ : BufTy).Contents (Elt F)),
    StableHlo.unary main_v130 main_v131 (broadcastInDim S100000x256 ![0, 1] bcast_S1x256_S100000x256_0_1 : (⟨S1x256, .f32⟩ : BufTy).Contents (Elt F) → (⟨S100000x256, .f32⟩ : BufTy).Contents (Elt F)),
    StableHlo.binary main_v126 main_v131 main_v132 (mulf : (⟨S100000x256, .f32⟩ : BufTy).Contents (Elt F) → (⟨S100000x256, .f32⟩ : BufTy).Contents (Elt F) → (⟨S100000x256, .f32⟩ : BufTy).Contents (Elt F)),
    StableHlo.unary main_arg9 main_v133 (broadcastInDim S1x256 ![1] bcast_S256_S1x256_1 : (⟨S256, .f32⟩ : BufTy).Contents (Elt F) → (⟨S1x256, .f32⟩ : BufTy).Contents (Elt F)),
    StableHlo.unary main_v133 main_v134 (broadcastInDim S100000x256 ![0, 1] bcast_S1x256_S100000x256_0_1 : (⟨S1x256, .f32⟩ : BufTy).Contents (Elt F) → (⟨S100000x256, .f32⟩ : BufTy).Contents (Elt F)),
    StableHlo.binary main_v132 main_v134 main_v135 (mulf : (⟨S100000x256, .f32⟩ : BufTy).Contents (Elt F) → (⟨S100000x256, .f32⟩ : BufTy).Contents (Elt F) → (⟨S100000x256, .f32⟩ : BufTy).Contents (Elt F)),
    StableHlo.unary main_arg10 main_v136 (broadcastInDim S1x256 ![1] bcast_S256_S1x256_1 : (⟨S256, .f32⟩ : BufTy).Contents (Elt F) → (⟨S1x256, .f32⟩ : BufTy).Contents (Elt F)),
    StableHlo.unary main_v136 main_v137 (broadcastInDim S100000x256 ![0, 1] bcast_S1x256_S100000x256_0_1 : (⟨S1x256, .f32⟩ : BufTy).Contents (Elt F) → (⟨S100000x256, .f32⟩ : BufTy).Contents (Elt F)),
    StableHlo.binary main_v135 main_v137 main_v138 (addf : (⟨S100000x256, .f32⟩ : BufTy).Contents (Elt F) → (⟨S100000x256, .f32⟩ : BufTy).Contents (Elt F) → (⟨S100000x256, .f32⟩ : BufTy).Contents (Elt F)),
    StableHlo.binary main_v0 main_arg7 main_v139 ((fun l r => Host.dotGeneral dot_S51x256_S256x256_S51x256_1_0_0_1_n_n none l r) : (⟨S51x256, .f32⟩ : BufTy).Contents (Elt F) → (⟨S256x256, .f32⟩ : BufTy).Contents (Elt F) → (⟨S51x256, .f32⟩ : BufTy).Contents (Elt F)),
    StableHlo.unary main_v139 main_v140 ((extractStridedSlice S50x256 ![0, 0] · slices_S51x256_S50x256_0_0) : (⟨S51x256, .f32⟩ : BufTy).Contents (Elt F) → (⟨S50x256, .f32⟩ : BufTy).Contents (Elt F)) ]

/-- @main's operations, in order. -/
abbrev ops : List (HloOp τ sig (Elt F)) := ops0 ++ ops1 ++ ops2

set_option maxRecDepth 8192 in
set_option maxHeartbeats 4000000 in
/-- The first window is its operations in order: the outlined selection unfolded at its two calls, sequencing reassociated. -/
theorem part0_eq (c : Dev nD) : main_part0 (F := F) c = seq ops0 := by
  simp only [main_part0, fn_where.body, seq, bind_assoc, pure_bind]

set_option maxRecDepth 8192 in
set_option maxHeartbeats 4000000 in
/-- The second window is its operations in order. -/
theorem part1_eq (c : Dev nD) : main_part1 (F := F) c = seq ops1 := by
  simp only [main_part1, seq, bind_assoc, pure_bind]
  rfl

set_option maxRecDepth 8192 in
set_option maxHeartbeats 4000000 in
/-- The third window is its operations in order: the outlined variance and the selection it calls unfolded. -/
theorem part2_eq (c : Dev nD) : main_part2 (F := F) c = seq ops2 := by
  simp only [main_part2, fn_var.body, fn_where_0.body, seq, bind_assoc, pure_bind]

/-- @main is the three windows one after the other, hence the concatenated line. -/
theorem main_eq (c : Dev nD) : main (F := F) c = seq ops := by
  simp only [ops, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨binary_bufs_sub .., unary_bufs_sub .., unary_bufs_sub .., unary_bufs_sub .., unary_bufs_sub .., unary_bufs_sub ..,
    reshape_bufs_sub .., unary_bufs_sub .., reshape_bufs_sub .., nullary_bufs_sub .., unary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., unary_bufs_sub .., reshape_bufs_sub .., unary_bufs_sub .., reshape_bufs_sub ..,
    nullary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub ..⟩

theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., binary_bufs_sub .., unary_bufs_sub ..,
    unary_bufs_sub .., binary_bufs_sub .., unary_bufs_sub .., reshape_bufs_sub .., nullary_bufs_sub .., unary_bufs_sub ..,
    unary_bufs_sub .., ternary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..⟩

theorem ops2_sub : (ops2 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., binary_bufs_sub ..,
    unary_bufs_sub .., unary_bufs_sub .., binary_bufs_sub .., unary_bufs_sub .., reshape_bufs_sub .., nullary_bufs_sub ..,
    unary_bufs_sub .., unary_bufs_sub .., ternary_bufs_sub .., unary_bufs_sub .., binary_bufs_sub .., binary_bufs_sub ..,
    binary_bufs_sub .., binary_bufs_sub .., nullary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., unary_bufs_sub ..⟩

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

/-- A property of every operation of three lists holds of every operation of their concatenation. -/
theorem forall_append3 {α : Type} {p : α → Prop} {a b c : List α} (ha : a.Forall p) (hb : b.Forall p) (hc : c.Forall p) :
    (a ++ b ++ c).Forall p := by
  rw [List.forall_iff_forall_mem] at ha hb hc ⊢
  intro x hx
  rcases List.mem_append.1 hx with hx | hx
  · rcases List.mem_append.1 hx with hx | hx
    · exact ha x hx
    · exact hb x hx
  · exact hc x hx

theorem ops_sub : (ops : List (HloOp τ sig (Elt F))).Forall fun op => op.bufs ⊆ tcRefs τ sig :=
  forall_append3 ops0_sub ops1_sub ops2_sub

theorem ops_fresh : ∀ op ∈ (ops : List (HloOp τ sig (Elt F))), op.fresh = ∅ :=
  List.forall_iff_forall_mem.1 (forall_append3 ops0_fresh ops1_fresh ops2_fresh)

/-- From any memory with zero counters every weakly fair execution of @main terminates, and every final state has each
    buffer at the fold of the operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Line

section Read

/-- Two lines folded one after the other are their concatenation folded. -/
theorem after_concat {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_concat l₁ l₂]

/-- The buffers the first window's operations write. -/
abbrev ops0_W : List (Ref sig .tc) :=
  [main_v0, main_v1, main_v2, main_v3, main_v4, main_v5, main_v6, main_v7, main_v8, main_cst,
   main_v9, main_cst_0, main_v10, main_v11, main_v12, main_cst_1, main_v13, main_v14, main_cst_2, main_v15,
   main_v16, main_cst_3, main_call0_v0, main_call0_v1, main_v17, main_c, main_v18, main_v19, main_c_4, main_v20,
   main_v21, main_v22, main_v23, main_v24, main_c_5, main_v25, main_v26, main_c_6, main_v27, main_v28,
   main_v29, main_v30, main_v31, main_v32, main_v33, main_v34, main_v35, main_v36, main_cst_7, main_v37,
   main_cst_8, main_v38, main_v39, main_v40, main_cst_9, main_v41, main_v42, main_cst_10, main_v43, main_v44,
   main_cst_11, main_call1_v0, main_call1_v1, main_v45]

set_option maxRecDepth 8192 in
theorem ops0_writes : (ops0 : List (HloOp τ sig (Elt Ideal))).Forall fun op =>
    op.writes ⊆ (ops0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]
     exact List.mem_map_of_mem (by decide))

/-- The buffers the second window's operations write. -/
abbrev ops1_W : List (Ref sig .tc) :=
  [main_c_12, main_v46, main_v47, main_c_13, main_v48, main_v49, main_v50, main_v51, main_v52, main_c_14,
   main_v53, main_v54, main_c_15, main_v55, main_v56, main_v57, main_v58, main_v59, main_v60, main_v61,
   main_v62, main_c_16, main_v63, main_v64, main_c_17, main_v65, main_v66, main_v67, main_v68, main_v69,
   main_c_18, main_v70, main_v71, main_c_19, main_v72, main_v73, main_v74, main_v75, main_v76, main_v77,
   main_v78, main_v79, main_v80, main_v81, main_v82, main_v83, main_cst_20, main_v84, main_v85, main_v86,
   main_v87, main_v88, main_c_21, main_v89, main_v90, main_c_22, main_v91, main_v92, main_v93, main_v94]

set_option maxRecDepth 8192 in
theorem ops1_writes : (ops1 : List (HloOp τ sig (Elt Ideal))).Forall fun op =>
    op.writes ⊆ (ops1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]
     exact List.mem_map_of_mem (by decide))

/-- The buffers the third window's operations write. -/
abbrev ops2_W : List (Ref sig .tc) :=
  [main_v95, main_c_23, main_v96, main_v97, main_c_24, main_v98, main_v99, main_v100, main_v101, main_v102,
   main_v103, main_v104, main_v105, main_v106, main_v107, main_v108, main_v109, main_cst_25, main_v110, main_v111,
   main_v112, main_v113, main_v114, main_v115, main_v116, main_v117, main_cst_26, main_v118, main_v119, main_cst_27,
   main_v120, main_cst_28, main_v121, main_v122, main_c_29, main_call2_cst, main_call2_v0, main_call2_v1, main_call2_cst_0, main_call2_v2,
   main_call2_v3, main_call2_v4, main_call2_v5, main_call2_v6, main_call2_v7, main_call2_cst_1, main_call2_v8, main_call2_cst_2, main_call2_v9, main_call2_v10,
   main_call2_v11, main_call2_cst_3, main_call2_v12, main_call2_cst_4, main_call2_call0_v0, main_call2_call0_v1, main_v123, main_v124, main_v125, main_v126,
   main_cst_30, main_v127, main_v128, main_v129, main_v130, main_v131, main_v132, main_v133, main_v134, main_v135,
   main_v136, main_v137, main_v138, main_v139, main_v140]

set_option maxRecDepth 8192 in
theorem ops2_writes : (ops2 : List (HloOp τ sig (Elt Ideal))).Forall fun op =>
    op.writes ⊆ (ops2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]
     exact List.mem_map_of_mem (by decide))

variable (V0 : Valuation τ sig (Elt Ideal))

/-- The buffers after the first window. -/
def val1 : Valuation τ sig (Elt Ideal) := after ops0 V0
/-- The buffers after the second window. -/
def val2 : Valuation τ sig (Elt Ideal) := after ops1 (val1 V0)
/-- The buffers after the third window: after @main. -/
def val3 : Valuation τ sig (Elt Ideal) := after ops2 (val2 V0)

theorem after_ops : after ops V0 = val3 V0 := by
  simp only [ops, after_concat]
  rfl

/-- A buffer the first window does not write keeps its contents through it. -/
theorem val1_keep (r : Ref sig .tc) (h : r ∉ ops0_W) :
    val1 V0 (Proc.devRef .tc r) = V0 (Proc.devRef .tc r) :=
  after_of_writes_sub ops0 _ ops0_writes h

/-- A buffer the second window does not write keeps its contents through it. -/
theorem val2_keep (r : Ref sig .tc) (h : r ∉ ops1_W) :
    val2 V0 (Proc.devRef .tc r) = val1 V0 (Proc.devRef .tc r) :=
  after_of_writes_sub ops1 _ ops1_writes h

/-- A buffer the third window does not write keeps its contents through it. -/
theorem val3_keep (r : Ref sig .tc) (h : r ∉ ops2_W) :
    val3 V0 (Proc.devRef .tc r) = val2 V0 (Proc.devRef .tc r) :=
  after_of_writes_sub ops2 _ ops2_writes h

/-! After the first window: the arguments as launched; the relation table, the halves of the edge list and of the edge
    types; the first half's edge factor; the second half's target and source rows and its inverse-square-root degrees. -/

theorem val1_main_arg0 : val1 V0 (no_index (Proc.devRef .tc main_arg0)) = (V0 (Proc.devRef .tc main_arg0)) :=
  val1_keep V0 main_arg0 (by decide)
theorem val1_main_arg1 : val1 V0 (no_index (Proc.devRef .tc main_arg1)) = (V0 (Proc.devRef .tc main_arg1)) :=
  val1_keep V0 main_arg1 (by decide)
theorem val1_main_arg2 : val1 V0 (no_index (Proc.devRef .tc main_arg2)) = (V0 (Proc.devRef .tc main_arg2)) :=
  val1_keep V0 main_arg2 (by decide)
theorem val1_main_arg3 : val1 V0 (no_index (Proc.devRef .tc main_arg3)) = (V0 (Proc.devRef .tc main_arg3)) :=
  val1_keep V0 main_arg3 (by decide)
theorem val1_main_arg4 : val1 V0 (no_index (Proc.devRef .tc main_arg4)) = (V0 (Proc.devRef .tc main_arg4)) :=
  val1_keep V0 main_arg4 (by decide)
theorem val1_main_arg5 : val1 V0 (no_index (Proc.devRef .tc main_arg5)) = (V0 (Proc.devRef .tc main_arg5)) :=
  val1_keep V0 main_arg5 (by decide)
theorem val1_main_arg6 : val1 V0 (no_index (Proc.devRef .tc main_arg6)) = (V0 (Proc.devRef .tc main_arg6)) :=
  val1_keep V0 main_arg6 (by decide)
theorem val1_main_arg7 : val1 V0 (no_index (Proc.devRef .tc main_arg7)) = (V0 (Proc.devRef .tc main_arg7)) :=
  val1_keep V0 main_arg7 (by decide)
theorem val1_main_arg8 : val1 V0 (no_index (Proc.devRef .tc main_arg8)) = (V0 (Proc.devRef .tc main_arg8)) :=
  val1_keep V0 main_arg8 (by decide)
theorem val1_main_arg9 : val1 V0 (no_index (Proc.devRef .tc main_arg9)) = (V0 (Proc.devRef .tc main_arg9)) :=
  val1_keep V0 main_arg9 (by decide)
theorem val1_main_arg10 : val1 V0 (no_index (Proc.devRef .tc main_arg10)) = (V0 (Proc.devRef .tc main_arg10)) :=
  val1_keep V0 main_arg10 (by decide)

set_option maxRecDepth 8192 in
set_option maxHeartbeats 4000000 in
theorem val1_main_v0 : val1 V0 (no_index (Proc.devRef .tc main_v0)) = Cert.Hand.relAll (V0 (Proc.devRef .tc main_arg3)) (V0 (Proc.devRef .tc main_arg8)) := by
  unfold val1
  simp only [ops0]
  after_results_simp
  rfl

set_option maxRecDepth 8192 in
set_option maxHeartbeats 4000000 in
theorem val1_main_v1 : val1 V0 (no_index (Proc.devRef .tc main_v1)) = Cert.Hand.eiIn (V0 (Proc.devRef .tc main_arg1)) := by
  unfold val1
  simp only [ops0]
  after_results_simp
  rfl

set_option maxRecDepth 8192 in
set_option maxHeartbeats 4000000 in
theorem val1_main_v2 : val1 V0 (no_index (Proc.devRef .tc main_v2)) = Cert.Hand.eiOut (V0 (Proc.devRef .tc main_arg1)) := by
  unfold val1
  simp only [ops0]
  after_results_simp
  rfl

set_option maxRecDepth 8192 in
set_option maxHeartbeats 4000000 in
theorem val1_main_v3 : val1 V0 (no_index (Proc.devRef .tc main_v3)) = Cert.Hand.etIn (V0 (Proc.devRef .tc main_arg2)) := by
  unfold val1
  simp only [ops0]
  after_results_simp
  rfl

set_option maxRecDepth 8192 in
set_option maxHeartbeats 4000000 in
theorem val1_main_v4 : val1 V0 (no_index (Proc.devRef .tc main_v4)) = Cert.Hand.etOut (V0 (Proc.devRef .tc main_arg2)) := by
  unfold val1
  simp only [ops0]
  after_results_simp
  rfl

set_option maxRecDepth 8192 in
set_option maxHeartbeats 4000000 in
theorem val1_main_v32 : val1 V0 (no_index (Proc.devRef .tc main_v32)) = Cert.Hand.normOf (Cert.Hand.eiIn (V0 (Proc.devRef .tc main_arg1))) := by
  unfold val1
  simp only [ops0]
  after_results_simp
  simp only [cast_eq]
  rfl

set_option maxRecDepth 8192 in
set_option maxHeartbeats 4000000 in
theorem val1_main_v34 : val1 V0 (no_index (Proc.devRef .tc main_v34)) = Cert.Hand.rowOf (Cert.Hand.eiOut (V0 (Proc.devRef .tc main_arg1))) := by
  unfold val1
  simp only [ops0]
  after_results_simp
  rfl

set_option maxRecDepth 8192 in
set_option maxHeartbeats 4000000 in
theorem val1_main_v36 : val1 V0 (no_index (Proc.devRef .tc main_v36)) = Cert.Hand.colOf (Cert.Hand.eiOut (V0 (Proc.devRef .tc main_arg1))) := by
  unfold val1
  simp only [ops0]
  after_results_simp
  rfl

set_option maxRecDepth 8192 in
set_option maxHeartbeats 4000000 in
theorem val1_main_v45 : val1 V0 (no_index (Proc.devRef .tc main_v45)) = Cert.Hand.degInv (Cert.Hand.rowOf (Cert.Hand.eiOut (V0 (Proc.devRef .tc main_arg1)))) := by
  unfold val1
  simp only [ops0]
  after_results_simp
  simp only [cast_eq]
  rfl

/-! After the second window: the second half's edge factor and source index column; the first half's messages summed
    onto their target nodes. -/

theorem val2_main_arg0 : val2 V0 (no_index (Proc.devRef .tc main_arg0)) = (V0 (Proc.devRef .tc main_arg0)) :=
  (val2_keep V0 main_arg0 (by decide)).trans (val1_main_arg0 V0)
theorem val2_main_arg1 : val2 V0 (no_index (Proc.devRef .tc main_arg1)) = (V0 (Proc.devRef .tc main_arg1)) :=
  (val2_keep V0 main_arg1 (by decide)).trans (val1_main_arg1 V0)
theorem val2_main_arg2 : val2 V0 (no_index (Proc.devRef .tc main_arg2)) = (V0 (Proc.devRef .tc main_arg2)) :=
  (val2_keep V0 main_arg2 (by decide)).trans (val1_main_arg2 V0)
theorem val2_main_arg3 : val2 V0 (no_index (Proc.devRef .tc main_arg3)) = (V0 (Proc.devRef .tc main_arg3)) :=
  (val2_keep V0 main_arg3 (by decide)).trans (val1_main_arg3 V0)
theorem val2_main_arg4 : val2 V0 (no_index (Proc.devRef .tc main_arg4)) = (V0 (Proc.devRef .tc main_arg4)) :=
  (val2_keep V0 main_arg4 (by decide)).trans (val1_main_arg4 V0)
theorem val2_main_arg5 : val2 V0 (no_index (Proc.devRef .tc main_arg5)) = (V0 (Proc.devRef .tc main_arg5)) :=
  (val2_keep V0 main_arg5 (by decide)).trans (val1_main_arg5 V0)
theorem val2_main_arg6 : val2 V0 (no_index (Proc.devRef .tc main_arg6)) = (V0 (Proc.devRef .tc main_arg6)) :=
  (val2_keep V0 main_arg6 (by decide)).trans (val1_main_arg6 V0)
theorem val2_main_arg7 : val2 V0 (no_index (Proc.devRef .tc main_arg7)) = (V0 (Proc.devRef .tc main_arg7)) :=
  (val2_keep V0 main_arg7 (by decide)).trans (val1_main_arg7 V0)
theorem val2_main_arg8 : val2 V0 (no_index (Proc.devRef .tc main_arg8)) = (V0 (Proc.devRef .tc main_arg8)) :=
  (val2_keep V0 main_arg8 (by decide)).trans (val1_main_arg8 V0)
theorem val2_main_arg9 : val2 V0 (no_index (Proc.devRef .tc main_arg9)) = (V0 (Proc.devRef .tc main_arg9)) :=
  (val2_keep V0 main_arg9 (by decide)).trans (val1_main_arg9 V0)
theorem val2_main_arg10 : val2 V0 (no_index (Proc.devRef .tc main_arg10)) = (V0 (Proc.devRef .tc main_arg10)) :=
  (val2_keep V0 main_arg10 (by decide)).trans (val1_main_arg10 V0)

theorem val2_main_v0 : val2 V0 (no_index (Proc.devRef .tc main_v0)) = Cert.Hand.relAll (V0 (Proc.devRef .tc main_arg3)) (V0 (Proc.devRef .tc main_arg8)) :=
  (val2_keep V0 main_v0 (by decide)).trans (val1_main_v0 V0)

theorem val2_main_v2 : val2 V0 (no_index (Proc.devRef .tc main_v2)) = Cert.Hand.eiOut (V0 (Proc.devRef .tc main_arg1)) :=
  (val2_keep V0 main_v2 (by decide)).trans (val1_main_v2 V0)

theorem val2_main_v4 : val2 V0 (no_index (Proc.devRef .tc main_v4)) = Cert.Hand.etOut (V0 (Proc.devRef .tc main_arg2)) :=
  (val2_keep V0 main_v4 (by decide)).trans (val1_main_v4 V0)

set_option maxRecDepth 8192 in
set_option maxHeartbeats 4000000 in
theorem val2_main_v60 : val2 V0 (no_index (Proc.devRef .tc main_v60)) = Cert.Hand.normOf (Cert.Hand.eiOut (V0 (Proc.devRef .tc main_arg1))) := by
  unfold val2
  simp only [ops1]
  after_results_simp
  simp only [val1_main_v34, val1_main_v36, val1_main_v45]
  rfl

set_option maxRecDepth 8192 in
set_option maxHeartbeats 4000000 in
theorem val2_main_v86 : val2 V0 (no_index (Proc.devRef .tc main_v86)) = Cert.Hand.resR (V0 (Proc.devRef .tc main_arg0)) (Cert.Hand.eiIn (V0 (Proc.devRef .tc main_arg1))) (Cert.Hand.etIn (V0 (Proc.devRef .tc main_arg2))) (Cert.Hand.relAll (V0 (Proc.devRef .tc main_arg3)) (V0 (Proc.devRef .tc main_arg8))) (V0 (Proc.devRef .tc main_arg5)) := by
  unfold val2
  simp only [ops1]
  after_results_simp
  simp only [val1_main_v0, val1_main_v1, val1_main_v3, val1_main_v32, val1_main_arg0, val1_main_arg5]
  rfl

set_option maxRecDepth 8192 in
set_option maxHeartbeats 4000000 in
theorem val2_main_v94 : val2 V0 (no_index (Proc.devRef .tc main_v94)) = Cert.Hand.wrapIdx 100000#32 (Cert.Hand.colOf (Cert.Hand.eiOut (V0 (Proc.devRef .tc main_arg1)))) := by
  unfold val2
  simp only [ops1]
  after_results_simp
  simp only [val1_main_v2]
  rfl

/-! After the third window: the arguments as launched and the two results. -/

theorem val3_main_arg0 : val3 V0 (no_index (Proc.devRef .tc main_arg0)) = (V0 (Proc.devRef .tc main_arg0)) :=
  (val3_keep V0 main_arg0 (by decide)).trans (val2_main_arg0 V0)
theorem val3_main_arg1 : val3 V0 (no_index (Proc.devRef .tc main_arg1)) = (V0 (Proc.devRef .tc main_arg1)) :=
  (val3_keep V0 main_arg1 (by decide)).trans (val2_main_arg1 V0)
theorem val3_main_arg2 : val3 V0 (no_index (Proc.devRef .tc main_arg2)) = (V0 (Proc.devRef .tc main_arg2)) :=
  (val3_keep V0 main_arg2 (by decide)).trans (val2_main_arg2 V0)
theorem val3_main_arg3 : val3 V0 (no_index (Proc.devRef .tc main_arg3)) = (V0 (Proc.devRef .tc main_arg3)) :=
  (val3_keep V0 main_arg3 (by decide)).trans (val2_main_arg3 V0)
theorem val3_main_arg4 : val3 V0 (no_index (Proc.devRef .tc main_arg4)) = (V0 (Proc.devRef .tc main_arg4)) :=
  (val3_keep V0 main_arg4 (by decide)).trans (val2_main_arg4 V0)
theorem val3_main_arg5 : val3 V0 (no_index (Proc.devRef .tc main_arg5)) = (V0 (Proc.devRef .tc main_arg5)) :=
  (val3_keep V0 main_arg5 (by decide)).trans (val2_main_arg5 V0)
theorem val3_main_arg6 : val3 V0 (no_index (Proc.devRef .tc main_arg6)) = (V0 (Proc.devRef .tc main_arg6)) :=
  (val3_keep V0 main_arg6 (by decide)).trans (val2_main_arg6 V0)
theorem val3_main_arg7 : val3 V0 (no_index (Proc.devRef .tc main_arg7)) = (V0 (Proc.devRef .tc main_arg7)) :=
  (val3_keep V0 main_arg7 (by decide)).trans (val2_main_arg7 V0)
theorem val3_main_arg8 : val3 V0 (no_index (Proc.devRef .tc main_arg8)) = (V0 (Proc.devRef .tc main_arg8)) :=
  (val3_keep V0 main_arg8 (by decide)).trans (val2_main_arg8 V0)
theorem val3_main_arg9 : val3 V0 (no_index (Proc.devRef .tc main_arg9)) = (V0 (Proc.devRef .tc main_arg9)) :=
  (val3_keep V0 main_arg9 (by decide)).trans (val2_main_arg9 V0)
theorem val3_main_arg10 : val3 V0 (no_index (Proc.devRef .tc main_arg10)) = (V0 (Proc.devRef .tc main_arg10)) :=
  (val3_keep V0 main_arg10 (by decide)).trans (val2_main_arg10 V0)

set_option maxRecDepth 8192 in
set_option maxHeartbeats 4000000 in
theorem val3_main_v138 : val3 V0 (no_index (Proc.devRef .tc main_v138)) = Cert.Hand.out0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg8)) (V0 (Proc.devRef .tc main_arg9)) (V0 (Proc.devRef .tc main_arg10)) := by
  unfold val3
  simp only [ops2]
  after_results_simp
  simp only [val2_main_v0, val2_main_v2, val2_main_v4, val2_main_v60, val2_main_v86, val2_main_v94, val2_main_arg0, val2_main_arg4, val2_main_arg6, val2_main_arg8, val2_main_arg9, val2_main_arg10]
  rfl

set_option maxRecDepth 8192 in
set_option maxHeartbeats 4000000 in
theorem val3_main_v140 : val3 V0 (no_index (Proc.devRef .tc main_v140)) = Cert.Hand.out1 (V0 (Proc.devRef .tc main_arg3)) (V0 (Proc.devRef .tc main_arg8)) (V0 (Proc.devRef .tc main_arg7)) := by
  unfold val3
  simp only [ops2]
  after_results_simp
  simp only [val2_main_v0, val2_main_arg7]
  rfl

end Read

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v138)
          = Cert.Hand.out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10))
      ∧ r.2.mem ((c.tc : Thread nD τ).loc main_v140) = Cert.Hand.out1 (m ((c.tc : Thread nD τ).loc main_arg3)) (m ((c.tc : Thread nD τ).loc main_arg8)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c main_v138).trans ((congrFun (after_ops _) _).trans (val3_main_v138 _)),
      (h c main_v140).trans ((congrFun (after_ops _) _).trans (val3_main_v140 _)),
      (h c main_arg0).trans ((congrFun (after_ops _) _).trans (val3_main_arg0 _)),
      (h c main_arg1).trans ((congrFun (after_ops _) _).trans (val3_main_arg1 _)),
      (h c main_arg2).trans ((congrFun (after_ops _) _).trans (val3_main_arg2 _)),
      (h c main_arg3).trans ((congrFun (after_ops _) _).trans (val3_main_arg3 _)),
      (h c main_arg4).trans ((congrFun (after_ops _) _).trans (val3_main_arg4 _)),
      (h c main_arg5).trans ((congrFun (after_ops _) _).trans (val3_main_arg5 _)),
      (h c main_arg6).trans ((congrFun (after_ops _) _).trans (val3_main_arg6 _)),
      (h c main_arg7).trans ((congrFun (after_ops _) _).trans (val3_main_arg7 _)),
      (h c main_arg8).trans ((congrFun (after_ops _) _).trans (val3_main_arg8 _)),
      (h c main_arg9).trans ((congrFun (after_ops _) _).trans (val3_main_arg9 _)),
      (h c main_arg10).trans ((congrFun (after_ops _) _).trans (val3_main_arg10 _))⟩)
    (run_main m ρ)

end Cert.ReferenceIdeal.Hand

end
-- ==== Proof.LibReal.lean ====
import Idealize.ShloMosaic.PureOps.Ideal

/-! Arrays of extended reals all of whose entries are real numbers. -/

namespace Cert.Hand

/-- Every entry is a real number: neither infinity occurs. -/
def AllReal {ι : Type} (v : ι → EReal) : Prop := ∀ i, ∃ r : ℝ, v i = (r : EReal)

end Cert.Hand
-- ==== Proof.BridgeMsg.lean ====
import proofs.«407851_j24489903522003_2_alg».proof.Proof.KSpec
import proofs.«407851_j24489903522003_2_alg».proof.Proof.LibReal
import Idealize.ShloMosaic.PureOps.Ideal.Laws
import Idealize.ShloMosaic.Lib.Pipeline.Value
import Idealize.ShloMosaic.Lib.ValueLayout

/-! A direction's messages and the self-loop term: the reference's gather of the relation row and its matrix product, read entry by entry, are the kernel's one-hot sum and contraction when every edge type is a row number of the 51-row table. -/

noncomputable section

namespace Cert.Hand

open Idealize.ShloMosaic Idealize.ShloMosaic.ValueIdx
open Cert.ReferenceIdeal Cert.ReferenceIdeal.Facts₀

/-! ### The one-hot sum -/

/-- A 32-bit word is the word of its own value. -/
theorem ofNat_toNat_self (tt : BitVec 32) : BitVec.ofNat 32 tt.toNat = tt := by simp

/-- The indicator sum over the 51 rows picks the row the word names. -/
theorem sum_oh (tt : BitVec 32) (h : tt.toNat < 51) (f : Fin 51 → EReal) :
    ∑ r : Fin 51, oh tt r * f r = f ⟨tt.toNat, h⟩ := by
  rw [Finset.sum_eq_single (⟨tt.toNat, h⟩ : Fin 51)]
  · unfold oh
    rw [if_pos (ofNat_toNat_self tt).symm, one_mul]
  · intro r _ hr
    unfold oh
    rw [if_neg, zero_mul]
    intro he
    apply hr
    apply Fin.ext
    have h2 : tt.toNat = r.val := by
      rw [he, BitVec.toNat_ofNat]
      have := r.isLt
      omega
    exact h2.symm
  · intro hn
    exact absurd (Finset.mem_univ _) hn

/-! ### The host product at an entry -/

theorem lhs_msg_0 (j : S320000x256.Idx) (k : dot_S320000x256_S256x256_S320000x256_1_0_0_1_n_n.contr.Idx) :
    (dot_S320000x256_S256x256_S320000x256_1_0_0_1_n_n.lhsIdx j k 0).val = (j 0).val := rfl
theorem lhs_msg_1 (j : S320000x256.Idx) (k : dot_S320000x256_S256x256_S320000x256_1_0_0_1_n_n.contr.Idx) :
    (dot_S320000x256_S256x256_S320000x256_1_0_0_1_n_n.lhsIdx j k 1).val = (k ⟨0, by decide⟩).val := rfl
theorem rhs_msg_0 (j : S320000x256.Idx) (k : dot_S320000x256_S256x256_S320000x256_1_0_0_1_n_n.contr.Idx) :
    (dot_S320000x256_S256x256_S320000x256_1_0_0_1_n_n.rhsIdx j k 0).val = (k ⟨0, by decide⟩).val := rfl
theorem rhs_msg_1 (j : S320000x256.Idx) (k : dot_S320000x256_S256x256_S320000x256_1_0_0_1_n_n.contr.Idx) :
    (dot_S320000x256_S256x256_S320000x256_1_0_0_1_n_n.rhsIdx j k 1).val = (j 1).val := rfl

/-- The reference's product of a per-edge array with a weight matrix, at an entry: the sum over the 256 columns. -/
theorem dot_msg_apply (A : FVec Ideal S320000x256 .f32) (w : FVec Ideal S256x256 .f32) (p : Fin 320000) (q : Fin 256) :
    Host.dotGeneral (F := Ideal) dot_S320000x256_S256x256_S320000x256_1_0_0_1_n_n none A w (ix2 p q)
      = ∑ k : Fin 256, A (ix2 p k) * w (ix2 k q) := by
  show FloatOps.dotGeneral dot_S320000x256_S256x256_S320000x256_1_0_0_1_n_n none .single A w (ix2 p q) = _
  rw [Ideal.dotGeneral_apply,
    ← Equiv.sum_comp (contrEquiv1 dot_S320000x256_S256x256_S320000x256_1_0_0_1_n_n 256 rfl rfl).symm]
  refine Finset.sum_congr rfl fun k _ => ?_
  have hl : dot_S320000x256_S256x256_S320000x256_1_0_0_1_n_n.lhsIdx (ix2 p q)
      ((contrEquiv1 dot_S320000x256_S256x256_S320000x256_1_0_0_1_n_n 256 rfl rfl).symm k) = ix2 p k := by
    funext a
    apply Fin.ext
    match a with
    | ⟨0, _⟩ => exact lhs_msg_0 _ _
    | ⟨1, _⟩ => exact (lhs_msg_1 _ _).trans (contrEquiv1_symm_val _ 256 rfl rfl k)
  have hr : dot_S320000x256_S256x256_S320000x256_1_0_0_1_n_n.rhsIdx (ix2 p q)
      ((contrEquiv1 dot_S320000x256_S256x256_S320000x256_1_0_0_1_n_n 256 rfl rfl).symm k) = ix2 k q := by
    funext a
    apply Fin.ext
    match a with
    | ⟨0, _⟩ => exact (rhs_msg_0 _ _).trans (contrEquiv1_symm_val _ 256 rfl rfl k)
    | ⟨1, _⟩ => exact rhs_msg_1 _ _
  rw [hl, hr]

/-! ### Columns and their broadcasts at an entry -/

/-- A per-edge vector made a column and laid over the 256 columns reads the edge's value everywhere in its row. -/
theorem bcast_rows_apply {α : Type} (v : S320000.Idx → α) (p : Fin 320000) (q : Fin 256) :
    broadcastInDim S320000x256 ![0, 1] bcast_S320000x1_S320000x256_0_1
      (broadcastInDim S320000x1 ![0] bcast_S320000_S320000x1_0 v) (ix2 p q) = v (ix1 p) := by
  rw [broadcastInDim_apply _ _ _ (ix2 p q) (ix2 p (0 : Fin 1)) (fun a => match a with
    | ⟨0, _⟩ => rfl
    | ⟨1, _⟩ => rfl)]
  rw [broadcastInDim_apply _ _ _ (ix2 p (0 : Fin 1)) (ix1 p) (fun a => match a with
    | ⟨0, _⟩ => rfl)]

/-- A per-edge vector made a column by a broadcast reads the edge's value. -/
theorem bcast_col_apply {α : Type} (v : S320000.Idx → α) (p : Fin 320000) (z : Fin 1) :
    broadcastInDim S320000x1 ![0] bcast_S320000_S320000x1_0 v (ix2 p z) = v (ix1 p) := by
  rw [broadcastInDim_apply _ _ _ (ix2 p z) (ix1 p) (fun a => match a with
    | ⟨0, _⟩ => rfl)]

/-- A per-edge vector made a column by a reshape reads the edge's value. -/
theorem col_apply {α : Type} (v : S320000.Idx → α) (p : Fin 320000) :
    shapeCast S320000x1 v Cert.KernelIdeal.Facts₀.shapeCasts_S320000_S320000x1 (ix2 p (0 : Fin 1)) = v (ix1 p) := by
  refine shapeCast_apply v _ (ix2 p (0 : Fin 1)) (ix1 p) ?_
  rw [Shape.rowMajor_val_one, Shape.rowMajor_val_two]
  show p.val = p.val * 1 + 0
  omega

/-! ### The relation gather at an entry -/

/-- The start-index position the relation gather reads for a result entry: the entry's row, component 0. -/
theorem rel_siIdx (j : S320000x256.Idx)
    (c : Fin gather_S51x256_S320000x1_S320000x256_1_0_n_n_0_1_1256.startIndexMap.length) :
    gather_S51x256_S320000x1_S320000x256_1_0_n_n_0_1_1256.siIdx j c = ix2 (j 0) (0 : Fin 1) := by
  funext b
  apply Fin.ext
  match b with
  | ⟨0, _⟩ => rfl
  | ⟨1, _⟩ =>
    show c.val = 0
    have hc : c.val < 1 := c.isLt
    omega

/-- The relation gather at an entry: the table's row at the start index read signed and clamped to `[0, 50]`, same column. -/
theorem rel_gather_apply (ra : FVec Ideal S51x256 .f32) (idx : IVec S320000x1 32) (p : Fin 320000) (q : Fin 256) :
    Host.gather gather_S51x256_S320000x1_S320000x256_1_0_n_n_0_1_1256 ra idx (ix2 p q)
      = ra (ix2 (⟨min (idx (ix2 p (0 : Fin 1))).toInt.toNat 50, by omega⟩ : Fin 51) q) := by
  unfold Host.gather
  congr 1
  funext a
  apply Fin.ext
  match a with
  | ⟨0, _⟩ =>
    show gather_S51x256_S320000x1_S320000x256_1_0_n_n_0_1_1256.start (ix2 p q) idx 0
      + gather_S51x256_S320000x1_S320000x256_1_0_n_n_0_1_1256.batchCoord (ix2 p q) 0
      + gather_S51x256_S320000x1_S320000x256_1_0_n_n_0_1_1256.offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S51x256_S320000x1_S320000x256_1_0_n_n_0_1_1256.startIndexMap from
      List.mem_singleton.mpr rfl), rel_siIdx]
    rfl
  | ⟨1, _⟩ =>
    show gather_S51x256_S320000x1_S320000x256_1_0_n_n_0_1_1256.start (ix2 p q) idx 1
      + gather_S51x256_S320000x1_S320000x256_1_0_n_n_0_1_1256.batchCoord (ix2 p q) 1
      + gather_S51x256_S320000x1_S320000x256_1_0_n_n_0_1_1256.offCoord (ix2 p q) 1 = q.val
    have hs : gather_S51x256_S320000x1_S320000x256_1_0_n_n_0_1_1256.start (ix2 p q) idx 1 = 0 := by
      unfold GatherDims.start
      rw [dif_neg (show ¬ (1 : Fin 2) ∈ gather_S51x256_S320000x1_S320000x256_1_0_n_n_0_1_1256.startIndexMap by decide)]
    have hk : (1 : Fin 2) ∈ gather_S51x256_S320000x1_S320000x256_1_0_n_n_0_1_1256.sKept :=
      (GatherDims.mem_sKept _ _).mpr ⟨by decide, List.not_mem_nil⟩
    rw [hs, GatherDims.batchCoord_eq_zero _ _ _ List.not_mem_nil]
    unfold GatherDims.offCoord
    rw [dif_pos hk]
    have key : ∀ (i : Nat) (hi : i < gather_S51x256_S320000x1_S320000x256_1_0_n_n_0_1_1256.offsetDims.length),
        ((ix2 p q : S320000x256.Idx) (gather_S51x256_S320000x1_S320000x256_1_0_n_n_0_1_1256.offsetDims[i]'hi)).val = q.val := by
      intro i hi
      have hi1 : i < 1 := hi
      obtain rfl : i = 0 := by omega
      rfl
    simp only [Nat.zero_add]
    exact key _ _

/-- A word below 51 is not negative as a signed word. -/
theorem slt_zero_of_small (a : BitVec 32) (h : a.toNat < 51) : IntOp.cmpi .slt a 0#32 = 0#1 := by
  show BitVec.ofBool (a.slt 0#32) = 0#1
  have h1 : a.toInt = (a.toNat : Int) := by
    rw [BitVec.toInt_eq_toNat_cond, if_pos (by omega)]
  have h2 : a.slt 0#32 = false := by
    simp only [BitVec.slt, h1]
    simp
  rw [h2]
  rfl

/-- The wrapped index column at a row: the `select` of the three words there. -/
theorem wrapIdx_apply (n : BitVec 32) (t : IVec S320000 32) (p : Fin 320000) (z : Fin 1) :
    wrapIdx n t (ix2 p z)
      = Scalar.select (IntOp.cmpi .slt (t (ix1 p)) 0#32) (IntOp.addi (t (ix1 p)) n) (t (ix1 p)) := by
  unfold wrapIdx
  rw [bcast_col_apply]
  rfl

/-- With the edge's type a row number of the table, the gathered relation row is that row. -/
theorem relOf_apply (ra : FVec Ideal S51x256 .f32) (t : IVec S320000 32) (p : Fin 320000) (q : Fin 256)
    (h : (t (ix1 p)).toNat < 51) : relOf ra t (ix2 p q) = ra (ix2 (⟨(t (ix1 p)).toNat, h⟩ : Fin 51) q) := by
  unfold relOf
  rw [rel_gather_apply]
  have key : min (wrapIdx 51#32 t (ix2 p (0 : Fin 1))).toInt.toNat 50 = (t (ix1 p)).toNat := by
    rw [wrapIdx_apply, slt_zero_of_small _ h, select_zero]
    have h1 : (t (ix1 p)).toInt = ((t (ix1 p)).toNat : Int) := by
      rw [BitVec.toInt_eq_toNat_cond, if_pos (by omega)]
    rw [h1]
    omega
  exact congrArg (fun r : Fin 51 => ra (ix2 r q)) (Fin.ext key)

/-! ### The self-loop term -/

theorem lhs_loop_0 (j : S100000x256.Idx) (k : dot_S100000x256_S256x256_S100000x256_1_0_0_1_n_n.contr.Idx) :
    (dot_S100000x256_S256x256_S100000x256_1_0_0_1_n_n.lhsIdx j k 0).val = (j 0).val := rfl
theorem lhs_loop_1 (j : S100000x256.Idx) (k : dot_S100000x256_S256x256_S100000x256_1_0_0_1_n_n.contr.Idx) :
    (dot_S100000x256_S256x256_S100000x256_1_0_0_1_n_n.lhsIdx j k 1).val = (k ⟨0, by decide⟩).val := rfl
theorem rhs_loop_0 (j : S100000x256.Idx) (k : dot_S100000x256_S256x256_S100000x256_1_0_0_1_n_n.contr.Idx) :
    (dot_S100000x256_S256x256_S100000x256_1_0_0_1_n_n.rhsIdx j k 0).val = (k ⟨0, by decide⟩).val := rfl
theorem rhs_loop_1 (j : S100000x256.Idx) (k : dot_S100000x256_S256x256_S100000x256_1_0_0_1_n_n.contr.Idx) :
    (dot_S100000x256_S256x256_S100000x256_1_0_0_1_n_n.rhsIdx j k 1).val = (j 1).val := rfl

/-- The reference's product of a per-node array with a weight matrix, at an entry: the sum over the 256 columns. -/
theorem dot_loop_apply (A : FVec Ideal S100000x256 .f32) (w : FVec Ideal S256x256 .f32) (p : Fin 100000) (q : Fin 256) :
    Host.dotGeneral (F := Ideal) dot_S100000x256_S256x256_S100000x256_1_0_0_1_n_n none A w (ix2 p q)
      = ∑ k : Fin 256, A (ix2 p k) * w (ix2 k q) := by
  show FloatOps.dotGeneral dot_S100000x256_S256x256_S100000x256_1_0_0_1_n_n none .single A w (ix2 p q) = _
  rw [Ideal.dotGeneral_apply,
    ← Equiv.sum_comp (contrEquiv1 dot_S100000x256_S256x256_S100000x256_1_0_0_1_n_n 256 rfl rfl).symm]
  refine Finset.sum_congr rfl fun k _ => ?_
  have hl : dot_S100000x256_S256x256_S100000x256_1_0_0_1_n_n.lhsIdx (ix2 p q)
      ((contrEquiv1 dot_S100000x256_S256x256_S100000x256_1_0_0_1_n_n 256 rfl rfl).symm k) = ix2 p k := by
    funext a
    apply Fin.ext
    match a with
    | ⟨0, _⟩ => exact lhs_loop_0 _ _
    | ⟨1, _⟩ => exact (lhs_loop_1 _ _).trans (contrEquiv1_symm_val _ 256 rfl rfl k)
  have hr : dot_S100000x256_S256x256_S100000x256_1_0_0_1_n_n.rhsIdx (ix2 p q)
      ((contrEquiv1 dot_S100000x256_S256x256_S100000x256_1_0_0_1_n_n 256 rfl rfl).symm k) = ix2 k q := by
    funext a
    apply Fin.ext
    match a with
    | ⟨0, _⟩ => exact (rhs_loop_0 _ _).trans (contrEquiv1_symm_val _ 256 rfl rfl k)
    | ⟨1, _⟩ => exact rhs_loop_1 _ _
  rw [hl, hr]

/-- The loop relation's one row laid over all nodes reads that row's entry in every row. -/
theorem bcast_lr_apply (lr : FVec Ideal S1x256 .f32) (p : Fin 100000) (k : Fin 256) :
    broadcastInDim S100000x256 ![0, 1] bcast_S1x256_S100000x256_0_1 lr (ix2 p k) = lr (ix2 (0 : Fin 1) k) := by
  rw [broadcastInDim_apply _ _ _ (ix2 p k) (ix2 (0 : Fin 1) k) (fun a => match a with
    | ⟨0, _⟩ => rfl
    | ⟨1, _⟩ => rfl)]

/-- Row 50 of the concatenated table is the loop relation's row. -/
theorem relAll_last (rel : FVec Ideal S50x256 .f32) (lr : FVec Ideal S1x256 .f32) (r : Fin 51) (hr : r.val = 50) (k : Fin 256) :
    relAll rel lr (ix2 r k) = lr (ix2 (0 : Fin 1) k) := by
  unfold relAll
  refine concatenate_pair_apply_right (0 : Fin 2) rel lr _ (ix2 r k) rfl rfl (ix2 (0 : Fin 1) k) (fun b hb => ?_) ?_
  · match b with
    | ⟨0, _⟩ => exact absurd rfl hb
    | ⟨1, _⟩ => rfl
  · show 0 + 50 = r.val
    omega

/-- The single-precision word of one is the number one. -/
theorem ofBits_one : Ideal.ofBits .f32 0x3F800000#32 = 1 := by
  rw [show (1 : EReal) = ((1 : ℝ) : EReal) by norm_cast]
  simp [Ideal.ofBits, Ideal.ieee, -EReal.coe_mul]; norm_num

/-- The edge types of a half are in range when all are. -/
theorem etIn_lt (et : IVec S640000 32) (h : ∀ i, (et i).toNat < 51) : ∀ i, (etIn et i).toNat < 51 := by
  intro i
  exact h _
theorem etOut_lt (et : IVec S640000 32) (h : ∀ i, (et i).toNat < 51) : ∀ i, (etOut et i).toNat < 51 := by
  intro i
  exact h _

/-- With every edge type in `[0, 51)` the reference's messages are the kernel's, entry by entry. -/
theorem msgR_eq_msgK (x : FVec Ideal S100000x256 .f32) (e : IVec S2x320000 32) (t : IVec S320000 32) (ra : FVec Ideal S51x256 .f32)
    (w : FVec Ideal S256x256 .f32) (ht : ∀ i, (t i).toNat < 51) : msgR x e t ra w = msgK x e t ra w := by
  funext j
  obtain ⟨p, q, rfl⟩ : ∃ (p : Fin 320000) (q : Fin 256), j = ix2 p q := ⟨j 0, j 1, eq_ix2 j⟩
  unfold msgR msgK composeK
  rw [mulf_apply, dot_msg_apply, bcast_rows_apply]
  show _ = (∑ k : Fin 256, (xgOf x e (ix2 p k) * ∑ r : Fin 51, oh (icol t (ix2 p (0 : Fin 1))) r * ra (ix2 r k)) * w (ix2 k q))
    * fcol (normOf e) (ix2 p (0 : Fin 1))
  unfold icol fcol
  rw [col_apply, col_apply]
  congr 1
  refine Finset.sum_congr rfl fun k _ => ?_
  rw [mulf_apply, relOf_apply ra t p k (ht _), sum_oh _ (ht _)]

/-- The self-loop term: relation 50 of the concatenated table is the loop relation, and the normalisation is 1. -/
theorem loopR_eq_loopK (x : FVec Ideal S100000x256 .f32) (rel : FVec Ideal S50x256 .f32) (lr : FVec Ideal S1x256 .f32)
    (wl : FVec Ideal S256x256 .f32) : loopR x lr wl = loopK x (relAll rel lr) wl := by
  funext j
  obtain ⟨p, q, rfl⟩ : ∃ (p : Fin 100000) (q : Fin 256), j = ix2 p q := ⟨j 0, j 1, eq_ix2 j⟩
  unfold loopR loopK composeK
  rw [dot_loop_apply]
  show _ = (∑ k : Fin 256, (x (ix2 p k) * ∑ r : Fin 51, oh 50#32 r * relAll rel lr (ix2 r k)) * wl (ix2 k q))
    * Ideal.ofBits .f32 0x3F800000#32
  rw [ofBits_one, mul_one]
  refine Finset.sum_congr rfl fun k _ => ?_
  rw [mulf_apply, bcast_lr_apply, sum_oh 50#32 (by decide), relAll_last rel lr _ rfl]

end Cert.Hand

end
-- ==== Proof.BridgeScatter.lean ====
import proofs.«407851_j24489903522003_2_alg».proof.Proof.KSpec
import proofs.«407851_j24489903522003_2_alg».proof.Proof.LibReal
import Idealize.ShloMosaic.Lib.Pipeline.Value
import Idealize.ShloMosaic.PureOps.Ideal.Laws

/-! One scatter-add over the concatenation of two edge sets is the sum of the two scatter-adds. -/

noncomputable section

namespace Cert.Hand

open Idealize.ShloMosaic Idealize.ShloMosaic.ValueIdx
open Cert.ReferenceIdeal Cert.ReferenceIdeal.Facts₀

namespace ScatterSplit

/-! ### The row scatter's dimension numbers, for any number of updates -/

/-- The dimension numbers of a scatter of rows: update row e goes to the operand row its one-component start index names,
    the update's second axis is the window along the operand's second axis. -/
abbrev rowScatter (E : Nat)
    (wf : ScatterDims.WF ⟨2, ![100000, 256]⟩ ⟨2, ![E, 1]⟩ ⟨2, ![E, 256]⟩ [1] [0] [0] 1) :
    ScatterDims ⟨2, ![100000, 256]⟩ ⟨2, ![E, 1]⟩ ⟨2, ![E, 256]⟩ where
  updateWindowDims := [1]
  insertedWindowDims := [0]
  scatterDimsToOperandDims := [0]
  indexVectorDim := 1
  wf := wf

section RowScatter
variable {E : Nat} (wf : ScatterDims.WF ⟨2, ![100000, 256]⟩ ⟨2, ![E, 1]⟩ ⟨2, ![E, 256]⟩ [1] [0] [0] 1)

/-- On the row axis the window starts at the update row's start index, read signed. -/
theorem rowScatter_start0 (j : (⟨2, ![E, 256]⟩ : Shape).Idx) (idx : IVec ⟨2, ![E, 1]⟩ 32) :
    (rowScatter E wf).start j idx 0 = (idx (ix2 (n0 := E) (j 0) (0 : Fin 1))).toInt := by
  unfold ScatterDims.start
  rw [dif_pos (show (0 : Fin 2) ∈ (rowScatter E wf).scatterDimsToOperandDims from List.mem_singleton.mpr rfl)]
  have hsi : (rowScatter E wf).siIdx j ⟨List.idxOf (0 : Fin 2) (rowScatter E wf).scatterDimsToOperandDims,
      List.idxOf_lt_length_iff.2 (List.mem_singleton.mpr rfl)⟩ = ix2 (n0 := E) (j 0) (0 : Fin 1) := by
    funext b; refine Fin.ext ?_
    match b with
    | ⟨0, _⟩ => rfl
    | ⟨1, _⟩ => rfl
  rw [hsi]

/-- On the column axis the window starts at zero. -/
theorem rowScatter_start1 (j : (⟨2, ![E, 256]⟩ : Shape).Idx) (idx : IVec ⟨2, ![E, 1]⟩ 32) :
    (rowScatter E wf).start j idx 1 = 0 := by
  unfold ScatterDims.start
  rw [dif_neg (show ¬ (1 : Fin 2) ∈ ([0] : List (Fin 2)) by decide)]

/-- The row axis is inserted: its window coordinate is zero. -/
theorem rowScatter_window0 (j : (⟨2, ![E, 256]⟩ : Shape).Idx) :
    (rowScatter E wf).window j 0 = 0 := by
  unfold ScatterDims.window
  rw [dif_neg (show ¬ (0 : Fin 2) ∈ Shape.kept ⟨2, ![100000, 256]⟩ [0] by decide)]

/-- The column axis carries the update's column. -/
theorem rowScatter_window1 (j : (⟨2, ![E, 256]⟩ : Shape).Idx) :
    (rowScatter E wf).window j 1 = (j 1).val := by
  unfold ScatterDims.window
  rw [dif_pos (show (1 : Fin 2) ∈ Shape.kept ⟨2, ![100000, 256]⟩ [0] by decide)]
  rfl

end RowScatter

/-- Two row scatters (of possibly different numbers of updates) send two updates to the same place when the updates have the
    same column and their rows' start indices are the same word. -/
theorem rowScatter_resultIdx_congr {E E' : Nat}
    (wf : ScatterDims.WF ⟨2, ![100000, 256]⟩ ⟨2, ![E, 1]⟩ ⟨2, ![E, 256]⟩ [1] [0] [0] 1)
    (wf' : ScatterDims.WF ⟨2, ![100000, 256]⟩ ⟨2, ![E', 1]⟩ ⟨2, ![E', 256]⟩ [1] [0] [0] 1)
    (j : (⟨2, ![E, 256]⟩ : Shape).Idx) (j' : (⟨2, ![E', 256]⟩ : Shape).Idx)
    (idx : IVec ⟨2, ![E, 1]⟩ 32) (idx' : IVec ⟨2, ![E', 1]⟩ 32)
    (hq : (j 1).val = (j' 1).val)
    (hs : idx (ix2 (n0 := E) (j 0) (0 : Fin 1)) = idx' (ix2 (n0 := E') (j' 0) (0 : Fin 1))) :
    (rowScatter E wf).resultIdx? j idx = (rowScatter E' wf').resultIdx? j' idx' := by
  have hst : ∀ a, (rowScatter E wf).start j idx a = (rowScatter E' wf').start j' idx' a := by
    intro a
    match a with
    | ⟨0, _⟩ => exact (rowScatter_start0 wf j idx).trans ((congrArg BitVec.toInt hs).trans (rowScatter_start0 wf' j' idx').symm)
    | ⟨1, _⟩ => exact (rowScatter_start1 wf j idx).trans (rowScatter_start1 wf' j' idx').symm
  have hwi : ∀ a, (rowScatter E wf).window j a = (rowScatter E' wf').window j' a := by
    intro a
    match a with
    | ⟨0, _⟩ => exact (rowScatter_window0 wf j).trans (rowScatter_window0 wf' j').symm
    | ⟨1, _⟩ => exact (rowScatter_window1 wf j).trans (hq.trans (rowScatter_window1 wf' j').symm)
  unfold ScatterDims.resultIdx?
  simp only [hst, hwi]

/-- A vector laid out as a one-column array reads the vector's entry of the same row. -/
theorem bcast_col_apply {E : Nat} (hE : E ≠ 1)
    (h : (⟨1, ![E]⟩ : Shape).BroadcastsInDim ⟨2, ![E, 1]⟩ (![0] : Fin 1 → Fin 2))
    (v : IVec ⟨1, ![E]⟩ 32) (p : Fin E) (z : Fin 1) :
    broadcastInDim ⟨2, ![E, 1]⟩ ![0] h v (ix2 p z) = v (ix1 p) := by
  unfold broadcastInDim
  congr 1
  funext a
  obtain rfl : a = 0 := Subsingleton.elim _ _
  rw [dif_neg (show ¬ (⟨1, ![E]⟩ : Shape).size 0 = 1 from hE)]
  rfl

/-- The accumulating scatter at an operand index: the operand's entry plus the sum of the updates that land there. -/
theorem scatterAdd_apply {s si u : Shape} (d : ScatterDims s si u) (x : FVec Ideal s .f32) (idx : IVec si 32)
    (upd : FVec Ideal u .f32) (i : s.Idx) :
    Host.scatterAdd d x idx upd i = x i + ∑ j ∈ Finset.univ.filter (fun j => d.resultIdx? j idx = some i), upd j := rfl

/-! ### The rows of a concatenation of two equal halves -/

/-- Row p of the first half, as a row of the concatenation. -/
def rowLo (p : Fin 320000) : Fin 640000 := ⟨p.val, by omega⟩
/-- Row p of the second half, as a row of the concatenation. -/
def rowHi (p : Fin 320000) : Fin 640000 := ⟨320000 + p.val, by omega⟩

/-- A sum over all entries of the concatenation is the sum over the first half's entries plus the sum over the second
    half's entries. -/
theorem sum_rows_split {M : Type*} [AddCommMonoid M] (f : (⟨2, ![640000, 256]⟩ : Shape).Idx → M) :
    ∑ j, f j = (∑ j : (⟨2, ![320000, 256]⟩ : Shape).Idx, f (ix2 (rowLo (j 0)) (j 1)))
      + ∑ j : (⟨2, ![320000, 256]⟩ : Shape).Idx, f (ix2 (rowHi (j 0)) (j 1)) := by
  rw [sum_idx2, sum_idx2, sum_idx2]
  exact Fin.sum_univ_add (a := 320000) (b := 320000) (fun a => ∑ b : Fin 256, f (ix2 a b))

/-- The same for the entries that satisfy a condition. -/
theorem sum_filter_rows_split {M : Type*} [AddCommMonoid M] (P : (⟨2, ![640000, 256]⟩ : Shape).Idx → Prop) [DecidablePred P]
    (f : (⟨2, ![640000, 256]⟩ : Shape).Idx → M) :
    ∑ j ∈ Finset.univ.filter P, f j
      = (∑ j ∈ Finset.univ.filter (fun j : (⟨2, ![320000, 256]⟩ : Shape).Idx => P (ix2 (rowLo (j 0)) (j 1))), f (ix2 (rowLo (j 0)) (j 1)))
      + ∑ j ∈ Finset.univ.filter (fun j : (⟨2, ![320000, 256]⟩ : Shape).Idx => P (ix2 (rowHi (j 0)) (j 1))), f (ix2 (rowHi (j 0)) (j 1)) := by
  rw [Finset.sum_filter, Finset.sum_filter, Finset.sum_filter]
  exact sum_rows_split (fun j => if P j then f j else 0)

/-! ### The two printed scatters are row scatters -/

/-- The scatter over the concatenation is the row scatter of 640000 updates. -/
theorem scatter640_eq : Cert.KernelIdeal.scatter_S100000x256_S640000x1_S640000x256_1_0_0_1
    = rowScatter 640000 Cert.KernelIdeal.scatter_S100000x256_S640000x1_S640000x256_1_0_0_1.wf := rfl

/-- A half's scatter is the row scatter of 320000 updates. -/
theorem scatter320_eq : scatter_S100000x256_S320000x1_S320000x256_1_0_0_1
    = rowScatter 320000 scatter_S100000x256_S320000x1_S320000x256_1_0_0_1.wf := rfl

/-- An update of the first half lands, in the scatter over the concatenation, where it lands in the first half's scatter. -/
theorem land_lo (tIn tOut : IVec S320000 32) (j : (⟨2, ![320000, 256]⟩ : Shape).Idx) :
    Cert.KernelIdeal.scatter_S100000x256_S640000x1_S640000x256_1_0_0_1.resultIdx? (ix2 (rowLo (j 0)) (j 1))
      (broadcastInDim Cert.KernelIdeal.S640000x1 ![0] Cert.KernelIdeal.Facts₀.bcast_S640000_S640000x1_0
        (concatenate Cert.KernelIdeal.S640000 0 [⟨S320000, tIn⟩, ⟨S320000, tOut⟩] Cert.KernelIdeal.Facts₀.concatenates_S320000_S320000_S640000_d0))
    = scatter_S100000x256_S320000x1_S320000x256_1_0_0_1.resultIdx? j
      (broadcastInDim S320000x1 ![0] bcast_S320000_S320000x1_0 tIn) := by
  rw [scatter640_eq, scatter320_eq]
  refine rowScatter_resultIdx_congr _ _ _ _ _ _ rfl ?_
  refine (bcast_col_apply (E := 640000) (by decide) _ _ (rowLo (j 0)) 0).trans ?_
  refine Eq.trans ?_ (bcast_col_apply (E := 320000) (by decide) _ tIn (j 0) 0).symm
  exact concatenate_pair_apply_left (t := Cert.KernelIdeal.S640000) (s₁ := S320000) (s₂ := S320000) 0 tIn tOut _
    (ix1 (rowLo (j 0))) rfl (ix1 (j 0)) (fun b => by match b with | ⟨0, _⟩ => rfl)

/-- An update of the second half lands, in the scatter over the concatenation, where it lands in the second half's scatter. -/
theorem land_hi (tIn tOut : IVec S320000 32) (j : (⟨2, ![320000, 256]⟩ : Shape).Idx) :
    Cert.KernelIdeal.scatter_S100000x256_S640000x1_S640000x256_1_0_0_1.resultIdx? (ix2 (rowHi (j 0)) (j 1))
      (broadcastInDim Cert.KernelIdeal.S640000x1 ![0] Cert.KernelIdeal.Facts₀.bcast_S640000_S640000x1_0
        (concatenate Cert.KernelIdeal.S640000 0 [⟨S320000, tIn⟩, ⟨S320000, tOut⟩] Cert.KernelIdeal.Facts₀.concatenates_S320000_S320000_S640000_d0))
    = scatter_S100000x256_S320000x1_S320000x256_1_0_0_1.resultIdx? j
      (broadcastInDim S320000x1 ![0] bcast_S320000_S320000x1_0 tOut) := by
  rw [scatter640_eq, scatter320_eq]
  refine rowScatter_resultIdx_congr _ _ _ _ _ _ rfl ?_
  refine (bcast_col_apply (E := 640000) (by decide) _ _ (rowHi (j 0)) 0).trans ?_
  refine Eq.trans ?_ (bcast_col_apply (E := 320000) (by decide) _ tOut (j 0) 0).symm
  exact concatenate_pair_apply_right (t := Cert.KernelIdeal.S640000) (s₁ := S320000) (s₂ := S320000) 0 tIn tOut _
    (ix1 (rowHi (j 0))) rfl rfl (ix1 (j 0))
    (fun b hb => by match b with | ⟨0, _⟩ => exact absurd rfl hb)
    (by show (j 0).val + 320000 = 320000 + (j 0).val; omega)

/-- The concatenated messages at a row of the first half are the first half's. -/
theorem cat_lo (mi mo : FVec Ideal S320000x256 .f32) (j : (⟨2, ![320000, 256]⟩ : Shape).Idx) :
    concatenate Cert.KernelIdeal.S640000x256 0 [⟨S320000x256, mi⟩, ⟨S320000x256, mo⟩]
      Cert.KernelIdeal.Facts₀.concatenates_S320000x256_S320000x256_S640000x256_d0 (ix2 (rowLo (j 0)) (j 1)) = mi j :=
  concatenate_pair_apply_left (t := Cert.KernelIdeal.S640000x256) (s₁ := S320000x256) (s₂ := S320000x256) 0 mi mo _
    (ix2 (rowLo (j 0)) (j 1)) rfl j (fun b => by match b with | ⟨0, _⟩ => rfl | ⟨1, _⟩ => rfl)

/-- The concatenated messages at a row of the second half are the second half's. -/
theorem cat_hi (mi mo : FVec Ideal S320000x256 .f32) (j : (⟨2, ![320000, 256]⟩ : Shape).Idx) :
    concatenate Cert.KernelIdeal.S640000x256 0 [⟨S320000x256, mi⟩, ⟨S320000x256, mo⟩]
      Cert.KernelIdeal.Facts₀.concatenates_S320000x256_S320000x256_S640000x256_d0 (ix2 (rowHi (j 0)) (j 1)) = mo j :=
  concatenate_pair_apply_right (t := Cert.KernelIdeal.S640000x256) (s₁ := S320000x256) (s₂ := S320000x256) 0 mi mo _
    (ix2 (rowHi (j 0)) (j 1)) rfl rfl j
    (fun b hb => by match b with | ⟨0, _⟩ => exact absurd rfl hb | ⟨1, _⟩ => rfl)
    (by show (j 0).val + 320000 = 320000 + (j 0).val; omega)

end ScatterSplit

open ScatterSplit in
/-- Scattering the concatenated messages at the concatenated targets adds up, at each node, the first half's and the second
    half's contributions: addition of extended reals is commutative and associative, so no finiteness is needed. -/
theorem agg_split (mi mo : FVec Ideal S320000x256 .f32) (tIn tOut : IVec S320000 32) :
    aggK mi mo tIn tOut = addf (scat1 tIn mi) (scat1 tOut mo) := by
  funext i
  rw [addf_apply]
  unfold aggK scat1
  rw [scatterAdd_apply, scatterAdd_apply, scatterAdd_apply]
  have hz : broadcastInDim S100000x256 ![] bcast_S_S100000x256 (constant (F := Ideal) S_ .f32 0x00000000#32) i = 0 :=
    Ideal.ofBits_zero_f32
  rw [hz, zero_add, zero_add, zero_add, sum_filter_rows_split]
  refine congrArg₂ (· + ·) ?_ ?_
  · exact Finset.sum_congr (Finset.filter_congr fun j _ => by rw [land_lo]) (fun j _ => cat_lo mi mo j)
  · exact Finset.sum_congr (Finset.filter_congr fun j _ => by rw [land_hi]) (fun j _ => cat_hi mi mo j)

end Cert.Hand

end
-- ==== Proof.BridgeBN.lean ====
import proofs.«407851_j24489903522003_2_alg».proof.Proof.KSpec
import proofs.«407851_j24489903522003_2_alg».proof.Proof.LibReal
import Idealize.ShloMosaic.PureOps.Ideal.Laws
import Idealize.ShloMosaic.Lib.Pipeline.Value
import Idealize.ShloMosaic.Lib.ValueLayout

/-! Batch normalisation: on an array of real numbers the mean of the squared deviations is the mean of the squares minus the squared mean, and the reference's reductions are the plain column sums. -/

noncomputable section

namespace Cert.Hand

open Idealize.ShloMosaic Idealize.ShloMosaic.ValueIdx
open Cert.ReferenceIdeal Cert.ReferenceIdeal.Facts₀

/-! ## The reference's layout operations and reductions read at an index -/

/-- A scalar laid out over any shape reads the scalar everywhere. -/
theorem bcS_apply {T : Shape} {α : Type} (h : S_.BroadcastsInDim T ![]) (x : S_.Idx → α) (j : T.Idx) :
    broadcastInDim T ![] h x j = x ix0 := by
  unfold broadcastInDim; exact congrArg x (funext fun a => a.elim0)

/-- A vector of 256 entries as a one-row array reads its entry at the column. -/
theorem row_apply (v : FVec Ideal S256 .f32) (d : Fin 256) :
    broadcastInDim S1x256 ![1] bcast_S256_S1x256_1 v (ix2 (0 : Fin 1) d) = v (ix1 d) := by
  refine broadcastInDim_apply ![1] bcast_S256_S1x256_1 v (ix2 (0 : Fin 1) d) (ix1 d) ?_
  intro a
  match a with
  | ⟨0, _⟩ => rfl

/-- A one-row array laid out over all rows reads the row's entry at the column. -/
theorem rows_apply (y : FVec Ideal S1x256 .f32) (n : Fin 100000) (d : Fin 256) :
    broadcastInDim S100000x256 ![0, 1] bcast_S1x256_S100000x256_0_1 y (ix2 n d) = y (ix2 (0 : Fin 1) d) := by
  refine broadcastInDim_apply ![0, 1] bcast_S1x256_S100000x256_0_1 y (ix2 n d) (ix2 (0 : Fin 1) d) ?_
  intro a
  match a with
  | ⟨0, _⟩ => rfl
  | ⟨1, _⟩ => rfl

/-- A vector of 256 column values laid out over all rows reads the column's value. -/
theorem overRows_apply (v : FVec Ideal S256 .f32) (n : Fin 100000) (d : Fin 256) :
    overRows v (ix2 n d) = v (ix1 d) := by
  unfold overRows
  rw [rows_apply, row_apply]

/-- The array of 100000 rows reduces along its rows to a vector of 256 entries. -/
theorem red_S : S100000x256.Reduces [0] S256 := by decide

/-- The index over column `d` with row `n` inserted is `(n, d)`. -/
theorem lift_eq (d : Fin 256) (n : Fin 100000) : red_S.lift (ix1 d) n = ix2 n d := by
  funext c
  match c with
  | ⟨0, _⟩ => rfl
  | ⟨1, _⟩ => rfl

/-- The reference's sum over the rows from the zero constant is the plain column sum. -/
theorem sumR_apply (f : FVec Ideal S100000x256 .f32) (d : Fin 256) :
    Host.reduceAdd f (constant S_ .f32 0x00000000#32) reducesTo_S100000x256_S256_d0 h_S_ (ix1 d) = colsum f d := by
  show Ideal.hostReduceAdd reducesTo_S100000x256_S256_d0 f (Ideal.ofBits .f32 0x00000000#32) (ix1 d) = _
  rw [Ideal.hostReduceAdd_single reducesTo_S100000x256_S256_d0 red_S, Ideal.ofBits_zero_f32, zero_add]
  unfold colsum
  exact Finset.sum_congr rfl fun n _ => congrArg f (lift_eq d n)

/-! ## The constants -/

/-- The row count is the real number 100000. -/
theorem cN_eq : cN = ((100000 : ℝ) : EReal) := by
  unfold cN
  simp [Ideal.ofBits, Ideal.ieee, -EReal.coe_mul]; norm_num

/-! ## The variance identity over the reals -/

/-- The mean of the squared deviations from the mean is the mean of the squares minus the squared mean. -/
theorem var_real (N : ℕ) (hN : (N : ℝ) ≠ 0) (f : Fin N → ℝ) :
    (∑ n, (f n - (∑ m, f m) * (1 / (N : ℝ))) * (f n - (∑ m, f m) * (1 / (N : ℝ)))) * (1 / (N : ℝ))
      = (∑ n, f n * f n) * (1 / (N : ℝ)) - ((∑ m, f m) * (1 / (N : ℝ))) * ((∑ m, f m) * (1 / (N : ℝ))) := by
  generalize hS : (∑ m, f m) = S
  have hexp : ∀ n, (f n - S * (1 / (N : ℝ))) * (f n - S * (1 / (N : ℝ)))
      = f n * f n - 2 * (S * (1 / (N : ℝ))) * f n + (S * (1 / (N : ℝ))) * (S * (1 / (N : ℝ))) := fun n => by ring
  simp_rw [hexp]
  rw [Finset.sum_add_distrib, Finset.sum_sub_distrib, ← Finset.mul_sum, hS, Finset.sum_const, Finset.card_univ,
    Fintype.card_fin, nsmul_eq_mul]
  field_simp
  ring

/-- The extended-real sum of real numbers is the real sum. -/
theorem coe_sum {ι : Type} (s : Finset ι) (g : ι → ℝ) : (∑ n ∈ s, ((g n : ℝ) : EReal)) = ((∑ n ∈ s, g n : ℝ) : EReal) := by
  classical
  induction s using Finset.induction_on with
  | empty => simp
  | insert a s ha ih => rw [Finset.sum_insert ha, Finset.sum_insert ha, ih, EReal.coe_add]

/-! ## The reference's statistics read at a column -/

/-- The host's quotient at an index is the division of the entries. -/
theorem hdiv_apply {s : Shape} (a b : FVec Ideal s .f32) (i : s.Idx) : Host.divf a b i = Ideal.div (a i) (b i) := rfl

/-- The reference's column mean is the column sum divided by the row count. -/
theorem meanR_apply (o : FVec Ideal S100000x256 .f32) (d : Fin 256) : meanR o (ix1 d) = meanK o d := by
  unfold meanR meanK
  rw [hdiv_apply, sumR_apply, bcS_apply]
  rfl

/-- The count the variance divides by, `100000 - 0`, is the row count. -/
theorem cnt_eq : subf (constant (F := Ideal) S_ .f32 0x47C35000#32) (sitofp .f32 (constantI S_ 32 0#32)) ix0 = cN := by
  show Ideal.ofBits .f32 0x47C35000#32 - (((0#32 : BitVec 32).toInt : ℝ) : EReal) = cN
  unfold cN
  simp

/-- The guard `100000 - 0 > 0` holds. -/
theorem guard_eq :
    cmpf .ogt (subf (constant (F := Ideal) S_ .f32 0x47C35000#32) (sitofp .f32 (constantI S_ 32 0#32)))
      (constant (F := Ideal) S_ .f32 0x00000000#32) ix0 = 1#1 := by
  rw [cmpf_apply, cnt_eq]
  show Ideal.cmp .ogt cN (Ideal.ofBits .f32 0x00000000#32) = 1#1
  rw [Ideal.ofBits_zero_f32, cN_eq]
  have h : (0 : EReal) < ((100000 : ℝ) : EReal) := by exact_mod_cast (by norm_num : (0 : ℝ) < 100000)
  simp [Ideal.cmp, h]

/-- The variance's own copy of the column mean, laid out over all rows, reads the column mean. -/
theorem meanRows_apply (o : FVec Ideal S100000x256 .f32) (n : Fin 100000) (d : Fin 256) :
    broadcastInDim S100000x256 ![0, 1] bcast_S1x256_S100000x256_0_1
      (Host.divf (broadcastInDim S1x256 ![1] bcast_S256_S1x256_1
          (Host.reduceAdd o (constant S_ .f32 0x00000000#32) reducesTo_S100000x256_S256_d0 h_S_))
        (broadcastInDim S1x256 ![] bcast_S_S1x256 (constant S_ .f32 0x47C35000#32))) (ix2 n d) = meanK o d := by
  rw [rows_apply, hdiv_apply, row_apply, sumR_apply, bcS_apply]
  rfl

/-- The reference's column variance is the column sum of the squared deviations divided by the row count. -/
theorem varR_apply (o : FVec Ideal S100000x256 .f32) (d : Fin 256) :
    varR o (ix1 d) = Ideal.div (colsum (fun i => (o i - meanK o (i 1)) * (o i - meanK o (i 1))) d) cN := by
  have hg : broadcastInDim S256 ![] bcast_S_S256
      (cmpf .ogt (subf (constant (F := Ideal) S_ .f32 0x47C35000#32) (sitofp .f32 (constantI S_ 32 0#32)))
        (constant (F := Ideal) S_ .f32 0x00000000#32)) (ix1 d) = 1#1 := by
    rw [bcS_apply]; exact guard_eq
  unfold varR
  beta_reduce
  rw [select_apply, hg, select_one, hdiv_apply, sumR_apply, bcS_apply, cnt_eq]
  refine congrArg (fun x => Ideal.div x cN) ?_
  unfold colsum
  refine Finset.sum_congr rfl fun n _ => ?_
  show (o (ix2 n d) - _) * (o (ix2 n d) - _) = (o (ix2 n d) - meanK o d) * (o (ix2 n d) - meanK o d)
  rw [meanRows_apply]

/-! ## The two variances on an array of reals -/

/-- On a column of reals the mean of the squared deviations is the mean of the squares minus the squared mean. -/
theorem var_core (o : FVec Ideal S100000x256 .f32) (ho : AllReal o) (d : Fin 256) :
    Ideal.div (colsum (fun i => (o i - meanK o (i 1)) * (o i - meanK o (i 1))) d) cN = varK o d := by
  choose r hr using ho
  have hN : (100000 : ℝ) ≠ 0 := by norm_num
  have hsum : colsum o d = ((∑ n : Fin 100000, r (ix2 n d) : ℝ) : EReal) := by
    unfold colsum
    rw [← coe_sum]
    exact Finset.sum_congr rfl fun n _ => hr _
  have hmean : meanK o d = (((∑ n : Fin 100000, r (ix2 n d)) * (1 / (100000 : ℝ)) : ℝ) : EReal) := by
    unfold meanK
    rw [hsum, cN_eq, Ideal.div_coe hN, ← EReal.coe_mul]
  have hsq : colsum (fun i => o i * o i) d = ((∑ n : Fin 100000, r (ix2 n d) * r (ix2 n d) : ℝ) : EReal) := by
    unfold colsum
    rw [← coe_sum]
    refine Finset.sum_congr rfl fun n _ => ?_
    show o (ix2 n d) * o (ix2 n d) = _
    rw [hr, ← EReal.coe_mul]
  have hdev : colsum (fun i => (o i - meanK o (i 1)) * (o i - meanK o (i 1))) d
      = ((∑ n : Fin 100000, (r (ix2 n d) - (∑ m : Fin 100000, r (ix2 m d)) * (1 / (100000 : ℝ)))
          * (r (ix2 n d) - (∑ m : Fin 100000, r (ix2 m d)) * (1 / (100000 : ℝ))) : ℝ) : EReal) := by
    unfold colsum
    rw [← coe_sum]
    refine Finset.sum_congr rfl fun n _ => ?_
    show (o (ix2 n d) - meanK o d) * (o (ix2 n d) - meanK o d) = _
    rw [hmean, hr, ← EReal.coe_sub, ← EReal.coe_mul]
  have hreal := var_real 100000 (by norm_num) (fun n => r (ix2 n d))
  simp only [Nat.cast_ofNat] at hreal
  unfold varK
  rw [hdev, hsq, hmean, cN_eq, Ideal.div_coe hN, Ideal.div_coe hN, ← EReal.coe_mul, ← EReal.coe_mul, ← EReal.coe_mul,
    ← EReal.coe_sub, hreal]

/-- The average of the three terms, entry by entry. -/
theorem avgR_eq (a b l : FVec Ideal S100000x256 .f32) : avgR a b l = oK (addf a b) l := by
  funext i
  rw [avgR, mulf_apply, addf_apply, bcS_apply]
  rfl

/-- On an array of reals the two normalisations agree. -/
theorem bnR_eq_bnK (o : FVec Ideal S100000x256 .f32) (bw bb : FVec Ideal S256 .f32) (ho : AllReal o) :
    bnR o bw bb = bnK o bw bb := by
  funext i
  obtain ⟨n, d, rfl⟩ : ∃ (n : Fin 100000) (d : Fin 256), i = ix2 n d := ⟨i 0, i 1, eq_ix2 i⟩
  unfold bnR
  rw [addf_apply, mulf_apply, mulf_apply, subf_apply, overRows_apply, overRows_apply, overRows_apply, overRows_apply,
    meanR_apply]
  show ((o (ix2 n d) - meanK o d) * Ideal.rsqrt (varR o (ix1 d) + cEps)) * bw (ix1 d) + bb (ix1 d)
    = ((o (ix2 n d) - meanK o d) * Ideal.rsqrt (varK o d + cEps)) * bw (ix1 d) + bb (ix1 d)
  rw [varR_apply, var_core o ho d]

end Cert.Hand

end
-- ==== Proof.BridgeReal.lean ====
import proofs.«407851_j24489903522003_2_alg».proof.Proof.KSpec
import proofs.«407851_j24489903522003_2_alg».proof.Proof.LibReal

/-! With finite float inputs the averaged output is an array of real numbers: degrees are finite counts, their inverse square roots are real, gathers pick entries of real arrays, and finite sums and products of reals are real. -/

noncomputable section

namespace Cert.Hand

open Idealize.ShloMosaic Idealize.ShloMosaic.ValueIdx
open Cert.ReferenceIdeal Cert.ReferenceIdeal.Facts₀

/-! ### Real numbers among the extended reals are closed under the ring operations and finite sums -/

/-- A real number is real. -/
private theorem real_coe (r : ℝ) : ∃ s : ℝ, (r : EReal) = (s : EReal) := ⟨r, rfl⟩
/-- Zero is real. -/
private theorem real_zero : ∃ r : ℝ, (0 : EReal) = (r : EReal) := ⟨0, rfl⟩
/-- One is real. -/
private theorem real_one : ∃ r : ℝ, (1 : EReal) = (r : EReal) := ⟨1, rfl⟩
/-- A sum of two reals is real. -/
private theorem real_add {a b : EReal} (ha : ∃ r : ℝ, a = (r : EReal)) (hb : ∃ r : ℝ, b = (r : EReal)) :
    ∃ r : ℝ, a + b = (r : EReal) := by
  obtain ⟨ra, rfl⟩ := ha
  obtain ⟨rb, rfl⟩ := hb
  exact ⟨ra + rb, (EReal.coe_add ra rb).symm⟩
/-- A product of two reals is real. -/
private theorem real_mul {a b : EReal} (ha : ∃ r : ℝ, a = (r : EReal)) (hb : ∃ r : ℝ, b = (r : EReal)) :
    ∃ r : ℝ, a * b = (r : EReal) := by
  obtain ⟨ra, rfl⟩ := ha
  obtain ⟨rb, rfl⟩ := hb
  exact ⟨ra * rb, (EReal.coe_mul ra rb).symm⟩
/-- A finite sum of reals is real. -/
private theorem real_sum {ι : Type} (s : Finset ι) (f : ι → EReal) (h : ∀ i ∈ s, ∃ r : ℝ, f i = (r : EReal)) :
    ∃ r : ℝ, ∑ i ∈ s, f i = (r : EReal) :=
  Finset.sum_induction f (fun v => ∃ r : ℝ, v = (r : EReal)) (fun _ _ ha hb => real_add ha hb) real_zero h
/-- A real base to a real exponent is real. -/
private theorem real_pow {a b : EReal} (ha : ∃ r : ℝ, a = (r : EReal)) (hb : ∃ r : ℝ, b = (r : EReal)) :
    ∃ r : ℝ, Ideal.pow a b = (r : EReal) := by
  obtain ⟨ra, rfl⟩ := ha
  obtain ⟨rb, rfl⟩ := hb
  exact ⟨Real.rpow ra rb, rfl⟩

/-! ### Bit patterns with a finite exponent field denote real numbers -/

/-- A pattern whose exponent field is not all ones denotes a real number. -/
private theorem real_ieee (e m : Nat) {w : Nat} (b : BitVec w) (h : (b.extractLsb' m e).toNat ≠ 2 ^ e - 1) :
    ∃ r : ℝ, Ideal.ieee e m b = (r : EReal) := by
  unfold Ideal.ieee
  simp only [if_neg h]
  split_ifs <;> exact ⟨_, rfl⟩
/-- A single-precision pattern whose exponent field is not 255 denotes a real number. -/
private theorem real_ofBits_f32 (b : BitVec 32) (h : (b.extractLsb' 23 8).toNat ≠ 255) :
    ∃ r : ℝ, Ideal.ofBits .f32 b = (r : EReal) := real_ieee 8 23 b h

/-! ### Operations that only re-index an array keep it real -/

/-- A broadcast reads entries of its operand. -/
private theorem real_broadcastInDim {s t : Shape} (dims : Fin s.rank → Fin t.rank) (h : s.BroadcastsInDim t dims)
    (x : s.Idx → EReal) (hx : AllReal x) : AllReal (broadcastInDim t dims h x) := fun j => hx _
/-- A reshape reads entries of its operand. -/
private theorem real_shapeCast {s t : Shape} (x : s.Idx → EReal) (h : s.ShapeCasts t) (hx : AllReal x) :
    AllReal (shapeCast t x h) := fun j => hx _
/-- A gather reads entries of its operand. -/
private theorem real_gather {s si t : Shape} {w : Nat} (d : GatherDims s si t) (x : s.Idx → EReal) (idx : IVec si w)
    (hx : AllReal x) : AllReal (Host.gather d x idx) := fun j => hx _
/-- An entry of a concatenation is an entry of one of its parts. -/
private theorem real_concatenate {t : Shape} (a : Fin t.rank) (xs : List ((s : Shape) × (s.Idx → EReal)))
    (h : Shape.Concatenates (xs.map (·.1)) t a) (hx : ∀ p ∈ xs, AllReal p.2) : AllReal (concatenate t a xs h) := by
  intro j
  unfold concatenate
  exact hx _ (List.getElem_mem _) _
/-- A splat of a pattern with a finite exponent field is real. -/
private theorem real_constant (s : Shape) (b : BitVec 32) (h : (b.extractLsb' 23 8).toNat ≠ 255) :
    AllReal (constant (F := Ideal) s .f32 b) := fun _ => real_ofBits_f32 b h
/-- A select between two real arrays is real. -/
private theorem real_select {s : Shape} (c : IVec s 1) (a b : s.Idx → EReal) (ha : AllReal a) (hb : AllReal b) :
    AllReal (select c a b) := by
  intro i
  show ∃ r : ℝ, (if c i = 1 then a i else b i) = (r : EReal)
  split_ifs
  · exact ha i
  · exact hb i
/-- An entrywise product of two real arrays is real. -/
private theorem real_mulf {s : Shape} (a b : FVec Ideal s .f32) (ha : AllReal a) (hb : AllReal b) : AllReal (mulf a b) :=
  fun i => real_mul (ha i) (hb i)
/-- An entrywise power of a real array to a real array is real. -/
private theorem real_hostPowf {s : Shape} (a b : FVec Ideal s .f32) (ha : AllReal a) (hb : AllReal b) :
    AllReal (Host.powf a b) := fun i => real_pow (ha i) (hb i)
/-- Real updates summed onto a real array give a real array. -/
private theorem real_scatterAdd {s si u : Shape} {w : Nat} (d : ScatterDims s si u) (x : FVec Ideal s .f32) (idx : IVec si w)
    (upd : FVec Ideal u .f32) (hx : AllReal x) (hu : AllReal upd) : AllReal (Host.scatterAdd d x idx upd) := by
  intro i
  show ∃ r : ℝ, x i + ∑ j ∈ Finset.univ.filter (fun j => d.resultIdx? j idx = some i), upd j = (r : EReal)
  exact real_add (hx i) (real_sum _ _ fun j _ => hu j)

/-! ### The stages of the kernel-form output -/

/-- The relation table with the self-loop row appended is real. -/
private theorem real_relAll (rel : FVec Ideal S50x256 .f32) (lr : FVec Ideal S1x256 .f32) (hrel : AllReal rel) (hlr : AllReal lr) :
    AllReal (relAll rel lr) := by
  unfold relAll
  refine real_concatenate _ _ _ ?_
  intro p hp
  simp only [List.mem_cons, List.mem_nil_iff, or_false] at hp
  rcases hp with rfl | rfl
  · exact hrel
  · exact hlr
/-- The degree of each node, a finite count, is real. -/
private theorem real_degOf (row : IVec S320000 32) : AllReal (degOf row) := by
  unfold degOf
  exact real_scatterAdd _ _ _ _ (real_broadcastInDim _ _ _ (real_constant _ _ (by decide)))
    (real_broadcastInDim _ _ _ (real_constant _ _ (by decide)))
/-- The inverse square root of the degree (zero where the degree is not positive) is real. -/
private theorem real_degInv (row : IVec S320000 32) : AllReal (degInv row) := by
  unfold degInv
  exact real_select _ _ _
    (real_hostPowf _ _ (real_degOf row) (real_broadcastInDim _ _ _ (real_constant _ _ (by decide))))
    (real_broadcastInDim _ _ _ (real_constant _ _ (by decide)))
/-- The symmetric normalisation of each edge is real. -/
private theorem real_normOf (e : IVec S2x320000 32) : AllReal (normOf e) := by
  unfold normOf
  exact real_mulf _ _ (real_gather _ _ _ (real_degInv _)) (real_gather _ _ _ (real_degInv _))
/-- The gathered source rows of a real feature array are real. -/
private theorem real_xgOf (x : FVec Ideal S100000x256 .f32) (e : IVec S2x320000 32) (hx : AllReal x) : AllReal (xgOf x e) := by
  unfold xgOf
  exact real_gather _ _ _ hx
/-- The relation indicator is zero or one. -/
private theorem real_oh (t : BitVec 32) (r : Fin 51) : ∃ s : ℝ, oh t r = (s : EReal) := by
  unfold oh
  split_ifs
  · exact real_one
  · exact real_zero
/-- Messages written entry by entry from real arrays are real: finite sums of products. -/
private theorem real_composeK {n : Nat} (xg : (⟨2, ![n, 256]⟩ : Shape).Idx → EReal) (t : (⟨2, ![n, 1]⟩ : Shape).Idx → BitVec 32)
    (ra : (⟨2, ![51, 256]⟩ : Shape).Idx → EReal) (w : (⟨2, ![256, 256]⟩ : Shape).Idx → EReal)
    (nrm : (⟨2, ![n, 1]⟩ : Shape).Idx → EReal) (hxg : AllReal xg) (hra : AllReal ra) (hw : AllReal w) (hn : AllReal nrm) :
    AllReal (composeK xg t ra w nrm) := by
  intro j
  unfold composeK
  exact real_mul (real_sum _ _ fun k _ =>
    real_mul (real_mul (hxg _) (real_sum _ _ fun r _ => real_mul (real_oh _ _) (hra _))) (hw _)) (hn _)
/-- A direction's messages in kernel form are real. -/
private theorem real_msgK (x : FVec Ideal S100000x256 .f32) (e : IVec S2x320000 32) (t : IVec S320000 32) (ra : FVec Ideal S51x256 .f32)
    (w : FVec Ideal S256x256 .f32) (hx : AllReal x) (hra : AllReal ra) (hw : AllReal w) : AllReal (msgK x e t ra w) := by
  unfold msgK
  exact real_composeK _ _ _ _ _ (real_xgOf x e hx) hra hw (real_shapeCast _ _ (real_normOf e))
/-- The self-loop term in kernel form is real. -/
private theorem real_loopK (x : FVec Ideal S100000x256 .f32) (ra : FVec Ideal S51x256 .f32) (wl : FVec Ideal S256x256 .f32)
    (hx : AllReal x) (hra : AllReal ra) (hw : AllReal wl) : AllReal (loopK x ra wl) := by
  unfold loopK
  exact real_composeK _ _ _ _ _ hx hra hw (real_broadcastInDim _ _ _ (real_constant _ _ (by decide)))
/-- Both directions' real messages summed onto their target nodes are real. -/
private theorem real_aggK (mi mo : FVec Ideal S320000x256 .f32) (tIn tOut : IVec S320000 32) (hmi : AllReal mi) (hmo : AllReal mo) :
    AllReal (aggK mi mo tIn tOut) := by
  unfold aggK
  refine real_scatterAdd _ _ _ _ (real_broadcastInDim _ _ _ (real_constant _ _ (by decide))) (real_concatenate _ _ _ ?_)
  intro p hp
  simp only [List.mem_cons, List.mem_nil_iff, or_false] at hp
  rcases hp with rfl | rfl
  · exact hmi
  · exact hmo
/-- The single-precision third is real. -/
private theorem real_c3 : ∃ r : ℝ, c3 = (r : EReal) := real_ofBits_f32 _ (by decide)

/-- The kernel-form averaged output is real entry by entry when the float inputs are. -/
theorem oKof_real (x : FVec Ideal S100000x256 .f32) (ei : IVec S2x640000 32) (et : IVec S640000 32) (rel : FVec Ideal S50x256 .f32)
    (wl wi wo : FVec Ideal S256x256 .f32) (lr : FVec Ideal S1x256 .f32)
    (hx : AllReal x) (hrel : AllReal rel) (hwl : AllReal wl) (hwi : AllReal wi) (hwo : AllReal wo) (hlr : AllReal lr) :
    AllReal (oKof x ei et rel wl wi wo lr) := by
  have hra : AllReal (relAll rel lr) := real_relAll rel lr hrel hlr
  intro i
  unfold oKof oK
  exact real_mul (real_add
    (real_aggK _ _ _ _ (real_msgK _ _ _ _ _ hx hra hwi) (real_msgK _ _ _ _ _ hx hra hwo) i)
    (real_loopK _ _ _ hx hra hwl i)) real_c3

end Cert.Hand

end
-- ==== Proof.Bridge.lean ====
import proofs.«407851_j24489903522003_2_alg».proof.Proof.BridgeMsg
import proofs.«407851_j24489903522003_2_alg».proof.Proof.BridgeScatter
import proofs.«407851_j24489903522003_2_alg».proof.Proof.BridgeBN
import proofs.«407851_j24489903522003_2_alg».proof.Proof.BridgeReal

/-! The two programs' first results are one function of the arguments. -/

noncomputable section

namespace Cert.Hand

open Idealize.ShloMosaic Idealize.ShloMosaic.ValueIdx
open Cert.ReferenceIdeal Cert.ReferenceIdeal.Facts₀

/-- The reference's averaged output in the kernel's form. -/
theorem oR_eq_oKof (x : FVec Ideal S100000x256 .f32) (ei : IVec S2x640000 32) (et : IVec S640000 32) (rel : FVec Ideal S50x256 .f32)
    (wl wi wo : FVec Ideal S256x256 .f32) (lr : FVec Ideal S1x256 .f32) (het : ∀ i, (et i).toNat < 51) :
    oR x ei et rel wl wi wo lr = oKof x ei et rel wl wi wo lr := by
  unfold oR oKof resR
  rw [avgR_eq, msgR_eq_msgK _ _ _ _ _ (etIn_lt et het), msgR_eq_msgK _ _ _ _ _ (etOut_lt et het), loopR_eq_loopK x rel lr wl,
    agg_split]

/-- With finite float inputs and edge types in range, the kernel program's first result is the reference's. -/
theorem bridge (x : FVec Ideal S100000x256 .f32) (ei : IVec S2x640000 32) (et : IVec S640000 32) (rel : FVec Ideal S50x256 .f32)
    (wl wi wo : FVec Ideal S256x256 .f32) (lr : FVec Ideal S1x256 .f32) (bw bb : FVec Ideal S256 .f32)
    (hx : AllReal x) (hrel : AllReal rel) (hwl : AllReal wl) (hwi : AllReal wi) (hwo : AllReal wo) (hlr : AllReal lr)
    (het : ∀ i, (et i).toNat < 51) :
    kout0 x ei et rel wl wi wo lr bw bb = out0 x ei et rel wl wi wo lr bw bb := by
  unfold kout0 out0
  rw [oR_eq_oKof x ei et rel wl wi wo lr het]
  exact (bnR_eq_bnK _ bw bb (oKof_real x ei et rel wl wi wo lr hx hrel hwl hwi hwo hlr)).symm

end Cert.Hand

end
-- ==== Proof.PreDecode.lean ====
import proofs.«407851_j24489903522003_2_alg».proof.Pre_finite_inputs
import proofs.«407851_j24489903522003_2_alg».proof.Proof.Gen.Pre_finite_inputs
import proofs.«407851_j24489903522003_2_alg».proof.Proof.LibReal
import Idealize.ShloMosaic.Lib.ReduceAll
import Idealize.ShloMosaic.Lib.StableHlo.Predicate
import Idealize.ShloMosaic.Lib.ValueIdx

/-! The printed precondition, decoded: every float argument is an array of reals, and every edge type is a row number of the
    51-row relation table. -/

noncomputable section

namespace Cert.Hand

open Idealize.ShloMosaic Idealize.ShloMosaic.ValueIdx
open Cert.Pre_finite_inputs

/-- The scalar shape has one index. -/
local instance subsingleton_scalar_idx : Subsingleton S_.Idx := ⟨fun a b => funext fun d => d.elim0⟩

/-- An extended real whose absolute value lies strictly below the pattern of positive infinity is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => exact absurd h (by simp [Ideal.cmp])
  | top => exact absurd h (by simp [Ideal.cmp])
  | coe r => exact ⟨r, rfl⟩

/-- A signed 32-bit word that is at least 0 and below 51 has a value below 51. -/
theorem toNat_lt_51 (w : BitVec 32) (h1 : IntOp.cmpi .sge w 0#32 = 1#1) (h2 : IntOp.cmpi .slt w 51#32 = 1#1) :
    w.toNat < 51 := by
  have e0 : (0#32 : BitVec 32).toInt = 0 := by decide
  have e51 : (51#32 : BitVec 32).toInt = 51 := by decide
  simp only [IntOp.cmpi, StableHlo.Predicate.ofBool_eq_one_iff, BitVec.sle, BitVec.slt, decide_eq_true_eq, e0, e51] at h1 h2
  rw [BitVec.toInt_eq_toNat_cond] at h1 h2
  split at h1 <;> omega

/-- One all-finite test read back: the conjunction over all entries of the comparison of the absolute value with positive
    infinity is true only if every entry is a real number. -/
theorem allReal_of_test {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant (F := Ideal) S_ .f32 0x7F800000#32)))
          (constantI S_ 1 1#1) hr hu j = 1#1) : AllReal x := by
  intro i
  exact real_of_abs_lt_inf (x i) (Host.reduce_andi_all _ _ hr hu j e i)

/-- The range test read back: the conjunction over all entries of the two signed comparisons is true only if every word
    has a value below 51. -/
theorem lt_51_of_test {s : Shape} {axes : List (Fin s.rank)} (a : IVec s 32)
    (hb : S_.BroadcastsInDim s (![] : Fin 0 → Fin s.rank)) (hr : s.ReducesTo axes S_) (hu : 0 < S_.numel) (j : S_.Idx)
    (e : Host.reduce IntOp.andi (andi (cmpi .sge a (broadcastInDim s ![] hb (constantI S_ 32 0#32)))
            (cmpi .slt a (broadcastInDim s ![] hb (constantI S_ 32 51#32))))
          (constantI S_ 1 1#1) hr hu j = 1#1) : ∀ i, (a i).toNat < 51 := by
  intro i
  obtain ⟨h1, h2⟩ := IntOp.andi_eq_one.1 (Host.reduce_andi_all _ _ hr hu j e i)
  exact toNat_lt_51 (a i) h1 h2

theorem pre_decode (a0 : FVec Ideal S100000x256 .f32) (a1 : IVec S2x640000 32) (a2 : IVec S640000 32) (a3 : FVec Ideal S50x256 .f32)
    (a4 a5 a6 a7 : FVec Ideal S256x256 .f32) (a8 : FVec Ideal S1x256 .f32) (a9 a10 : FVec Ideal S256 .f32)
    (h : Cert.Pre_finite_inputs.fn (F := Ideal) a0 a1 a2 a3 a4 a5 a6 a7 a8 a9 a10 = (fun _ => 1#1)) :
    AllReal a0 ∧ AllReal a3 ∧ AllReal a4 ∧ AllReal a5 ∧ AllReal a6 ∧ AllReal a7 ∧ AllReal a8 ∧ AllReal a9 ∧ AllReal a10
      ∧ ∀ i, (a2 i).toNat < 51 := by
  have h0 := congrFun h ix0
  dsimp only [fn, fn_part1, fn_part2] at h0
  obtain ⟨h0, t2⟩ := IntOp.andi_eq_one.1 h0
  obtain ⟨h0, t10⟩ := IntOp.andi_eq_one.1 h0
  obtain ⟨h0, t9⟩ := IntOp.andi_eq_one.1 h0
  obtain ⟨h0, t8⟩ := IntOp.andi_eq_one.1 h0
  obtain ⟨h0, t7⟩ := IntOp.andi_eq_one.1 h0
  obtain ⟨h0, t6⟩ := IntOp.andi_eq_one.1 h0
  obtain ⟨h0, t5⟩ := IntOp.andi_eq_one.1 h0
  obtain ⟨h0, t4⟩ := IntOp.andi_eq_one.1 h0
  obtain ⟨t0, t3⟩ := IntOp.andi_eq_one.1 h0
  exact ⟨allReal_of_test a0 _ _ _ _ t0, allReal_of_test a3 _ _ _ _ t3, allReal_of_test a4 _ _ _ _ t4,
    allReal_of_test a5 _ _ _ _ t5, allReal_of_test a6 _ _ _ _ t6, allReal_of_test a7 _ _ _ _ t7,
    allReal_of_test a8 _ _ _ _ t8, allReal_of_test a9 _ _ _ _ t9, allReal_of_test a10 _ _ _ _ t10,
    lt_51_of_test a2 _ _ _ _ t2⟩

end Cert.Hand

end
-- ==== Proof.lean ====
/- The certificate of a relational graph-convolution layer with batch normalisation against its plain reference.

   Both programs split the edge list into an incoming and an outgoing half, compute the same symmetric degree
   normalisation and gather the same source rows. The reference gathers each edge's relation row and multiplies by the
   direction's weight matrix; the kernel picks the relation row with a one-hot product over the 51 rows, which is the same
   entry when every edge type is a row number of that table — the precondition's added conjunct. The reference scatters the
   two directions separately and adds, the kernel scatters their concatenation once: sums of extended reals re-associate.
   The batch variance is the mean squared deviation in the reference and the mean of the squares minus the squared mean in
   the kernel: equal on real numbers, and with finite inputs every entry of the averaged output is real. The second
   result, the relation table times a weight matrix without its last row, is computed by the same host operations.

   The word-level and idealized kernels' frames are the generated ones; the reference has no kernel, so its frame is
   its run with the results dropped; nothing was rewritten by the ideal pass, so the idealization claim is trivial. -/
import proofs.«407851_j24489903522003_2_alg».proof.Defs
import proofs.«407851_j24489903522003_2_alg».proof.Proof.Gen.Kernel
import proofs.«407851_j24489903522003_2_alg».proof.Proof.Gen.Kernel.Frame
import proofs.«407851_j24489903522003_2_alg».proof.Proof.Gen.KernelIdeal
import proofs.«407851_j24489903522003_2_alg».proof.Proof.Gen.KernelIdeal.Frame
import proofs.«407851_j24489903522003_2_alg».proof.Proof.Gen.ReferenceIdeal
import proofs.«407851_j24489903522003_2_alg».proof.Proof.Gen.Pre_finite_inputs
import proofs.«407851_j24489903522003_2_alg».proof.Proof.KRun
import proofs.«407851_j24489903522003_2_alg».proof.Proof.KValue
import proofs.«407851_j24489903522003_2_alg».proof.Proof.RefRun
import proofs.«407851_j24489903522003_2_alg».proof.Proof.Bridge
import proofs.«407851_j24489903522003_2_alg».proof.Proof.PreDecode
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the two results dropped. -/
theorem frame_ri : Cert.frame_ReferenceIdeal := fun m ρ _ =>
  (θ_run Cert.ReferenceIdeal.defs _ _).mono (fun _ h c => (h c).2.2) (Cert.ReferenceIdeal.Hand.run m ρ)

theorem preserves : Cert.preserves_Kernel_KernelIdeal := trivial

/-- Both programs end with the reference's two stage-by-stage terms of the arguments: the kernel's by its run, its value
    walk and the comparison of the two forms under the precondition; the reference's by its run and the agreement of the
    two memories on the arguments. -/
theorem algebraic : Cert.algebraic_KernelIdeal_ReferenceIdeal := by
  intro m ρ m' ρ' hpre hagree
  refine ⟨fun c => Cert.Hand.out0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.Hand.out1 (m ((c.tc : Thread Cert.KernelIdeal.nD Cert.KernelIdeal.τ).loc Cert.KernelIdeal.main_arg3)) (m ((c.tc : Thread Cert.KernelIdeal.nD Cert.KernelIdeal.τ).loc Cert.KernelIdeal.main_arg8)) (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.Gen.run_all (F := Ideal) m ρ)
    obtain ⟨h0, h3, h4, h5, h6, h7, h8, h9, h10, het⟩ := Cert.Hand.pre_decode _ _ _ _ _ _ _ _ _ _ _ (hpre c)
    refine ⟨?_, ?_, ?_, ?_, ?_, ?_, ?_, ?_, ?_, ?_, ?_, ?_, ?_⟩
    · exact ((h c _ (Cert.KernelIdeal.Gen.mem_uc Cert.KernelIdeal.main_v110 (by decide))).trans
        (Cert.KernelIdeal.Gen.kval0 m ρ c)).trans (Cert.Hand.bridge _ _ _ _ _ _ _ _ _ _ h0 h3 h4 h5 h6 h8 het)
    · exact (h c _ (Cert.KernelIdeal.Gen.mem_uc Cert.KernelIdeal.main_v112 (by decide))).trans
        (Cert.KernelIdeal.Gen.kval1 m ρ c)
    · exact (h c _ (Cert.KernelIdeal.Gen.mem_uc Cert.KernelIdeal.main_arg0 (by decide))).trans (Cert.KernelIdeal.Gen.W14_main_arg0 m ρ c)
    · exact (h c _ (Cert.KernelIdeal.Gen.mem_uc Cert.KernelIdeal.main_arg1 (by decide))).trans (Cert.KernelIdeal.Gen.W14_main_arg1 m ρ c)
    · exact (h c _ (Cert.KernelIdeal.Gen.mem_uc Cert.KernelIdeal.main_arg2 (by decide))).trans (Cert.KernelIdeal.Gen.W14_main_arg2 m ρ c)
    · exact (h c _ (Cert.KernelIdeal.Gen.mem_uc Cert.KernelIdeal.main_arg3 (by decide))).trans (Cert.KernelIdeal.Gen.W14_main_arg3 m ρ c)
    · exact (h c _ (Cert.KernelIdeal.Gen.mem_uc Cert.KernelIdeal.main_arg4 (by decide))).trans (Cert.KernelIdeal.Gen.W14_main_arg4 m ρ c)
    · exact (h c _ (Cert.KernelIdeal.Gen.mem_uc Cert.KernelIdeal.main_arg5 (by decide))).trans (Cert.KernelIdeal.Gen.W14_main_arg5 m ρ c)
    · exact (h c _ (Cert.KernelIdeal.Gen.mem_uc Cert.KernelIdeal.main_arg6 (by decide))).trans (Cert.KernelIdeal.Gen.W14_main_arg6 m ρ c)
    · exact (h c _ (Cert.KernelIdeal.Gen.mem_uc Cert.KernelIdeal.main_arg7 (by decide))).trans (Cert.KernelIdeal.Gen.W14_main_arg7 m ρ c)
    · exact (h c _ (Cert.KernelIdeal.Gen.mem_uc Cert.KernelIdeal.main_arg8 (by decide))).trans (Cert.KernelIdeal.Gen.W14_main_arg8 m ρ c)
    · exact (h c _ (Cert.KernelIdeal.Gen.mem_uc Cert.KernelIdeal.main_arg9 (by decide))).trans (Cert.KernelIdeal.Gen.W14_main_arg9 m ρ c)
    · exact (h c _ (Cert.KernelIdeal.Gen.mem_uc Cert.KernelIdeal.main_arg10 (by decide))).trans (Cert.KernelIdeal.Gen.W14_main_arg10 m ρ c)
  · refine (θ_run Cert.ReferenceIdeal.defs _ _).mono (fun r h c => ?_) (Cert.ReferenceIdeal.Hand.run m' ρ')
    obtain ⟨e0, e1, e2, e3, e4, e5, e6, e7, e8, e9, e10⟩ := hagree c
    obtain ⟨r0, r1, rest⟩ := h c
    refine ⟨?_, ?_, rest⟩
    · rw [r0, e0, e1, e2, e3, e4, e5, e6, e8, e9, e10]
    · rw [r1, e3, e8, e7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
